-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S64x32 : Shape := ⟨2, ![64, 32]⟩
abbrev S32x32 : Shape := ⟨2, ![32, 32]⟩
abbrev S32 : Shape := ⟨1, ![32]⟩
abbrev S32x3 : Shape := ⟨2, ![32, 3]⟩
abbrev S3 : Shape := ⟨1, ![3]⟩
abbrev S100000 : Shape := ⟨1, ![100000]⟩
abbrev S2500000 : Shape := ⟨1, ![2500000]⟩
abbrev S500000 : Shape := ⟨1, ![500000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S32 .f32) (main_arg8 : FVec F S32x3 .f32) (main_arg9 : FVec F S3 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x3 .f32 := Host.absf main_arg8
  let main_cst_14 : FVec F S_ .f32 := constant S_ .f32 0x7F800000#32
  let main_v40 : FVec F S32x3 .f32 := broadcastInDim S32x3 ![] bcast_S_S32x3 main_cst_14
  let main_v41 : IVec S32x3 1 := cmpf .olt main_v39 main_v40
  let main_c_15 : IVec S_ 1 := constantI S_ 1 1#1
  let main_v42 : IVec S_ 1 := (fun x v => Host.reduce IntOp.andi x v reducesTo_S32x3_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S32x32 .f32) (main_arg5 : FVec F S32 .f32) (main_arg6 : FVec F S32x32 .f32) (main_arg7 : FVec F S32 .f32) (main_arg8 : FVec F S32x3 .f32) (main_arg9 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x32 .f32) (main_arg1 : FVec F S64x32 .f32) (main_arg2 : FVec F S32x32 .f32) (main_arg3 : FVec F S32 .f32) (main_arg4 : FVec F S32x32 .f32) (main_arg5 : FVec F S32 .f32) (main_arg6 : FVec F S32x32 .f32) (main_arg7 : FVec F S32 .f32) (main_arg8 : FVec F S32x3 .f32) (main_arg9 : FVec F S3 .f32) (main_arg10 : IVec S100000 32) (main_arg11 : IVec S2500000 32) (main_arg12 : IVec S2500000 32) (main_arg13 : IVec S500000 32) (main_arg14 : IVec S500000 32) (main_arg15 : IVec S500000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S100000x32 : Shape := ⟨2, ![100000, 32]⟩
abbrev S64x32 : Shape := ⟨2, ![64, 32]⟩
abbrev S32x32 : Shape := ⟨2, ![32, 32]⟩
abbrev S32 : Shape := ⟨1, ![32]⟩
abbrev S32x3 : Shape := ⟨2, ![32, 3]⟩
abbrev S3 : Shape := ⟨1, ![3]⟩
abbrev S100000 : Shape := ⟨1, ![100000]⟩
abbrev S2500000 : Shape := ⟨1, ![2500000]⟩
abbrev S500000 : Shape := ⟨1, ![500000]⟩
abbrev S_ : Shape := ⟨0, ![]⟩
abbrev S100000x1 : Shape := ⟨2, ![100000, 1]⟩
abbrev S2600000 : Shape := ⟨1, ![2600000]⟩
abbrev S2600000x1 : Shape := ⟨2, ![2600000, 1]⟩
abbrev S1x32 : Shape := ⟨2, ![1, 32]⟩
abbrev S10000x32 : Shape := ⟨2, ![10000, 32]⟩
abbrev S10000x1 : Shape := ⟨2, ![10000, 1]⟩
abbrev S2600000x32 : Shape := ⟨2, ![2600000, 32]⟩
abbrev S500000x1 : Shape := ⟨2, ![500000, 1]⟩
abbrev S500000x32 : Shape := ⟨2, ![500000, 32]⟩
abbrev S507904x32 : Shape := ⟨2, ![507904, 32]⟩
abbrev S1x3 : Shape := ⟨2, ![1, 3]⟩
abbrev S507904x3 : Shape := ⟨2, ![507904, 3]⟩
abbrev S8192x32 : Shape := ⟨2, ![8192, 32]⟩
abbrev S8192x3 : Shape := ⟨2, ![8192, 3]⟩
abbrev S500000x3 : Shape := ⟨2, ![500000, 3]⟩

abbrev nBuf : Space → Nat
  | .hbm => 104
  | .vmem => 36
  | .smem => 0
  | _ => 0

abbrev bufTy : (tb : Table) → Fin (tcTables nBuf tb) → BufTy
  | .hbm, ⟨0, _⟩ => ⟨S100000x32, .f32⟩
  | .hbm, ⟨1, _⟩ => ⟨S64x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x3, .f32⟩
  | .hbm, ⟨9, _⟩ => ⟨S3, .f32⟩
  | .hbm, ⟨10, _⟩ => ⟨S100000, .i32⟩
  | .hbm, ⟨11, _⟩ => ⟨S2500000, .i32⟩
  | .hbm, ⟨12, _⟩ => ⟨S2500000, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000x32, .f32⟩
  | .hbm, ⟨25, _⟩ => ⟨S100000, .i32⟩
  | .hbm, ⟨26, _⟩ => ⟨S2600000, .i32⟩
  | .hbm, ⟨27, _⟩ => ⟨S2600000, .i32⟩
  | .hbm, ⟨28, _⟩ => ⟨S_, .f32⟩
  | .hbm, ⟨29, _⟩ => ⟨S2600000, .f32⟩
  | .hbm, ⟨30, _⟩ => ⟨S_, .f32⟩
  | .hbm, ⟨31, _⟩ => ⟨S100000, .f32⟩
  | .hbm, ⟨32, _⟩ => ⟨S2600000x1, .i32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S1x32, .f32⟩
  | .hbm, ⟨37, _⟩ => ⟨S1x32, .f32⟩
  | .hbm, ⟨38, _⟩ => ⟨S100000x32, .f32⟩
  | .hbm, ⟨39, _⟩ => ⟨S_, .i32⟩
  | .hbm, ⟨40, _⟩ => ⟨S2600000, .i32⟩
  | .hbm, ⟨41, _⟩ => ⟨S2600000, .i1⟩
  | .hbm, ⟨42, _⟩ => ⟨S_, .i32⟩
  | .hbm, ⟨43, _⟩ => ⟨S2600000, .i32⟩
  | .hbm, ⟨44, _⟩ => ⟨S2600000, .i32⟩
  | .hbm, ⟨45, _⟩ => ⟨S2600000, .i32⟩
  | .hbm, ⟨46, _⟩ => ⟨S2600000x1, .i32⟩
  | .hbm, ⟨47, _⟩ => ⟨S2600000x32, .f32⟩
  | .hbm, ⟨48, _⟩ => ⟨S_, .f32⟩
  | .hbm, ⟨49, _⟩ => ⟨S100000x32, .f32⟩
  | .hbm, ⟨50, _⟩ => ⟨S2600000x1, .i32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S_, .i32⟩
  | .hbm, ⟨55, _⟩ => ⟨S2600000, .i32⟩
  | .hbm, ⟨56, _⟩ => ⟨S2600000, .i1⟩
  | .hbm, ⟨57, _⟩ => ⟨S_, .i32⟩
  | .hbm, ⟨58, _⟩ => ⟨S2600000, .i32⟩
  | .hbm, ⟨59, _⟩ => ⟨S2600000, .i32⟩
  | .hbm, ⟨60, _⟩ => ⟨S2600000, .i32⟩
  | .hbm, ⟨61, _⟩ => ⟨S2600000x1, .i32⟩
  | .hbm, ⟨62, _⟩ => ⟨S2600000x32, .f32⟩
  | .hbm, ⟨63, _⟩ => ⟨S_, .f32⟩
  | .hbm, ⟨64, _⟩ => ⟨S100000x32, .f32⟩
  | .hbm, ⟨65, _⟩ => ⟨S2600000x1, .i32⟩
  | .hbm, ⟨66, _⟩ => ⟨S100000x32, .f32⟩
  | .hbm, ⟨67, _⟩ => ⟨S100000x32, .f32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x32, .f32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x32, .f32⟩
  | .hbm, ⟨86, _⟩ => ⟨S500000x32, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000x32, .f32⟩
  | .hbm, ⟨96, _⟩ => ⟨S500000x32, .f32⟩
  | .hbm, ⟨97, _⟩ => ⟨S_, .i32⟩
  | .hbm, ⟨98, _⟩ => ⟨S_, .f32⟩
  | .hbm, ⟨99, _⟩ => ⟨S507904x32, .f32⟩
  | .hbm, ⟨100, _⟩ => ⟨S1x32, .f32⟩
  | .hbm, ⟨101, _⟩ => ⟨S1x3, .f32⟩
  | .hbm, ⟨102, _⟩ => ⟨S507904x3, .f32⟩
  | .hbm, ⟨103, _⟩ => ⟨S500000x3, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S10000x1, .f32⟩
  | .local _ .vmem, ⟨4, _⟩ => ⟨S10000x1, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S32x32, .f32⟩
  | .local _ .vmem, ⟨17, _⟩ => ⟨S10000x1, .f32⟩
  | .local _ .vmem, ⟨18, _⟩ => ⟨S10000x1, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x1, .f32⟩
  | .local _ .vmem, ⟨24, _⟩ => ⟨S10000x1, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S8192x32, .f32⟩
  | .local _ .vmem, ⟨29, _⟩ => ⟨S8192x32, .f32⟩
  | .local _ .vmem, ⟨30, _⟩ => ⟨S32x32, .f32⟩
  | .local _ .vmem, ⟨31, _⟩ => ⟨S1x32, .f32⟩
  | .local _ .vmem, ⟨32, _⟩ => ⟨S32x3, .f32⟩
  | .local _ .vmem, ⟨33, _⟩ => ⟨S1x3, .f32⟩
  | .local _ .vmem, ⟨34, _⟩ => ⟨S8192x3, .f32⟩
  | .local _ .vmem, ⟨35, _⟩ => ⟨S8192x3, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_call0_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![62], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8192x3 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S2500000_S100000_S2600000_d0 : Shape.Concatenates [S2500000, S100000] S2600000 0
  bcast_S_S2600000 : S_.BroadcastsInDim S2600000 (![] : Fin 0 → Fin S2600000.rank)
  bcast_S2600000_S2600000x1_0 : S2600000.BroadcastsInDim S2600000x1 (![0] : Fin 1 → Fin S2600000x1.rank)
  shapeCasts_S100000_S100000x1 : S100000.ShapeCasts S100000x1
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  bcast_S_S100000x32 : S_.BroadcastsInDim S100000x32 (![] : Fin 0 → Fin S100000x32.rank)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S500000 : S_.BroadcastsInDim S500000 (![] : Fin 0 → Fin S500000.rank)
  bcast_S500000_S500000x1_0 : S500000.BroadcastsInDim S500000x1 (![0] : Fin 1 → Fin S500000x1.rank)
  pads_S500000x32_S507904x32_079040_000 : S500000x32.Pads (![0, 0] : Fin 2 → Nat) ![7904, 0] ![0, 0] S507904x32
  h_S_ : 0 < S_.numel
  shapeCasts_S3_S1x3 : S3.ShapeCasts S1x3
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  broadcasts_S1x32_S8192x32 : S1x32.Broadcasts S8192x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  inb_S8192x3_S8192x3_0_0 : ∀ a, (![0, 0] : Fin 2 → Nat) a + S8192x3.size a ≤ S8192x3.size a
  h_S8192x3 : 0 < S8192x3.numel
  slices_S507904x3_S500000x3_0_0 : S507904x3.Slices ![0, 0] S500000x3
  gather_S100000x32_S100000x1_S100000x32_1_0_n_n_0_1_132_wf : GatherDims.WF S100000x32 S100000x1 S100000x32 [1] [0] [] [0] [] 1 ![1, 32]
  scatter_S100000_S2600000x1_S2600000_n_0_0_1_wf : ScatterDims.WF S100000 S2600000x1 S2600000 [] [0] [0] 1
  dot_S10000x32_S32x32_S10000x32_1_0_0_1_n_n_wf : DotDims.WF S10000x32 S32x32 S10000x32 [1] [0] [0] [1] [] []
  gather_S100000x32_S2600000x1_S2600000x32_1_0_n_n_0_1_132_wf : GatherDims.WF S100000x32 S2600000x1 S2600000x32 [1] [0] [] [0] [] 1 ![1, 32]
  scatter_S100000x32_S2600000x1_S2600000x32_1_0_0_1_wf : ScatterDims.WF S100000x32 S2600000x1 S2600000x32 [1] [0] [0] 1
  gather_S100000x32_S500000x1_S500000x32_1_0_n_n_0_1_132_wf : GatherDims.WF S100000x32 S500000x1 S500000x32 [1] [0] [] [0] [] 1 ![1, 32]
  gather_S64x32_S500000x1_S500000x32_1_0_n_n_0_1_132_wf : GatherDims.WF S64x32 S500000x1 S500000x32 [1] [0] [] [0] [] 1 ![1, 32]
  dot_S8192x32_S32x32_S8192x32_1_0_0_1_n_n_wf : DotDims.WF S8192x32 S32x32 S8192x32 [1] [0] [0] [1] [] []
  dot_S8192x32_S32x3_S8192x3_1_0_0_1_n_n_wf : DotDims.WF S8192x32 S32x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x32.size a ≤ S507904x32.size a
  hwx4_0 : ∀ i : grid4.Coords, EltTy.bits .f32 = 32 ∨ (Rect.block (s := S507904x32) S8192x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x3.size a ≤ S32x3.size a
  hwx4_3 : ∀ i : grid4.Coords, EltTy.bits .f32 = 32 ∨ (Rect.block (s := S32x3) S32x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x3.size a ≤ S1x3.size a
  hwx4_4 : ∀ i : grid4.Coords, EltTy.bits .f32 = 32 ∨ (Rect.block (s := S1x3) S1x3.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8192x3.size a ≤ S507904x3.size a
  hwx4_5 : ∀ i : grid4.Coords, EltTy.bits .f32 = 32 ∨ (Rect.block (s := S507904x3) S8192x3.size (cc4_transform_5 i) (hinb4_5 i)).WholeWords (EltTy.packing .f32)

variable [Facts₀]

def gather_S100000x32_S100000x1_S100000x32_1_0_n_n_0_1_132 : GatherDims S100000x32 S100000x1 S100000x32 where
  offsetDims := [1]
  collapsedSliceDims := [0]
  operandBatchingDims := []
  startIndicesBatchingDims := []
  startIndexMap := [0]
  indexVectorDim := 1
  sliceSizes := ![1, 32]
  wf := gather_S100000x32_S100000x1_S100000x32_1_0_n_n_0_1_132_wf
def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S2600000x1_S2600000x32_1_0_n_n_0_1_132 : GatherDims S100000x32 S2600000x1 S2600000x32 where
  offsetDims := [1]
  collapsedSliceDims := [0]
  operandBatchingDims := []
  startIndicesBatchingDims := []
  startIndexMap := [0]
  indexVectorDim := 1
  sliceSizes := ![1, 32]
  wf := gather_S100000x32_S2600000x1_S2600000x32_1_0_n_n_0_1_132_wf
def scatter_S100000x32_S2600000x1_S2600000x32_1_0_0_1 : ScatterDims S100000x32 S2600000x1 S2600000x32 where
  updateWindowDims := [1]
  insertedWindowDims := [0]
  scatterDimsToOperandDims := [0]
  indexVectorDim := 1
  wf := scatter_S100000x32_S2600000x1_S2600000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def gather_S64x32_S500000x1_S500000x32_1_0_n_n_0_1_132 : GatherDims S64x32 S500000x1 S500000x32 where
  offsetDims := [1]
  collapsedSliceDims := [0]
  operandBatchingDims := []
  startIndicesBatchingDims := []
  startIndexMap := [0]
  indexVectorDim := 1
  sliceSizes := ![1, 32]
  wf := gather_S64x32_S500000x1_S500000x32_1_0_n_n_0_1_132_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x3_S8192x3_1_0_0_1_n_n : DotDims S8192x32 S32x3 S8192x3 where
  lhsContracting := [1]
  rhsContracting := [0]
  lhsNonContracting := [0]
  rhsNonContracting := [1]
  lhsBatch := []
  rhsBatch := []
  wf := dot_S8192x32_S32x3_S8192x3_1_0_0_1_n_n_wf

abbrev win0_0 : Pipeline.Window sig grid0 :=
  Pipeline.Window.ofSpec (Memref.whole main_v6) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S8192x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S32x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S8192x3.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x32 : Shape := ⟨2, ![100000, 32]⟩
abbrev S64x32 : Shape := ⟨2, ![64, 32]⟩
abbrev S32x32 : Shape := ⟨2, ![32, 32]⟩
abbrev S32 : Shape := ⟨1, ![32]⟩
abbrev S32x3 : Shape := ⟨2, ![32, 3]⟩
abbrev S3 : Shape := ⟨1, ![3]⟩
abbrev S100000 : Shape := ⟨1, ![100000]⟩
abbrev S2500000 : Shape := ⟨1, ![2500000]⟩
abbrev S500000 : Shape := ⟨1, ![500000]⟩
abbrev S_ : Shape := ⟨0, ![]⟩
abbrev S100000x1 : Shape := ⟨2, ![100000, 1]⟩
abbrev S2600000 : Shape := ⟨1, ![2600000]⟩
abbrev S2600000x1 : Shape := ⟨2, ![2600000, 1]⟩
abbrev S2600000x32 : Shape := ⟨2, ![2600000, 32]⟩
abbrev S1x32 : Shape := ⟨2, ![1, 32]⟩
abbrev S500000x1 : Shape := ⟨2, ![500000, 1]⟩
abbrev S500000x32 : Shape := ⟨2, ![500000, 32]⟩
abbrev S500000x3 : Shape := ⟨2, ![500000, 3]⟩
abbrev S1x3 : Shape := ⟨2, ![1, 3]⟩

abbrev nBuf : Space → Nat
  | .hbm => 139
  | .vmem => 0
  | .smem => 0
  | _ => 0

abbrev hbmTy0_0 (i : Nat) : BufTy := match i % 128 with
  | 0 => ⟨S100000x32, .f32⟩
  | 1 => ⟨S64x32, .f32⟩
  | 2 => ⟨S32x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S32x3, .f32⟩
  | 9 => ⟨S3, .f32⟩
  | 10 => ⟨S100000, .i32⟩
  | 11 => ⟨S2500000, .i32⟩
  | 12 => ⟨S2500000, .i32⟩
  | 13 => ⟨S500000, .i32⟩
  | 14 => ⟨S500000, .i32⟩
  | 15 => ⟨S500000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x32, .f32⟩
  | 25 => ⟨S100000, .i32⟩
  | 26 => ⟨S2600000, .i32⟩
  | 27 => ⟨S2600000, .i32⟩
  | 28 => ⟨S_, .f32⟩
  | 29 => ⟨S2600000, .f32⟩
  | 30 => ⟨S_, .f32⟩
  | 31 => ⟨S100000, .f32⟩
  | 32 => ⟨S2600000x1, .i32⟩
  | 33 => ⟨S100000, .f32⟩
  | 34 => ⟨S100000, .f32⟩
  | 35 => ⟨S_, .i32⟩
  | 36 => ⟨S2600000, .i32⟩
  | 37 => ⟨S2600000, .i1⟩
  | 38 => ⟨S_, .i32⟩
  | 39 => ⟨S2600000, .i32⟩
  | 40 => ⟨S2600000, .i32⟩
  | 41 => ⟨S2600000, .i32⟩
  | 42 => ⟨S2600000x1, .i32⟩
  | 43 => ⟨S2600000, .f32⟩
  | 44 => ⟨S_, .i32⟩
  | 45 => ⟨S2600000, .i32⟩
  | 46 => ⟨S2600000, .i1⟩
  | 47 => ⟨S_, .i32⟩
  | 48 => ⟨S2600000, .i32⟩
  | 49 => ⟨S2600000, .i32⟩
  | 50 => ⟨S2600000, .i32⟩
  | 51 => ⟨S2600000x1, .i32⟩
  | 52 => ⟨S2600000, .f32⟩
  | 53 => ⟨S2600000, .f32⟩
  | 54 => ⟨S2600000x1, .f32⟩
  | 55 => ⟨S100000x32, .f32⟩
  | 56 => ⟨S_, .i32⟩
  | 57 => ⟨S2600000, .i32⟩
  | 58 => ⟨S2600000, .i1⟩
  | 59 => ⟨S_, .i32⟩
  | 60 => ⟨S2600000, .i32⟩
  | 61 => ⟨S2600000, .i32⟩
  | 62 => ⟨S2600000, .i32⟩
  | 63 => ⟨S2600000x1, .i32⟩
  | 64 => ⟨S2600000x32, .f32⟩
  | 65 => ⟨S2600000x32, .f32⟩
  | 66 => ⟨S2600000x32, .f32⟩
  | 67 => ⟨S_, .f32⟩
  | 68 => ⟨S100000x32, .f32⟩
  | 69 => ⟨S2600000x1, .i32⟩
  | 70 => ⟨S100000x32, .f32⟩
  | 71 => ⟨S1x32, .f32⟩
  | 72 => ⟨S100000x32, .f32⟩
  | 73 => ⟨S100000x32, .f32⟩
  | 74 => ⟨S_, .f32⟩
  | 75 => ⟨S100000x32, .f32⟩
  | 76 => ⟨S100000x32, .f32⟩
  | 77 => ⟨S100000x32, .f32⟩
  | 78 => ⟨S_, .i32⟩
  | 79 => ⟨S2600000, .i32⟩
  | 80 => ⟨S2600000, .i1⟩
  | 81 => ⟨S_, .i32⟩
  | 82 => ⟨S2600000, .i32⟩
  | 83 => ⟨S2600000, .i32⟩
  | 84 => ⟨S2600000, .i32⟩
  | 85 => ⟨S2600000x1, .i32⟩
  | 86 => ⟨S2600000x32, .f32⟩
  | 87 => ⟨S2600000x32, .f32⟩
  | 88 => ⟨S2600000x32, .f32⟩
  | 89 => ⟨S_, .f32⟩
  | 90 => ⟨S100000x32, .f32⟩
  | 91 => ⟨S2600000x1, .i32⟩
  | 92 => ⟨S100000x32, .f32⟩
  | 93 => ⟨S1x32, .f32⟩
  | 94 => ⟨S100000x32, .f32⟩
  | 95 => ⟨S100000x32, .f32⟩
  | 96 => ⟨S_, .f32⟩
  | 97 => ⟨S100000x32, .f32⟩
  | 98 => ⟨S100000x32, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x32, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x32, .f32⟩
  | 117 => ⟨S500000x32, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x32, .f32⟩
  | 127 => ⟨S500000x32, .f32⟩
  | _ => ⟨S100000x32, .f32⟩

abbrev hbmTy0_1 (i : Nat) : BufTy := match i % 128 with
  | 0 => ⟨S500000x32, .f32⟩
  | 1 => ⟨S1x32, .f32⟩
  | 2 => ⟨S500000x32, .f32⟩
  | 3 => ⟨S500000x32, .f32⟩
  | 4 => ⟨S_, .f32⟩
  | 5 => ⟨S500000x32, .f32⟩
  | 6 => ⟨S500000x32, .f32⟩
  | 7 => ⟨S500000x3, .f32⟩
  | 8 => ⟨S1x3, .f32⟩
  | 9 => ⟨S500000x3, .f32⟩
  | 10 => ⟨S500000x3, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call0_cst : Ref sig .tc := ⟨.hbm, 74, rfl⟩
abbrev main_call0_v0 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call1_cst : Ref sig .tc := ⟨.hbm, 96, rfl⟩
abbrev main_call1_v0 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_16 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call2_cst : Ref sig .tc := ⟨.hbm, 132, rfl⟩
abbrev main_call2_v0 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S2500000_S100000_S2600000_d0 : Shape.Concatenates [S2500000, S100000] S2600000 0
  bcast_S_S2600000 : S_.BroadcastsInDim S2600000 (![] : Fin 0 → Fin S2600000.rank)
  bcast_S2600000_S2600000x1_0 : S2600000.BroadcastsInDim S2600000x1 (![0] : Fin 1 → Fin S2600000x1.rank)
  bcast_S2600000x1_S2600000x32_0_1 : S2600000x1.BroadcastsInDim S2600000x32 (![0, 1] : Fin 2 → Fin S2600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S500000 : S_.BroadcastsInDim S500000 (![] : Fin 0 → Fin S500000.rank)
  bcast_S500000_S500000x1_0 : S500000.BroadcastsInDim S500000x1 (![0] : Fin 1 → Fin S500000x1.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  gather_S100000x32_S100000x1_S100000x32_1_0_n_n_0_1_132_wf : GatherDims.WF S100000x32 S100000x1 S100000x32 [1] [0] [] [0] [] 1 ![1, 32]
  scatter_S100000_S2600000x1_S2600000_n_0_0_1_wf : ScatterDims.WF S100000 S2600000x1 S2600000 [] [0] [0] 1
  gather_S100000_S2600000x1_S2600000_n_0_n_n_0_1_1_wf : GatherDims.WF S100000 S2600000x1 S2600000 [] [0] [] [0] [] 1 ![1]
  dot_S100000x32_S32x32_S100000x32_1_0_0_1_n_n_wf : DotDims.WF S100000x32 S32x32 S100000x32 [1] [0] [0] [1] [] []
  gather_S100000x32_S2600000x1_S2600000x32_1_0_n_n_0_1_132_wf : GatherDims.WF S100000x32 S2600000x1 S2600000x32 [1] [0] [] [0] [] 1 ![1, 32]
  scatter_S100000x32_S2600000x1_S2600000x32_1_0_0_1_wf : ScatterDims.WF S100000x32 S2600000x1 S2600000x32 [1] [0] [0] 1
  gather_S100000x32_S500000x1_S500000x32_1_0_n_n_0_1_132_wf : GatherDims.WF S100000x32 S500000x1 S500000x32 [1] [0] [] [0] [] 1 ![1, 32]
  gather_S64x32_S500000x1_S500000x32_1_0_n_n_0_1_132_wf : GatherDims.WF S64x32 S500000x1 S500000x32 [1] [0] [] [0] [] 1 ![1, 32]
  dot_S500000x32_S32x32_S500000x32_1_0_0_1_n_n_wf : DotDims.WF S500000x32 S32x32 S500000x32 [1] [0] [0] [1] [] []
  dot_S500000x32_S32x3_S500000x3_1_0_0_1_n_n_wf : DotDims.WF S500000x32 S32x3 S500000x3 [1] [0] [0] [1] [] []

variable [Facts₀]

def gather_S100000x32_S100000x1_S100000x32_1_0_n_n_0_1_132 : GatherDims S100000x32 S100000x1 S100000x32 where
  offsetDims := [1]
  collapsedSliceDims := [0]
  operandBatchingDims := []
  startIndicesBatchingDims := []
  startIndexMap := [0]
  indexVectorDim := 1
  sliceSizes := ![1, 32]
  wf := gather_S100000x32_S100000x1_S100000x32_1_0_n_n_0_1_132_wf
def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def gather_S100000_S2600000x1_S2600000_n_0_n_n_0_1_1 : GatherDims S100000 S2600000x1 S2600000 where
  offsetDims := []
  collapsedSliceDims := [0]
  operandBatchingDims := []
  startIndicesBatchingDims := []
  startIndexMap := [0]
  indexVectorDim := 1
  sliceSizes := ![1]
  wf := gather_S100000_S2600000x1_S2600000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S2600000x1_S2600000x32_1_0_n_n_0_1_132 : GatherDims S100000x32 S2600000x1 S2600000x32 where
  offsetDims := [1]
  collapsedSliceDims := [0]
  operandBatchingDims := []
  startIndicesBatchingDims := []
  startIndexMap := [0]
  indexVectorDim := 1
  sliceSizes := ![1, 32]
  wf := gather_S100000x32_S2600000x1_S2600000x32_1_0_n_n_0_1_132_wf
def scatter_S100000x32_S2600000x1_S2600000x32_1_0_0_1 : ScatterDims S100000x32 S2600000x1 S2600000x32 where
  updateWindowDims := [1]
  insertedWindowDims := [0]
  scatterDimsToOperandDims := [0]
  indexVectorDim := 1
  wf := scatter_S100000x32_S2600000x1_S2600000x32_1_0_0_1_wf
def gather_S100000x32_S500000x1_S500000x32_1_0_n_n_0_1_132 : GatherDims S100000x32 S500000x1 S500000x32 where
  offsetDims := [1]
  collapsedSliceDims := [0]
  operandBatchingDims := []
  startIndicesBatchingDims := []
  startIndexMap := [0]
  indexVectorDim := 1
  sliceSizes := ![1, 32]
  wf := gather_S100000x32_S500000x1_S500000x32_1_0_n_n_0_1_132_wf
def gather_S64x32_S500000x1_S500000x32_1_0_n_n_0_1_132 : GatherDims S64x32 S500000x1 S500000x32 where
  offsetDims := [1]
  collapsedSliceDims := [0]
  operandBatchingDims := []
  startIndicesBatchingDims := []
  startIndexMap := [0]
  indexVectorDim := 1
  sliceSizes := ![1, 32]
  wf := gather_S64x32_S500000x1_S500000x32_1_0_n_n_0_1_132_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf
def dot_S500000x32_S32x3_S500000x3_1_0_0_1_n_n : DotDims S500000x32 S32x3 S500000x3 where
  lhsContracting := [1]
  rhsContracting := [0]
  lhsNonContracting := [0]
  rhsNonContracting := [1]
  lhsBatch := []
  rhsBatch := []
  wf := dot_S500000x32_S32x3_S500000x3_1_0_0_1_n_n_wf

class Facts : Prop extends Facts₀ where

variable [Facts]
-- ==== Proof.Spec.lean ====
/-
  The three kernel bodies of the GCN program as functions of whole arrays, index by index, over the extended reals.
  Each is generic in the number of rows, so that a block of rows and the full array are instances of one definition:
  every row of the result depends only on the same row of the row-indexed operands.
    lin  X W d   : row i of X · W, scaled by the row's factor d i          (the pre-scaled linear layer)
    post A d b   : max (d i · A i + b) 0                                      (post-scale, bias, rectifier)
    mlp  T W₁ b₁ W₂ b₂ : (max (T · W₁ + b₁) 0) · W₂ + b₂                       (the two-layer head)
-/
import Idealize.ShloMosaic.Lib.ValueIdx
import Idealize.ShloMosaic.PureOps.Ideal

noncomputable section

namespace Cert.Spec

open Idealize.ShloMosaic Idealize.ShloMosaic.ValueIdx

/-- Row `i` of `X · W` (a sum over the 32 shared coordinates), times the row's scale `d i`. -/
def lin {n : ℕ} (X : FVec Ideal ⟨2, ![n, 32]⟩ .f32) (W : FVec Ideal ⟨2, ![32, 32]⟩ .f32)
    (d : FVec Ideal ⟨2, ![n, 1]⟩ .f32) : FVec Ideal ⟨2, ![n, 32]⟩ .f32 :=
  fun i => d (ix2 (i 0) (0 : Fin 1)) * ∑ k : Fin 32, X (ix2 (i 0) k) * W (ix2 k (i 1))

/-- The aggregated row scaled by the row's factor, plus the bias, rectified. -/
def post {n : ℕ} (A : FVec Ideal ⟨2, ![n, 32]⟩ .f32) (d : FVec Ideal ⟨2, ![n, 1]⟩ .f32)
    (b : FVec Ideal ⟨2, ![1, 32]⟩ .f32) : FVec Ideal ⟨2, ![n, 32]⟩ .f32 :=
  fun i => max (d (ix2 (i 0) (0 : Fin 1)) * A i + b (ix2 (0 : Fin 1) (i 1))) 0

/-- The hidden layer of the head: `max (T · W₁ + b₁) 0` at row `r`, hidden unit `k`. -/
def hidden {n : ℕ} (T : FVec Ideal ⟨2, ![n, 32]⟩ .f32) (W₁ : FVec Ideal ⟨2, ![32, 32]⟩ .f32)
    (b₁ : FVec Ideal ⟨2, ![1, 32]⟩ .f32) (r : Fin n) (k : Fin 32) : EReal :=
  max ((∑ l : Fin 32, T (ix2 r l) * W₁ (ix2 l k)) + b₁ (ix2 (0 : Fin 1) k)) 0

/-- The head: the hidden layer times `W₂`, plus `b₂`. -/
def mlp {n : ℕ} (T : FVec Ideal ⟨2, ![n, 32]⟩ .f32) (W₁ : FVec Ideal ⟨2, ![32, 32]⟩ .f32)
    (b₁ : FVec Ideal ⟨2, ![1, 32]⟩ .f32) (W₂ : FVec Ideal ⟨2, ![32, 3]⟩ .f32) (b₂ : FVec Ideal ⟨2, ![1, 3]⟩ .f32) :
    FVec Ideal ⟨2, ![n, 3]⟩ .f32 :=
  fun i => (∑ k : Fin 32, hidden T W₁ b₁ (i 0) k * W₂ (ix2 k (i 1))) + b₂ (ix2 (0 : Fin 1) (i 1))

end Cert.Spec

end
-- ==== Proof.KVal.lean ====
/-
  The kernel program's value, stage by stage, as functions of the argument arrays at the extended reals.
  The host stretches are the program's own operations (jnp's index normalisation: a negative start word has the row
  count added; the gather then clamps, the scatter-add drops what falls outside); each pallas_call is replaced by the
  whole-array function its grid of row blocks computes (`Spec.lin`, `Spec.post`, `Spec.mlp`).
    x0      the entity rows the node ids name
    srcf, dstf   the edge lists with one self loop per node appended
    dis2    (degree)^(-1/2) as a column, the degree counted over dstf
    layer   X ↦ post (scatter-add over dstf of the rows of lin X W dis2 that srcf names) dis2 b
    triple  x2[head] + relation[rel] + x2[tail]
    out     the first 500000 rows of the head applied to the zero-padded triple
-/
import proofs.«419057_j12043088298451_4_alg».proof.Proof.Gen.KernelIdeal
import proofs.«419057_j12043088298451_4_alg».proof.Proof.Spec

noncomputable section

namespace Cert.KernelIdeal.KVal

open Idealize.ShloMosaic Cert.KernelIdeal Cert.KernelIdeal.Gen

/-- jnp's normalisation of node-index words (100000 rows): a negative word has 100000 added; as a column of start words. -/
def wrapN (v : IVec S100000 32) : IVec S100000x1 32 :=
  broadcastInDim S100000x1 ![0] bcast_S100000_S100000x1_0
    (select (cmpi .slt v (broadcastInDim S100000 ![] bcast_S_S100000 (constantI S_ 32 0#32)))
      (addi v (broadcastInDim S100000 ![] bcast_S_S100000 (constantI S_ 32 100000#32))) v)

/-- The same over the 2600000 edge words. -/
def wrapE (v : IVec S2600000 32) : IVec S2600000x1 32 :=
  broadcastInDim S2600000x1 ![0] bcast_S2600000_S2600000x1_0
    (select (cmpi .slt v (broadcastInDim S2600000 ![] bcast_S_S2600000 (constantI S_ 32 0#32)))
      (addi v (broadcastInDim S2600000 ![] bcast_S_S2600000 (constantI S_ 32 100000#32))) v)

/-- The same over the 500000 triple words, against an axis of `n` rows. -/
def wrapT (n : BitVec 32) (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 n))) v)

/-- The entity rows the node ids name. -/
def x0 (a0 : FVec Ideal S100000x32 .f32) (a10 : IVec S100000 32) : FVec Ideal S100000x32 .f32 :=
  Host.gather gather_S100000x32_S100000x1_S100000x32_1_0_n_n_0_1_132 a0 (wrapN a10)

/-- An edge list with the self loops `0, 1, …, 99999` appended. -/
def withLoops (a : IVec S2500000 32) : IVec S2600000 32 :=
  concatenate S2600000 0 [⟨S2500000, a⟩, ⟨S100000, iotaInDim S100000 32 0⟩] concatenates_S2500000_S100000_S2600000_d0

/-- The destination words as a column of start words (not normalised: the scatter-add drops what is out of range). -/
def dstCol (a12 : IVec S2500000 32) : IVec S2600000x1 32 :=
  broadcastInDim S2600000x1 ![0] bcast_S2600000_S2600000x1_0 (withLoops a12)

/-- The degree: the number of edges (self loops included) into each node. -/
def deg (a12 : IVec S2500000 32) : FVec Ideal S100000 .f32 :=
  Host.scatterAdd scatter_S100000_S2600000x1_S2600000_n_0_0_1
    (broadcastInDim S100000 ![] bcast_S_S100000 (constant S_ .f32 0x00000000#32)) (dstCol a12)
    (broadcastInDim S2600000 ![] bcast_S_S2600000 (constant S_ .f32 0x3F800000#32))

/-- (degree)^(-1/2). -/
def dis (a12 : IVec S2500000 32) : FVec Ideal S100000 .f32 := Host.rsqrt (deg a12)

/-- … as a column. -/
def dis2 (a12 : IVec S2500000 32) : FVec Ideal S100000x1 .f32 :=
  shapeCast S100000x1 (dis a12) shapeCasts_S100000_S100000x1

/-- A bias vector as one row. -/
def row32 (b : FVec Ideal S32 .f32) : FVec Ideal S1x32 .f32 := shapeCast S1x32 b shapeCasts_S32_S1x32

/-- The aggregation: the rows of `h` the source words name, summed into the rows the destination words name. -/
def agg (h : FVec Ideal S100000x32 .f32) (a11 a12 : IVec S2500000 32) : FVec Ideal S100000x32 .f32 :=
  Host.scatterAdd scatter_S100000x32_S2600000x1_S2600000x32_1_0_0_1
    (broadcastInDim S100000x32 ![] bcast_S_S100000x32 (constant S_ .f32 0x00000000#32)) (dstCol a12)
    (Host.gather gather_S100000x32_S2600000x1_S2600000x32_1_0_n_n_0_1_132 h (wrapE (withLoops a11)))

/-- One GCN layer as the kernel computes it. -/
def layer (X : FVec Ideal S100000x32 .f32) (W : FVec Ideal S32x32 .f32) (b : FVec Ideal S32 .f32)
    (a11 a12 : IVec S2500000 32) : FVec Ideal S100000x32 .f32 :=
  Spec.post (agg (Spec.lin X W (dis2 a12)) a11 a12) (dis2 a12) (row32 b)

/-- The head's input: `x2[head] + relation[rel] + x2[tail]`. -/
def triple (x2 : FVec Ideal S100000x32 .f32) (a1 : FVec Ideal S64x32 .f32) (a13 a14 a15 : IVec S500000 32) :
    FVec Ideal S500000x32 .f32 :=
  addf (addf (Host.gather gather_S100000x32_S500000x1_S500000x32_1_0_n_n_0_1_132 x2 (wrapT 100000#32 a13))
      (Host.gather gather_S64x32_S500000x1_S500000x32_1_0_n_n_0_1_132 a1 (wrapT 64#32 a15)))
    (Host.gather gather_S100000x32_S500000x1_S500000x32_1_0_n_n_0_1_132 x2 (wrapT 100000#32 a14))

/-- The triple rows padded with 7904 zero rows to a whole number of 8192-row blocks. -/
def padded (t : FVec Ideal S500000x32 .f32) : FVec Ideal S507904x32 .f32 :=
  pad S507904x32 ![0, 0] ![7904, 0] ![0, 0] t (sitofp .f32 (constantI S_ 32 0#32) : FVec Ideal S_ .f32)
    pads_S500000x32_S507904x32_079040_000 h_S_

/-- The kernel program's result. -/
def out (a0 : FVec Ideal S100000x32 .f32) (a1 : FVec Ideal S64x32 .f32) (a2 : FVec Ideal S32x32 .f32) (a3 : FVec Ideal S32 .f32)
    (a4 : FVec Ideal S32x32 .f32) (a5 : FVec Ideal S32 .f32) (a6 : FVec Ideal S32x32 .f32) (a7 : FVec Ideal S32 .f32)
    (a8 : FVec Ideal S32x3 .f32) (a9 : FVec Ideal S3 .f32) (a10 : IVec S100000 32) (a11 a12 : IVec S2500000 32)
    (a13 a14 a15 : IVec S500000 32) : FVec Ideal S500000x3 .f32 :=
  extractStridedSlice S500000x3 ![0, 0]
    (Spec.mlp (padded (triple (layer (layer (x0 a0 a10) a2 a3 a11 a12) a4 a5 a11 a12) a1 a13 a14 a15))
      a6 (row32 a7) a8 (shapeCast S1x3 a9 shapeCasts_S3_S1x3))
    slices_S507904x3_S500000x3_0_0

end Cert.KernelIdeal.KVal

end
-- ==== Proof.Region0.lean ====
/-
  Pallas call 0 (the pre-scaled linear layer) as a function of whole arrays.
  The grid has 10 points; point t stages rows 10000·t … 10000·t + 9999 of the node features (main_v6) and of the scale
  column, and the whole 32×32 weight (main_arg2); the body stores scale ⊙ (rows · W) into the same rows of main_v18. Every row of
  the result depends only on the same row of the features and the scale, so the ten blocks are the restrictions of
  ONE function of the full arrays, `Spec.lin`, and they cover all 100000 rows.
  First the body's arithmetic on a block, index by index (a column broadcast, a matrix product into the zero splat, a
  pointwise product): it is `Spec.lin` of the block. Then the blocks: each input block is its array read at the block's
  rows, so `Spec.lin` of the blocks at a row is `Spec.lin` of the arrays at that row; the output's blocks tile the array.
-/
import proofs.«419057_j12043088298451_4_alg».proof.Proof.Gen.KernelIdeal.Frame
import proofs.«419057_j12043088298451_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block's payload, index by index -/

/-- A column [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index: its row is the output's row. -/
theorem lhs_rows_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- The product's left operand index: its column is the contraction coordinate. -/
theorem lhs_rows_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- The product's right operand index: its row is the contraction coordinate. -/
theorem rhs_rows_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- The product's right operand index: its column is the output's column. -/
theorem rhs_rows_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The block's matrix product into the zero splat, at row p and column q: the sum over the 32 shared coordinates. -/
theorem matmul_rows_apply (x : FVec Ideal S10000x32 .f32) (w : FVec Ideal S32x32 .f32) (p : Fin 10000) (q : Fin 32) :
    matmul dot_S10000x32_S32x32_S10000x32_1_0_0_1_n_n none x w (constant S10000x32 .f32 0x00000000#32) (ix2 p q)
      = ∑ k : Fin 32, x (ix2 p k) * w (ix2 k q) := by
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact lhs_rows_0 _ _
    | ⟨1, _⟩ => exact (lhs_rows_1 _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (rhs_rows_0 _ _).trans hk
    | ⟨1, _⟩ => exact rhs_rows_1 _ _)
  rw [el, er]

/-- The body's payload on a block of 10000 rows is the linear layer on those rows. -/
theorem pay_eq (x0 : Vec Ideal S10000x32 .f32) (x1 : Vec Ideal S32x32 .f32) (x2 : Vec Ideal S10000x1 .f32) :
    k0_pay1 x0 x1 x2 = Spec.lin x0 x1 x2 := by
  funext i
  obtain ⟨p, q, rfl⟩ : ∃ (p : Fin 10000) (q : Fin 32), i = ix2 p q := ⟨i 0, i 1, eq_ix2 i⟩
  unfold k0_pay1
  unfold Cert.Spec.lin
  rw [shapeCast_self, shapeCast_self, mulf_apply]
  refine congrArg₂ (· * ·) ?_ ?_
  · exact broadcastTo_a1_ab_apply _ _ p q
  · exact matmul_rows_apply x0 x1 p q

/-! ## The ten blocks as one array -/

theorem hz : (![0, 0] : Fin 2 → Nat) = fun _ => 0 := funext fun a => by
  match a with
  | ⟨0, _⟩ => rfl
  | ⟨1, _⟩ => rfl

/-- The printed index maps, decided once over the grid: at point t the features', the scale's and the output's block is
    block (t, 0) of its array, the weight's is the whole array, block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The features' block at point t is rows 10000·t … 10000·t + 9999 of main_v6. -/
theorem feat_block (c : Dev nD) (t : Fin cfg0.N) (y : S10000x32.Idx) (k : S100000x32.Idx)
    (hk0 : (k 0).val = t.val * 10000 + (y 0).val) (hk1 : (k 1).val = (y 1).val) :
    (iblk0 (F := Ideal) V c 0 t : Vec Ideal S10000x32 .f32) y = (V c main_v6 : S100000x32.Idx → Elt Ideal .f32) k := by
  obtain ⟨⟨e0, e1⟩, -, -, -⟩ := idx_facts t
  unfold iblk0
  rw [View.read_apply]
  show V c main_v6 _ = V c main_v6 _
  congr 1
  funext a
  apply Fin.ext
  match a with
  | ⟨0, _⟩ => show win0_0.index t (0 : Fin 2) * 10000 + 1 * (y 0).val = (k 0).val; rw [e0, hk0]; omega
  | ⟨1, _⟩ => show win0_0.index t (1 : Fin 2) * 32 + 1 * (y 1).val = (k 1).val; rw [e1, hk1]; omega

/-- The weight's block at every point is the whole of main_arg2. -/
theorem weight_block (c : Dev nD) (t : Fin cfg0.N) (y : S32x32.Idx) :
    (iblk0 (F := Ideal) V c 1 t : Vec Ideal S32x32 .f32) y = (V c main_arg2 : S32x32.Idx → Elt Ideal .f32) y := by
  obtain ⟨-, ⟨e0, e1⟩, -, -⟩ := idx_facts t
  unfold iblk0
  rw [View.read_apply]
  show V c main_arg2 _ = V c main_arg2 _
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 32 + 1 * (y 1).val = (y 1).val; rw [e1]; omega

/-- The scale's block at point t is rows 10000·t … 10000·t + 9999 of main_v15. -/
theorem scale_block (c : Dev nD) (t : Fin cfg0.N) (y : S10000x1.Idx) (k : S100000x1.Idx)
    (hk0 : (k 0).val = t.val * 10000 + (y 0).val) (hk1 : (k 1).val = (y 1).val) :
    (iblk0 (F := Ideal) V c 2 t : Vec Ideal S10000x1 .f32) y = (V c main_v15 : S100000x1.Idx → Elt Ideal .f32) k := by
  obtain ⟨-, -, ⟨e0, e1⟩, -⟩ := idx_facts t
  unfold iblk0
  rw [View.read_apply]
  show V c main_v15 _ = V c main_v15 _
  congr 1
  funext a
  apply Fin.ext
  match a with
  | ⟨0, _⟩ => show win0_2.index t (0 : Fin 2) * 10000 + 1 * (y 0).val = (k 0).val; rw [e0, hk0]; omega
  | ⟨1, _⟩ => show win0_2.index t (1 : Fin 2) * 1 + 1 * (y 1).val = (k 1).val; rw [e1, hk1]; omega

/-- Row by row: when a block of 10000 rows of the features and of the scale is the arrays' rows r … r + 9999 and the
    block of the weight is the weight, the linear layer of the blocks at row p is the linear layer of the arrays at
    row r + p. -/
theorem lin_rows (X : FVec Ideal S100000x32 .f32) (W : FVec Ideal S32x32 .f32) (d : FVec Ideal S100000x1 .f32)
    (Xb : FVec Ideal S10000x32 .f32) (Wb : FVec Ideal S32x32 .f32) (db : FVec Ideal S10000x1 .f32) (r : ℕ)
    (hX : ∀ (y : S10000x32.Idx) (k : S100000x32.Idx), (k 0).val = r + (y 0).val → (k 1).val = (y 1).val → Xb y = X k)
    (hW : ∀ y : S32x32.Idx, Wb y = W y)
    (hd : ∀ (y : S10000x1.Idx) (k : S100000x1.Idx), (k 0).val = r + (y 0).val → (k 1).val = (y 1).val → db y = d k)
    (j : S10000x32.Idx) (i : S100000x32.Idx) (hi0 : (i 0).val = r + (j 0).val) (hi1 : (i 1).val = (j 1).val) :
    Spec.lin Xb Wb db j = Spec.lin (n := 100000) X W d i := by
  unfold Cert.Spec.lin
  refine congrArg₂ (· * ·) (hd _ _ hi0 rfl) (Finset.sum_congr rfl fun k _ => ?_)
  refine congrArg₂ (· * ·) (hX _ _ hi0 rfl) ?_
  exact (hW _).trans (congrArg W (Shape.idx_ext₂ rfl hi1.symm))

/-- WHAT POINT t WRITES BACK is block t of the linear layer of the arrays as the region finds them. -/
theorem flushed_eq (c : Dev nD) (t : Fin cfg0.N) :
    (dat0 (F := Ideal) V c).flushed 3 t
      = ((cfg0.win 3).blk t).view.read (Elt Ideal) (Spec.lin (n := 100000) (V c main_v6) (V c main_arg2) (V c main_v15)) := by
  show (cfg0.win 3).cut (grid0.coords t) ((dat0 (F := Ideal) V c).after 3 t) = _
  rw [after0_3]
  unfold out0_3
  rw [View.canon_unit_zero hz]
  simp only [View.ld_unit_zero (S := S10000x32) hz, View.ld_unit_zero (S := S32x32) hz, View.ld_unit_zero (S := S10000x1) hz]
  rw [pay_eq]
  obtain ⟨-, -, -, e0, e1⟩ := idx_facts t
  funext j
  show Spec.lin (iblk0 (F := Ideal) V c 0 t) (iblk0 (F := Ideal) V c 1 t) (iblk0 (F := Ideal) V c 2 t) ((cfg0.win 3).xinj (grid0.coords t) j)
    = Spec.lin (n := 100000) (V c main_v6) (V c main_arg2) (V c main_v15) (((cfg0.win 3).blk t).view.emb j)
  refine lin_rows _ _ _ _ _ _ (t.val * 10000) (fun y k h0 h1 => feat_block V c t y k h0 h1) (fun y => weight_block V c t y)
    (fun y k h0 h1 => scale_block V c t y k h0 h1) _ _ ?_ ?_
  · show win0_3.index t (0 : Fin 2) * 10000 + 1 * (j 0).val = t.val * 10000 + (j 0).val
    rw [e0]; omega
  · show win0_3.index t (1 : Fin 2) * 32 + 1 * (j 1).val = (j 1).val
    rw [e1]; omega

/-- An index of the array is in point t's block iff each coordinate is in the block's range on its axis. -/
theorem mem_blk (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v18).slice (win0_3.rect t)).set ↔ _
  rw [View.set_slice_whole, Rect.mem_set_unit]
  exact Iff.rfl

/-- The blocks tile the array: row i₀ is in the block of point i₀ / 10000, which is written back. -/
theorem covered (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := rfl
  have ht : (i 0).val / 10000 < cfg0.N := by rw [hN]; omega
  obtain ⟨-, -, -, e0, e1⟩ := idx_facts ⟨(i 0).val / 10000, ht⟩
  refine ⟨⟨(i 0).val / 10000, ht⟩, flush0_3 _, ?_⟩
  rw [mem_blk]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_3.index ⟨(i 0).val / 10000, ht⟩ (1 : Fin 2) * 32 ≤ (i 1).val
      ∧ (i 1).val < win0_3.index ⟨(i 0).val / 10000, ht⟩ (1 : Fin 2) * 32 + 32
    rw [e1]; omega

/-- What pallas call 0 leaves in its output array main_v18. -/
theorem arr (c : Dev nD) :
    (dat0 (F := Ideal) V c).arrAt 3 cfg0.N = Spec.lin (n := 100000) (V c main_v6) (V c main_arg2) (V c main_v15) :=
  (dat0 (F := Ideal) V c).arrAt_eq_of_cover 3 (Spec.lin (n := 100000) (V c main_v6) (V c main_arg2) (V c main_v15))
    (fun t _ => flushed_eq V c t) covered

end Cert.KernelIdeal.Region0

end
-- ==== Proof.Region1.lean ====
/-
  Pallas call 1 (post-scale, bias, rectifier) as a function of whole arrays.
  The grid has 10 points; point t stages rows 10000·t … 10000·t + 9999 of the aggregated features (main_v28) and of the scale
  column, and the bias row (main_v16); the body stores max (scale ⊙ rows + bias) 0 into the same rows of main_v29. The blocks are
  the restrictions of ONE pointwise function of the full arrays, `Spec.post`, and they cover all 100000 rows.

  In two steps. (1) `pay_eq`: the body's arithmetic on a block, read index by index (a column broadcast reads its row's one
  entry, a row broadcast its column's, the zero splat is 0), is `Spec.post` of the block. (2) `arr`: `Spec.post` is row-local
  (`post_rows`), row p of point t's blocks is row 10000·t + p of the arrays (`emb_*`, from the index maps decided over the
  grid), so what point t writes back is block t of `Spec.post` of the full arrays (`flushed_eq`); row i₀ lies in the block of
  point i₀ / 10000 (`covered`), hence the array ends holding `Spec.post` of the full arrays.
-/
import proofs.«419057_j12043088298451_4_alg».proof.Proof.Gen.KernelIdeal.Frame
import proofs.«419057_j12043088298451_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable (V : (c : Dev nD) → (b : Ref sig .tc) → Buf (Elt Ideal) ((c : Thread nD τ).loc b))

/-- The body's payload on a block of 10000 rows is the pointwise finish on those rows (the payload takes the scale
    block first, the aggregated block second). -/
theorem pay_eq (v0 : Vec Ideal S10000x1 .f32) (v2 : Vec Ideal S10000x32 .f32) (v6 : Vec Ideal S1x32 .f32) :
    k1_pay1 v0 v2 v6 = Spec.post v2 v0 v6 := by
  funext i
  obtain ⟨p, q, rfl⟩ : ∃ (p : Fin 10000) (q : Fin 32), i = ix2 p q := ⟨i 0, i 1, eq_ix2 i⟩
  unfold k1_pay1 Spec.post
  rw [shapeCast_self, shapeCast_self, shapeCast_self]
  show max (broadcastTo S10000x32 v0 _ (ix2 p q) * v2 (ix2 p q) + broadcastTo S10000x32 v6 _ (ix2 p q))
      (Ideal.ofBits .f32 0x00000000#32) = _
  rw [broadcastTo_a1_ab_apply, broadcastTo_1b_ab_apply, Ideal.ofBits_zero_f32]

/-! ## From the blocks to the array -/

theorem hz : (![0, 0] : Fin 2 → Nat) = fun _ => 0 := funext fun a => by fin_cases a <;> rfl

/-- The grid has ten points. -/
theorem N_eq : cfg1.N = 10 := rfl

/-- The printed index maps, decided over the grid: the aggregated block, the scale block and the output block of point
    `t` are block `(t, 0)` of their arrays; the bias row is block `(0, 0)` at every point. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

/-- Row-locality of the finish: at a block index `(p, q)` it reads row `p` of the block operands and column `q` of the
    bias, so it agrees with the finish on full arrays at `(r, q)` as soon as the block operands' row `p` is the full
    arrays' row `r`. -/
theorem post_rows (A : FVec Ideal S100000x32 .f32) (d : FVec Ideal S100000x1 .f32) (b : FVec Ideal S1x32 .f32)
    (x0 : FVec Ideal S10000x32 .f32) (x1 : FVec Ideal S10000x1 .f32) (x2 : FVec Ideal S1x32 .f32)
    (p : Fin 10000) (q : Fin 32) (r : Fin 100000)
    (h0 : x0 (ix2 p q) = A (ix2 r q)) (h1 : x1 (ix2 p (0 : Fin 1)) = d (ix2 r (0 : Fin 1)))
    (h2 : x2 (ix2 (0 : Fin 1) q) = b (ix2 (0 : Fin 1) q)) :
    Spec.post x0 x1 x2 (ix2 p q) = Spec.post A d b (ix2 r q) := by
  show max (x1 (ix2 p (0 : Fin 1)) * x0 (ix2 p q) + x2 (ix2 (0 : Fin 1) q)) 0
      = max (d (ix2 r (0 : Fin 1)) * A (ix2 r q) + b (ix2 (0 : Fin 1) q)) 0
  rw [h0, h1, h2]

/-- An element of point `t`'s aggregated block is the aggregated array's, at the block's place in the array. -/
theorem iblk_agg (c : Dev nD) (t : Fin cfg1.N) (y : S10000x32.Idx) :
    iblk1 V c 0 t y = V c main_v28 (((cfg1.win 0).blk t).view.emb y) := rfl
/-- An element of point `t`'s scale block is the scale column's, at the block's place in the column. -/
theorem iblk_scale (c : Dev nD) (t : Fin cfg1.N) (y : S10000x1.Idx) :
    iblk1 V c 1 t y = V c main_v15 (((cfg1.win 1).blk t).view.emb y) := rfl
/-- An element of the bias block is the bias row's. -/
theorem iblk_bias (c : Dev nD) (t : Fin cfg1.N) (y : S1x32.Idx) :
    iblk1 V c 2 t y = V c main_v16 (((cfg1.win 2).blk t).view.emb y) := rfl

/-- Row `p` of point `t`'s aggregated block is row `10000·t + p` of the array. -/
theorem emb_agg (t : Fin cfg1.N) (p : Fin 10000) (q : Fin 32) (r : Fin 100000) (hr : r.val = t.val * 10000 + p.val) :
    ((cfg1.win 0).blk t).view.emb (ix2 p q) = ix2 r q := by
  obtain ⟨⟨e0, e1⟩, -⟩ := idx_facts t
  funext a; apply Fin.ext
  match a with
  | ⟨0, _⟩ => show win1_0.index t (0 : Fin 2) * 10000 + 1 * p.val = r.val; omega
  | ⟨1, _⟩ => show win1_0.index t (1 : Fin 2) * 32 + 1 * q.val = q.val; omega

/-- Row `p` of point `t`'s scale block is row `10000·t + p` of the column. -/
theorem emb_scale (t : Fin cfg1.N) (p : Fin 10000) (r : Fin 100000) (hr : r.val = t.val * 10000 + p.val) :
    ((cfg1.win 1).blk t).view.emb (ix2 p (0 : Fin 1)) = ix2 r (0 : Fin 1) := by
  obtain ⟨-, ⟨e0, e1⟩, -⟩ := idx_facts t
  funext a; apply Fin.ext
  match a with
  | ⟨0, _⟩ => show win1_1.index t (0 : Fin 2) * 10000 + 1 * p.val = r.val; omega
  | ⟨1, _⟩ => show win1_1.index t (1 : Fin 2) * 1 + 1 * 0 = 0; omega

/-- The bias block is the whole bias row. -/
theorem emb_bias (t : Fin cfg1.N) (q : Fin 32) :
    ((cfg1.win 2).blk t).view.emb (ix2 (0 : Fin 1) q) = ix2 (0 : Fin 1) q := by
  obtain ⟨-, -, ⟨e0, e1⟩, -⟩ := idx_facts t
  funext a; apply Fin.ext
  match a with
  | ⟨0, _⟩ => show win1_2.index t (0 : Fin 2) * 1 + 1 * 0 = 0; omega
  | ⟨1, _⟩ => show win1_2.index t (1 : Fin 2) * 32 + 1 * q.val = q.val; omega

/-- Row `p` of point `t`'s output block is row `10000·t + p` of the output array. -/
theorem emb_out (t : Fin cfg1.N) (p : Fin 10000) (q : Fin 32) (r : Fin 100000) (hr : r.val = t.val * 10000 + p.val) :
    ((cfg1.win 3).blk t).view.emb (ix2 p q) = ix2 r q := by
  obtain ⟨-, -, -, e0, e1⟩ := idx_facts t
  funext a; apply Fin.ext
  match a with
  | ⟨0, _⟩ => show win1_3.index t (0 : Fin 2) * 10000 + 1 * p.val = r.val; omega
  | ⟨1, _⟩ => show win1_3.index t (1 : Fin 2) * 32 + 1 * q.val = q.val; omega

/-- WHAT POINT `t` WRITES BACK is block `t` of the finish of the full arrays as the region finds them. -/
theorem flushed_eq (c : Dev nD) (t : Fin cfg1.N) :
    (dat1 (F := Ideal) V c).flushed 3 t
      = ((cfg1.win 3).blk t).view.read (Elt Ideal) (Spec.post (n := 100000) (V c main_v28) (V c main_v15) (V c main_v16)) := by
  show (cfg1.win 3).cut (grid1.coords t) ((dat1 V c).after 3 t) = _
  rw [after1_3]
  unfold out1_3
  rw [View.canon_unit_zero hz]
  simp only [View.ld_unit_zero (S := S10000x32) hz, View.ld_unit_zero (S := S10000x1) hz, View.ld_unit_zero (S := S1x32) hz]
  rw [pay_eq]
  funext j
  obtain ⟨p, q, rfl⟩ : ∃ (p : Fin 10000) (q : Fin 32), j = ix2 p q := ⟨j 0, j 1, eq_ix2 j⟩
  have ht : t.val < 10 := t.isLt
  obtain ⟨r, hr⟩ : ∃ r : Fin 100000, r.val = t.val * 10000 + p.val := ⟨⟨t.val * 10000 + p.val, by have := p.isLt; omega⟩, rfl⟩
  show Spec.post (iblk1 V c 0 t) (iblk1 V c 1 t) (iblk1 V c 2 t) (ix2 p q)
    = Spec.post (n := 100000) (V c main_v28) (V c main_v15) (V c main_v16) (((cfg1.win 3).blk t).view.emb (ix2 p q))
  rw [emb_out t p q r hr]
  refine post_rows _ _ _ _ _ _ p q r ?_ ?_ ?_
  · rw [iblk_agg, emb_agg t p q r hr]
  · rw [iblk_scale, emb_scale t p r hr]
  · rw [iblk_bias, emb_bias t q]

/-- An index of the output array is in point `t`'s block iff each coordinate is in the block's range on its axis. -/
theorem mem_blk (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v29).slice (win1_3.rect t)).set ↔ _
  rw [View.set_slice_whole, Rect.mem_set_unit]
  exact Iff.rfl

/-- The ten blocks cover the output array: row `i₀` is in the block of point `i₀ / 10000`. -/
theorem covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ : ∃ t : Fin cfg1.N, t.val = (i 0).val / 10000 := ⟨⟨(i 0).val / 10000, by rw [N_eq]; omega⟩, rfl⟩
  obtain ⟨-, -, -, e0, e1⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- What pallas call 1 leaves in its output array main_v29. -/
theorem arr (c : Dev nD) :
    (dat1 (F := Ideal) V c).arrAt 3 cfg1.N = Spec.post (n := 100000) (V c main_v28) (V c main_v15) (V c main_v16) :=
  (dat1 V c).arrAt_eq_of_cover 3 (Spec.post (n := 100000) (V c main_v28) (V c main_v15) (V c main_v16))
    (fun t _ => flushed_eq V c t) covered

end Cert.KernelIdeal.Region1

end
-- ==== Proof.Region2.lean ====
/-
  Pallas call 2 (the pre-scaled linear layer) as a function of whole arrays.
  The grid has 10 points; point t stages rows 10000·t … 10000·t + 9999 of the node features (main_v29) and of the scale
  column, and the whole 32×32 weight (main_arg4); the body stores scale ⊙ (rows · W) into the same rows of main_v30. Every row of
  the result depends only on the same row of the features and the scale, so the ten blocks are the restrictions of
  ONE function of the full arrays, `Spec.lin`, and they cover all 100000 rows.
  First the body's arithmetic on a block, index by index (a column broadcast, a matrix product into the zero splat, a
  pointwise product): it is `Spec.lin` of the block. Then the blocks: each input block is its array read at the block's
  rows, so `Spec.lin` of the blocks at a row is `Spec.lin` of the arrays at that row; the output's blocks tile the array.
-/
import proofs.«419057_j12043088298451_4_alg».proof.Proof.Gen.KernelIdeal.Frame
import proofs.«419057_j12043088298451_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block's payload, index by index -/

/-- A column [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index: its row is the output's row. -/
theorem lhs_rows_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- The product's left operand index: its column is the contraction coordinate. -/
theorem lhs_rows_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- The product's right operand index: its row is the contraction coordinate. -/
theorem rhs_rows_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- The product's right operand index: its column is the output's column. -/
theorem rhs_rows_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The block's matrix product into the zero splat, at row p and column q: the sum over the 32 shared coordinates. -/
theorem matmul_rows_apply (x : FVec Ideal S10000x32 .f32) (w : FVec Ideal S32x32 .f32) (p : Fin 10000) (q : Fin 32) :
    matmul dot_S10000x32_S32x32_S10000x32_1_0_0_1_n_n none x w (constant S10000x32 .f32 0x00000000#32) (ix2 p q)
      = ∑ k : Fin 32, x (ix2 p k) * w (ix2 k q) := by
  simp only [matmul]
  rw [Ideal.matmul_constant_zero_apply, ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact lhs_rows_0 _ _
    | ⟨1, _⟩ => exact (lhs_rows_1 _ _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (rhs_rows_0 _ _).trans hk
    | ⟨1, _⟩ => exact rhs_rows_1 _ _)
  rw [el, er]

/-- The body's payload on a block of 10000 rows is the linear layer on those rows. -/
theorem pay_eq (x0 : Vec Ideal S10000x32 .f32) (x1 : Vec Ideal S32x32 .f32) (x2 : Vec Ideal S10000x1 .f32) :
    k2_pay1 x0 x1 x2 = Spec.lin x0 x1 x2 := by
  funext i
  obtain ⟨p, q, rfl⟩ : ∃ (p : Fin 10000) (q : Fin 32), i = ix2 p q := ⟨i 0, i 1, eq_ix2 i⟩
  unfold k2_pay1
  unfold Cert.Spec.lin
  rw [shapeCast_self, shapeCast_self, mulf_apply]
  refine congrArg₂ (· * ·) ?_ ?_
  · exact broadcastTo_a1_ab_apply _ _ p q
  · exact matmul_rows_apply x0 x1 p q

/-! ## The ten blocks as one array -/

theorem hz : (![0, 0] : Fin 2 → Nat) = fun _ => 0 := funext fun a => by
  match a with
  | ⟨0, _⟩ => rfl
  | ⟨1, _⟩ => rfl

/-- The printed index maps, decided once over the grid: at point t the features', the scale's and the output's block is
    block (t, 0) of its array, the weight's is the whole array, block (0, 0). -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0) :=
  (by decide +kernel : ∀ t : Fin grid2.N, _)

/-- The features' block at point t is rows 10000·t … 10000·t + 9999 of main_v29. -/
theorem feat_block (c : Dev nD) (t : Fin cfg2.N) (y : S10000x32.Idx) (k : S100000x32.Idx)
    (hk0 : (k 0).val = t.val * 10000 + (y 0).val) (hk1 : (k 1).val = (y 1).val) :
    (iblk2 (F := Ideal) V c 0 t : Vec Ideal S10000x32 .f32) y = (V c main_v29 : S100000x32.Idx → Elt Ideal .f32) k := by
  obtain ⟨⟨e0, e1⟩, -, -, -⟩ := idx_facts t
  unfold iblk2
  rw [View.read_apply]
  show V c main_v29 _ = V c main_v29 _
  congr 1
  funext a
  apply Fin.ext
  match a with
  | ⟨0, _⟩ => show win2_0.index t (0 : Fin 2) * 10000 + 1 * (y 0).val = (k 0).val; rw [e0, hk0]; omega
  | ⟨1, _⟩ => show win2_0.index t (1 : Fin 2) * 32 + 1 * (y 1).val = (k 1).val; rw [e1, hk1]; omega

/-- The weight's block at every point is the whole of main_arg4. -/
theorem weight_block (c : Dev nD) (t : Fin cfg2.N) (y : S32x32.Idx) :
    (iblk2 (F := Ideal) V c 1 t : Vec Ideal S32x32 .f32) y = (V c main_arg4 : S32x32.Idx → Elt Ideal .f32) y := by
  obtain ⟨-, ⟨e0, e1⟩, -, -⟩ := idx_facts t
  unfold iblk2
  rw [View.read_apply]
  show V c main_arg4 _ = V c main_arg4 _
  congr 1
  funext a
  apply Fin.ext
  match a with
  | ⟨0, _⟩ => show win2_1.index t (0 : Fin 2) * 32 + 1 * (y 0).val = (y 0).val; rw [e0]; omega
  | ⟨1, _⟩ => show win2_1.index t (1 : Fin 2) * 32 + 1 * (y 1).val = (y 1).val; rw [e1]; omega

/-- The scale's block at point t is rows 10000·t … 10000·t + 9999 of main_v15. -/
theorem scale_block (c : Dev nD) (t : Fin cfg2.N) (y : S10000x1.Idx) (k : S100000x1.Idx)
    (hk0 : (k 0).val = t.val * 10000 + (y 0).val) (hk1 : (k 1).val = (y 1).val) :
    (iblk2 (F := Ideal) V c 2 t : Vec Ideal S10000x1 .f32) y = (V c main_v15 : S100000x1.Idx → Elt Ideal .f32) k := by
  obtain ⟨-, -, ⟨e0, e1⟩, -⟩ := idx_facts t
  unfold iblk2
  rw [View.read_apply]
  show V c main_v15 _ = V c main_v15 _
  congr 1
  funext a
  apply Fin.ext
  match a with
  | ⟨0, _⟩ => show win2_2.index t (0 : Fin 2) * 10000 + 1 * (y 0).val = (k 0).val; rw [e0, hk0]; omega
  | ⟨1, _⟩ => show win2_2.index t (1 : Fin 2) * 1 + 1 * (y 1).val = (k 1).val; rw [e1, hk1]; omega

/-- Row by row: when a block of 10000 rows of the features and of the scale is the arrays' rows r … r + 9999 and the
    block of the weight is the weight, the linear layer of the blocks at row p is the linear layer of the arrays at
    row r + p. -/
theorem lin_rows (X : FVec Ideal S100000x32 .f32) (W : FVec Ideal S32x32 .f32) (d : FVec Ideal S100000x1 .f32)
    (Xb : FVec Ideal S10000x32 .f32) (Wb : FVec Ideal S32x32 .f32) (db : FVec Ideal S10000x1 .f32) (r : ℕ)
    (hX : ∀ (y : S10000x32.Idx) (k : S100000x32.Idx), (k 0).val = r + (y 0).val → (k 1).val = (y 1).val → Xb y = X k)
    (hW : ∀ y : S32x32.Idx, Wb y = W y)
    (hd : ∀ (y : S10000x1.Idx) (k : S100000x1.Idx), (k 0).val = r + (y 0).val → (k 1).val = (y 1).val → db y = d k)
    (j : S10000x32.Idx) (i : S100000x32.Idx) (hi0 : (i 0).val = r + (j 0).val) (hi1 : (i 1).val = (j 1).val) :
    Spec.lin Xb Wb db j = Spec.lin (n := 100000) X W d i := by
  unfold Cert.Spec.lin
  refine congrArg₂ (· * ·) (hd _ _ hi0 rfl) (Finset.sum_congr rfl fun k _ => ?_)
  refine congrArg₂ (· * ·) (hX _ _ hi0 rfl) ?_
  exact (hW _).trans (congrArg W (Shape.idx_ext₂ rfl hi1.symm))

/-- WHAT POINT t WRITES BACK is block t of the linear layer of the arrays as the region finds them. -/
theorem flushed_eq (c : Dev nD) (t : Fin cfg2.N) :
    (dat2 (F := Ideal) V c).flushed 3 t
      = ((cfg2.win 3).blk t).view.read (Elt Ideal) (Spec.lin (n := 100000) (V c main_v29) (V c main_arg4) (V c main_v15)) := by
  show (cfg2.win 3).cut (grid2.coords t) ((dat2 (F := Ideal) V c).after 3 t) = _
  rw [after2_3]
  unfold out2_3
  rw [View.canon_unit_zero hz]
  simp only [View.ld_unit_zero (S := S10000x32) hz, View.ld_unit_zero (S := S32x32) hz, View.ld_unit_zero (S := S10000x1) hz]
  rw [pay_eq]
  obtain ⟨-, -, -, e0, e1⟩ := idx_facts t
  funext j
  show Spec.lin (iblk2 (F := Ideal) V c 0 t) (iblk2 (F := Ideal) V c 1 t) (iblk2 (F := Ideal) V c 2 t) ((cfg2.win 3).xinj (grid2.coords t) j)
    = Spec.lin (n := 100000) (V c main_v29) (V c main_arg4) (V c main_v15) (((cfg2.win 3).blk t).view.emb j)
  refine lin_rows _ _ _ _ _ _ (t.val * 10000) (fun y k h0 h1 => feat_block V c t y k h0 h1) (fun y => weight_block V c t y)
    (fun y k h0 h1 => scale_block V c t y k h0 h1) _ _ ?_ ?_
  · show win2_3.index t (0 : Fin 2) * 10000 + 1 * (j 0).val = t.val * 10000 + (j 0).val
    rw [e0]; omega
  · show win2_3.index t (1 : Fin 2) * 32 + 1 * (j 1).val = (j 1).val
    rw [e1]; omega

/-- An index of the array is in point t's block iff each coordinate is in the block's range on its axis. -/
theorem mem_blk (t : Fin cfg2.N) (i : S100000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v30).slice (win2_3.rect t)).set ↔ _
  rw [View.set_slice_whole, Rect.mem_set_unit]
  exact Iff.rfl

/-- The blocks tile the array: row i₀ is in the block of point i₀ / 10000, which is written back. -/
theorem covered (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 10 := rfl
  have ht : (i 0).val / 10000 < cfg2.N := by rw [hN]; omega
  obtain ⟨-, -, -, e0, e1⟩ := idx_facts ⟨(i 0).val / 10000, ht⟩
  refine ⟨⟨(i 0).val / 10000, ht⟩, flush2_3 _, ?_⟩
  rw [mem_blk]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_3.index ⟨(i 0).val / 10000, ht⟩ (1 : Fin 2) * 32 ≤ (i 1).val
      ∧ (i 1).val < win2_3.index ⟨(i 0).val / 10000, ht⟩ (1 : Fin 2) * 32 + 32
    rw [e1]; omega

/-- What pallas call 2 leaves in its output array main_v30. -/
theorem arr (c : Dev nD) :
    (dat2 (F := Ideal) V c).arrAt 3 cfg2.N = Spec.lin (n := 100000) (V c main_v29) (V c main_arg4) (V c main_v15) :=
  (dat2 (F := Ideal) V c).arrAt_eq_of_cover 3 (Spec.lin (n := 100000) (V c main_v29) (V c main_arg4) (V c main_v15))
    (fun t _ => flushed_eq V c t) covered

end Cert.KernelIdeal.Region2

end
-- ==== Proof.Region3.lean ====
/-
  Pallas call 3 (post-scale, bias, rectifier) as a function of whole arrays.
  The grid has 10 points; point t stages rows 10000·t … 10000·t + 9999 of the aggregated features (main_v40) and of the scale
  column, and the bias row (main_v17); the body stores max (scale ⊙ rows + bias) 0 into the same rows of main_v41. The blocks are
  the restrictions of ONE pointwise function of the full arrays, `Spec.post`, and they cover all 100000 rows.

  In two steps. (1) `pay_eq`: the body's arithmetic on a block, read index by index (a column broadcast reads its row's one
  entry, a row broadcast its column's, the zero splat is 0), is `Spec.post` of the block. (2) `arr`: `Spec.post` is row-local
  (`post_rows`), row p of point t's blocks is row 10000·t + p of the arrays (`emb_*`, from the index maps decided over the
  grid), so what point t writes back is block t of `Spec.post` of the full arrays (`flushed_eq`); row i₀ lies in the block of
  point i₀ / 10000 (`covered`), hence the array ends holding `Spec.post` of the full arrays.
-/
import proofs.«419057_j12043088298451_4_alg».proof.Proof.Gen.KernelIdeal.Frame
import proofs.«419057_j12043088298451_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable (V : (c : Dev nD) → (b : Ref sig .tc) → Buf (Elt Ideal) ((c : Thread nD τ).loc b))

/-- The body's payload on a block of 10000 rows is the pointwise finish on those rows (the payload takes the scale
    block first, the aggregated block second). -/
theorem pay_eq (v0 : Vec Ideal S10000x1 .f32) (v2 : Vec Ideal S10000x32 .f32) (v6 : Vec Ideal S1x32 .f32) :
    k3_pay1 v0 v2 v6 = Spec.post v2 v0 v6 := by
  funext i
  obtain ⟨p, q, rfl⟩ : ∃ (p : Fin 10000) (q : Fin 32), i = ix2 p q := ⟨i 0, i 1, eq_ix2 i⟩
  unfold k3_pay1 Spec.post
  rw [shapeCast_self, shapeCast_self, shapeCast_self]
  show max (broadcastTo S10000x32 v0 _ (ix2 p q) * v2 (ix2 p q) + broadcastTo S10000x32 v6 _ (ix2 p q))
      (Ideal.ofBits .f32 0x00000000#32) = _
  rw [broadcastTo_a1_ab_apply, broadcastTo_1b_ab_apply, Ideal.ofBits_zero_f32]

/-! ## From the blocks to the array -/

theorem hz : (![0, 0] : Fin 2 → Nat) = fun _ => 0 := funext fun a => by fin_cases a <;> rfl

/-- The grid has ten points. -/
theorem N_eq : cfg3.N = 10 := rfl

/-- The printed index maps, decided over the grid: the aggregated block, the scale block and the output block of point
    `t` are block `(t, 0)` of their arrays; the bias row is block `(0, 0)` at every point. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = t.val ∧ win3_3.index t (1 : Fin 2) = 0) :=
  (by decide +kernel : ∀ t : Fin grid3.N, _)

/-- Row-locality of the finish: at a block index `(p, q)` it reads row `p` of the block operands and column `q` of the
    bias, so it agrees with the finish on full arrays at `(r, q)` as soon as the block operands' row `p` is the full
    arrays' row `r`. -/
theorem post_rows (A : FVec Ideal S100000x32 .f32) (d : FVec Ideal S100000x1 .f32) (b : FVec Ideal S1x32 .f32)
    (x0 : FVec Ideal S10000x32 .f32) (x1 : FVec Ideal S10000x1 .f32) (x2 : FVec Ideal S1x32 .f32)
    (p : Fin 10000) (q : Fin 32) (r : Fin 100000)
    (h0 : x0 (ix2 p q) = A (ix2 r q)) (h1 : x1 (ix2 p (0 : Fin 1)) = d (ix2 r (0 : Fin 1)))
    (h2 : x2 (ix2 (0 : Fin 1) q) = b (ix2 (0 : Fin 1) q)) :
    Spec.post x0 x1 x2 (ix2 p q) = Spec.post A d b (ix2 r q) := by
  show max (x1 (ix2 p (0 : Fin 1)) * x0 (ix2 p q) + x2 (ix2 (0 : Fin 1) q)) 0
      = max (d (ix2 r (0 : Fin 1)) * A (ix2 r q) + b (ix2 (0 : Fin 1) q)) 0
  rw [h0, h1, h2]

/-- An element of point `t`'s aggregated block is the aggregated array's, at the block's place in the array. -/
theorem iblk_agg (c : Dev nD) (t : Fin cfg3.N) (y : S10000x32.Idx) :
    iblk3 V c 0 t y = V c main_v40 (((cfg3.win 0).blk t).view.emb y) := rfl
/-- An element of point `t`'s scale block is the scale column's, at the block's place in the column. -/
theorem iblk_scale (c : Dev nD) (t : Fin cfg3.N) (y : S10000x1.Idx) :
    iblk3 V c 1 t y = V c main_v15 (((cfg3.win 1).blk t).view.emb y) := rfl
/-- An element of the bias block is the bias row's. -/
theorem iblk_bias (c : Dev nD) (t : Fin cfg3.N) (y : S1x32.Idx) :
    iblk3 V c 2 t y = V c main_v17 (((cfg3.win 2).blk t).view.emb y) := rfl

/-- Row `p` of point `t`'s aggregated block is row `10000·t + p` of the array. -/
theorem emb_agg (t : Fin cfg3.N) (p : Fin 10000) (q : Fin 32) (r : Fin 100000) (hr : r.val = t.val * 10000 + p.val) :
    ((cfg3.win 0).blk t).view.emb (ix2 p q) = ix2 r q := by
  obtain ⟨⟨e0, e1⟩, -⟩ := idx_facts t
  funext a; apply Fin.ext
  match a with
  | ⟨0, _⟩ => show win3_0.index t (0 : Fin 2) * 10000 + 1 * p.val = r.val; omega
  | ⟨1, _⟩ => show win3_0.index t (1 : Fin 2) * 32 + 1 * q.val = q.val; omega

/-- Row `p` of point `t`'s scale block is row `10000·t + p` of the column. -/
theorem emb_scale (t : Fin cfg3.N) (p : Fin 10000) (r : Fin 100000) (hr : r.val = t.val * 10000 + p.val) :
    ((cfg3.win 1).blk t).view.emb (ix2 p (0 : Fin 1)) = ix2 r (0 : Fin 1) := by
  obtain ⟨-, ⟨e0, e1⟩, -⟩ := idx_facts t
  funext a; apply Fin.ext
  match a with
  | ⟨0, _⟩ => show win3_1.index t (0 : Fin 2) * 10000 + 1 * p.val = r.val; omega
  | ⟨1, _⟩ => show win3_1.index t (1 : Fin 2) * 1 + 1 * 0 = 0; omega

/-- The bias block is the whole bias row. -/
theorem emb_bias (t : Fin cfg3.N) (q : Fin 32) :
    ((cfg3.win 2).blk t).view.emb (ix2 (0 : Fin 1) q) = ix2 (0 : Fin 1) q := by
  obtain ⟨-, -, ⟨e0, e1⟩, -⟩ := idx_facts t
  funext a; apply Fin.ext
  match a with
  | ⟨0, _⟩ => show win3_2.index t (0 : Fin 2) * 1 + 1 * 0 = 0; omega
  | ⟨1, _⟩ => show win3_2.index t (1 : Fin 2) * 32 + 1 * q.val = q.val; omega

/-- Row `p` of point `t`'s output block is row `10000·t + p` of the output array. -/
theorem emb_out (t : Fin cfg3.N) (p : Fin 10000) (q : Fin 32) (r : Fin 100000) (hr : r.val = t.val * 10000 + p.val) :
    ((cfg3.win 3).blk t).view.emb (ix2 p q) = ix2 r q := by
  obtain ⟨-, -, -, e0, e1⟩ := idx_facts t
  funext a; apply Fin.ext
  match a with
  | ⟨0, _⟩ => show win3_3.index t (0 : Fin 2) * 10000 + 1 * p.val = r.val; omega
  | ⟨1, _⟩ => show win3_3.index t (1 : Fin 2) * 32 + 1 * q.val = q.val; omega

/-- WHAT POINT `t` WRITES BACK is block `t` of the finish of the full arrays as the region finds them. -/
theorem flushed_eq (c : Dev nD) (t : Fin cfg3.N) :
    (dat3 (F := Ideal) V c).flushed 3 t
      = ((cfg3.win 3).blk t).view.read (Elt Ideal) (Spec.post (n := 100000) (V c main_v40) (V c main_v15) (V c main_v17)) := by
  show (cfg3.win 3).cut (grid3.coords t) ((dat3 V c).after 3 t) = _
  rw [after3_3]
  unfold out3_3
  rw [View.canon_unit_zero hz]
  simp only [View.ld_unit_zero (S := S10000x32) hz, View.ld_unit_zero (S := S10000x1) hz, View.ld_unit_zero (S := S1x32) hz]
  rw [pay_eq]
  funext j
  obtain ⟨p, q, rfl⟩ : ∃ (p : Fin 10000) (q : Fin 32), j = ix2 p q := ⟨j 0, j 1, eq_ix2 j⟩
  have ht : t.val < 10 := t.isLt
  obtain ⟨r, hr⟩ : ∃ r : Fin 100000, r.val = t.val * 10000 + p.val := ⟨⟨t.val * 10000 + p.val, by have := p.isLt; omega⟩, rfl⟩
  show Spec.post (iblk3 V c 0 t) (iblk3 V c 1 t) (iblk3 V c 2 t) (ix2 p q)
    = Spec.post (n := 100000) (V c main_v40) (V c main_v15) (V c main_v17) (((cfg3.win 3).blk t).view.emb (ix2 p q))
  rw [emb_out t p q r hr]
  refine post_rows _ _ _ _ _ _ p q r ?_ ?_ ?_
  · rw [iblk_agg, emb_agg t p q r hr]
  · rw [iblk_scale, emb_scale t p r hr]
  · rw [iblk_bias, emb_bias t q]

/-- An index of the output array is in point `t`'s block iff each coordinate is in the block's range on its axis. -/
theorem mem_blk (t : Fin cfg3.N) (i : S100000x32.Idx) :
    i ∈ ((cfg3.win 3).blk t).view.set ↔ ∀ a : Fin 2, win3_3.index t a * S10000x32.size a ≤ (i a).val
      ∧ (i a).val < win3_3.index t a * S10000x32.size a + S10000x32.size a := by
  show i ∈ ((View.whole main_v41).slice (win3_3.rect t)).set ↔ _
  rw [View.set_slice_whole, Rect.mem_set_unit]
  exact Iff.rfl

/-- The ten blocks cover the output array: row `i₀` is in the block of point `i₀ / 10000`. -/
theorem covered (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  obtain ⟨t, ht⟩ : ∃ t : Fin cfg3.N, t.val = (i 0).val / 10000 := ⟨⟨(i 0).val / 10000, by rw [N_eq]; omega⟩, rfl⟩
  obtain ⟨-, -, -, e0, e1⟩ := idx_facts t
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 32 ≤ (i 1).val ∧ (i 1).val < win3_3.index t (1 : Fin 2) * 32 + 32; omega

/-- What pallas call 3 leaves in its output array main_v41. -/
theorem arr (c : Dev nD) :
    (dat3 (F := Ideal) V c).arrAt 3 cfg3.N = Spec.post (n := 100000) (V c main_v40) (V c main_v15) (V c main_v17) :=
  (dat3 V c).arrAt_eq_of_cover 3 (Spec.post (n := 100000) (V c main_v40) (V c main_v15) (V c main_v17))
    (fun t _ => flushed_eq V c t) covered

end Cert.KernelIdeal.Region3

end
-- ==== Proof.KChain1.lean ====
/-
  The kernel program's buffers walked through @main's first nine segments, back to the argument arrays.
  @main is twelve segments: host stretches and five pallas calls. The buffer contents at each boundary are a fold from
  the launch memory (the generated `W0 … W12`): a host stretch applies its operations, a pallas call replaces its
  arrays by what its write-backs leave and keeps every other buffer. Read at the buffers each later segment consumes:
    after the first stretch   the gathered entity rows, the two edge lists with self loops, the scale column, the
                              bias rows
    call 0, call 2            Spec.lin of the region's three input arrays        (Region0.arr, Region2.arr)
    the aggregation stretches the scatter-add of the gathered rows               (KVal.agg)
    call 1, call 3            Spec.post of the region's three input arrays       (Region1.arr, Region3.arr)
    the triple stretches      the three gathers summed, then padded               (KVal.triple, KVal.padded)
    call 4                    Spec.mlp of the region's five input arrays         (Region4.arr)
    the last stretch          the first 500000 rows
  An array a call only reads is unchanged by the call; a buffer a stretch does not write is unchanged by the stretch.
-/
import proofs.«419057_j12043088298451_4_alg».proof.Proof.Gen.KernelIdeal.Frame
import proofs.«419057_j12043088298451_4_alg».proof.Proof.KVal
import proofs.«419057_j12043088298451_4_alg».proof.Proof.Region0
import proofs.«419057_j12043088298451_4_alg».proof.Proof.Region1
import proofs.«419057_j12043088298451_4_alg».proof.Proof.Region2
import proofs.«419057_j12043088298451_4_alg».proof.Proof.Region3
import Idealize.ShloMosaic.Lib.StableHlo.Run

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After the first host stretch -/

theorem W1_v6 (c : Dev nD) : W1 m ρ c (Proc.devRef .tc main_v6) = KVal.x0 (m ((c : Thread nD τ).loc main_arg0)) (m ((c : Thread nD τ).loc main_arg10)) := by
  dsimp only [W1, hostOps0]; after_results; rfl
theorem W1_v8 (c : Dev nD) : W1 m ρ c (Proc.devRef .tc main_v8) = KVal.withLoops (m ((c : Thread nD τ).loc main_arg11)) := by
  dsimp only [W1, hostOps0]; after_results; rfl
theorem W1_v9 (c : Dev nD) : W1 m ρ c (Proc.devRef .tc main_v9) = KVal.withLoops (m ((c : Thread nD τ).loc main_arg12)) := by
  dsimp only [W1, hostOps0]; after_results; rfl
theorem W1_v15 (c : Dev nD) : W1 m ρ c (Proc.devRef .tc main_v15) = KVal.dis2 (m ((c : Thread nD τ).loc main_arg12)) := by
  dsimp only [W1, hostOps0]; after_results; rfl
theorem W1_v16 (c : Dev nD) : W1 m ρ c (Proc.devRef .tc main_v16) = KVal.row32 (m ((c : Thread nD τ).loc main_arg3)) := by
  dsimp only [W1, hostOps0]; after_results; rfl
theorem W1_v17 (c : Dev nD) : W1 m ρ c (Proc.devRef .tc main_v17) = KVal.row32 (m ((c : Thread nD τ).loc main_arg5)) := by
  dsimp only [W1, hostOps0]; after_results; rfl
theorem W1_arg1 (c : Dev nD) : W1 m ρ c (Proc.devRef .tc main_arg1) = (m ((c : Thread nD τ).loc main_arg1)) := by
  dsimp only [W1, hostOps0]; after_results
theorem W1_arg2 (c : Dev nD) : W1 m ρ c (Proc.devRef .tc main_arg2) = (m ((c : Thread nD τ).loc main_arg2)) := by
  dsimp only [W1, hostOps0]; after_results
theorem W1_arg4 (c : Dev nD) : W1 m ρ c (Proc.devRef .tc main_arg4) = (m ((c : Thread nD τ).loc main_arg4)) := by
  dsimp only [W1, hostOps0]; after_results
theorem W1_arg6 (c : Dev nD) : W1 m ρ c (Proc.devRef .tc main_arg6) = (m ((c : Thread nD τ).loc main_arg6)) := by
  dsimp only [W1, hostOps0]; after_results
theorem W1_arg7 (c : Dev nD) : W1 m ρ c (Proc.devRef .tc main_arg7) = (m ((c : Thread nD τ).loc main_arg7)) := by
  dsimp only [W1, hostOps0]; after_results
theorem W1_arg8 (c : Dev nD) : W1 m ρ c (Proc.devRef .tc main_arg8) = (m ((c : Thread nD τ).loc main_arg8)) := by
  dsimp only [W1, hostOps0]; after_results
theorem W1_arg9 (c : Dev nD) : W1 m ρ c (Proc.devRef .tc main_arg9) = (m ((c : Thread nD τ).loc main_arg9)) := by
  dsimp only [W1, hostOps0]; after_results
theorem W1_arg13 (c : Dev nD) : W1 m ρ c (Proc.devRef .tc main_arg13) = (m ((c : Thread nD τ).loc main_arg13)) := by
  dsimp only [W1, hostOps0]; after_results
theorem W1_arg14 (c : Dev nD) : W1 m ρ c (Proc.devRef .tc main_arg14) = (m ((c : Thread nD τ).loc main_arg14)) := by
  dsimp only [W1, hostOps0]; after_results
theorem W1_arg15 (c : Dev nD) : W1 m ρ c (Proc.devRef .tc main_arg15) = (m ((c : Thread nD τ).loc main_arg15)) := by
  dsimp only [W1, hostOps0]; after_results

/-! ## Across pallas call 0 (arrays main_v6, main_arg2, main_v15 read; main_v18 written) -/

/-- The layer-1 pre-scaled product. -/
abbrev h1 (c : Dev nD) : FVec Ideal S100000x32 .f32 :=
  Spec.lin (KVal.x0 (m ((c : Thread nD τ).loc main_arg0)) (m ((c : Thread nD τ).loc main_arg10))) (m ((c : Thread nD τ).loc main_arg2)) (KVal.dis2 (m ((c : Thread nD τ).loc main_arg12)))

theorem W2_v18 (c : Dev nD) : W2 m ρ c (Proc.devRef .tc main_v18) = h1 m c := by
  refine (W2_arr m ρ c 3).trans ((Region0.arr (V1 m ρ) c).trans ?_)
  show Spec.lin (W1 m ρ c (Proc.devRef .tc main_v6)) (W1 m ρ c (Proc.devRef .tc main_arg2)) (W1 m ρ c (Proc.devRef .tc main_v15)) = _
  rw [W1_v6, W1_arg2, W1_v15]
theorem W2_v15 (c : Dev nD) : W2 m ρ c (Proc.devRef .tc main_v15) = KVal.dis2 (m ((c : Thread nD τ).loc main_arg12)) :=
  ((W2_arr m ρ c 2).trans (((dat0 (V1 m ρ) c).arrAt_in 2 rfl _).trans (A_eq0 (V1 m ρ) c 2))).trans (W1_v15 m ρ c)
theorem W2_v8 (c : Dev nD) : W2 m ρ c (Proc.devRef .tc main_v8) = KVal.withLoops (m ((c : Thread nD τ).loc main_arg11)) :=
  (W2_of_ne m ρ c main_v8 (by decide)).trans (W1_v8 m ρ c)
theorem W2_v9 (c : Dev nD) : W2 m ρ c (Proc.devRef .tc main_v9) = KVal.withLoops (m ((c : Thread nD τ).loc main_arg12)) :=
  (W2_of_ne m ρ c main_v9 (by decide)).trans (W1_v9 m ρ c)
theorem W2_v16 (c : Dev nD) : W2 m ρ c (Proc.devRef .tc main_v16) = KVal.row32 (m ((c : Thread nD τ).loc main_arg3)) :=
  (W2_of_ne m ρ c main_v16 (by decide)).trans (W1_v16 m ρ c)
theorem W2_v17 (c : Dev nD) : W2 m ρ c (Proc.devRef .tc main_v17) = KVal.row32 (m ((c : Thread nD τ).loc main_arg5)) :=
  (W2_of_ne m ρ c main_v17 (by decide)).trans (W1_v17 m ρ c)
theorem W2_arg1 (c : Dev nD) : W2 m ρ c (Proc.devRef .tc main_arg1) = (m ((c : Thread nD τ).loc main_arg1)) :=
  (W2_of_ne m ρ c main_arg1 (by decide)).trans (W1_arg1 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg13 (c : Dev nD) : W2 m ρ c (Proc.devRef .tc main_arg13) = (m ((c : Thread nD τ).loc main_arg13)) :=
  (W2_of_ne m ρ c main_arg13 (by decide)).trans (W1_arg13 m ρ c)
theorem W2_arg14 (c : Dev nD) : W2 m ρ c (Proc.devRef .tc main_arg14) = (m ((c : Thread nD τ).loc main_arg14)) :=
  (W2_of_ne m ρ c main_arg14 (by decide)).trans (W1_arg14 m ρ c)
theorem W2_arg15 (c : Dev nD) : W2 m ρ c (Proc.devRef .tc main_arg15) = (m ((c : Thread nD τ).loc main_arg15)) :=
  (W2_of_ne m ρ c main_arg15 (by decide)).trans (W1_arg15 m ρ c)

/-! ## After the first aggregation stretch -/

set_option maxHeartbeats 400000 in
theorem W3_v28 (c : Dev nD) : W3 m ρ c (Proc.devRef .tc main_v28) = KVal.agg (h1 m c) (m ((c : Thread nD τ).loc main_arg11)) (m ((c : Thread nD τ).loc main_arg12)) := by
  dsimp only [W3, hostOps1]; after_results
  rw [W2_v18, W2_v8, W2_v9]
  unfold KVal.agg KVal.dstCol KVal.wrapE
  rfl
theorem W3_v15 (c : Dev nD) : W3 m ρ c (Proc.devRef .tc main_v15) = KVal.dis2 (m ((c : Thread nD τ).loc main_arg12)) := by
  dsimp only [W3, hostOps1]; after_results; exact W2_v15 m ρ c
theorem W3_v16 (c : Dev nD) : W3 m ρ c (Proc.devRef .tc main_v16) = KVal.row32 (m ((c : Thread nD τ).loc main_arg3)) := by
  dsimp only [W3, hostOps1]; after_results; exact W2_v16 m ρ c
theorem W3_v17 (c : Dev nD) : W3 m ρ c (Proc.devRef .tc main_v17) = KVal.row32 (m ((c : Thread nD τ).loc main_arg5)) := by
  dsimp only [W3, hostOps1]; after_results; exact W2_v17 m ρ c
theorem W3_v8 (c : Dev nD) : W3 m ρ c (Proc.devRef .tc main_v8) = KVal.withLoops (m ((c : Thread nD τ).loc main_arg11)) := by
  dsimp only [W3, hostOps1]; after_results; exact W2_v8 m ρ c
theorem W3_v9 (c : Dev nD) : W3 m ρ c (Proc.devRef .tc main_v9) = KVal.withLoops (m ((c : Thread nD τ).loc main_arg12)) := by
  dsimp only [W3, hostOps1]; after_results; exact W2_v9 m ρ c
theorem W3_arg1 (c : Dev nD) : W3 m ρ c (Proc.devRef .tc main_arg1) = (m ((c : Thread nD τ).loc main_arg1)) := by
  dsimp only [W3, hostOps1]; after_results; exact W2_arg1 m ρ c
theorem W3_arg4 (c : Dev nD) : W3 m ρ c (Proc.devRef .tc main_arg4) = (m ((c : Thread nD τ).loc main_arg4)) := by
  dsimp only [W3, hostOps1]; after_results; exact W2_arg4 m ρ c
theorem W3_arg6 (c : Dev nD) : W3 m ρ c (Proc.devRef .tc main_arg6) = (m ((c : Thread nD τ).loc main_arg6)) := by
  dsimp only [W3, hostOps1]; after_results; exact W2_arg6 m ρ c
theorem W3_arg7 (c : Dev nD) : W3 m ρ c (Proc.devRef .tc main_arg7) = (m ((c : Thread nD τ).loc main_arg7)) := by
  dsimp only [W3, hostOps1]; after_results; exact W2_arg7 m ρ c
theorem W3_arg8 (c : Dev nD) : W3 m ρ c (Proc.devRef .tc main_arg8) = (m ((c : Thread nD τ).loc main_arg8)) := by
  dsimp only [W3, hostOps1]; after_results; exact W2_arg8 m ρ c
theorem W3_arg9 (c : Dev nD) : W3 m ρ c (Proc.devRef .tc main_arg9) = (m ((c : Thread nD τ).loc main_arg9)) := by
  dsimp only [W3, hostOps1]; after_results; exact W2_arg9 m ρ c
theorem W3_arg13 (c : Dev nD) : W3 m ρ c (Proc.devRef .tc main_arg13) = (m ((c : Thread nD τ).loc main_arg13)) := by
  dsimp only [W3, hostOps1]; after_results; exact W2_arg13 m ρ c
theorem W3_arg14 (c : Dev nD) : W3 m ρ c (Proc.devRef .tc main_arg14) = (m ((c : Thread nD τ).loc main_arg14)) := by
  dsimp only [W3, hostOps1]; after_results; exact W2_arg14 m ρ c
theorem W3_arg15 (c : Dev nD) : W3 m ρ c (Proc.devRef .tc main_arg15) = (m ((c : Thread nD τ).loc main_arg15)) := by
  dsimp only [W3, hostOps1]; after_results; exact W2_arg15 m ρ c

/-! ## Across pallas call 1 (main_v28, main_v15, main_v16 read; main_v29 written) -/

/-- The first layer's output. -/
abbrev x1 (c : Dev nD) : FVec Ideal S100000x32 .f32 :=
  KVal.layer (KVal.x0 (m ((c : Thread nD τ).loc main_arg0)) (m ((c : Thread nD τ).loc main_arg10))) (m ((c : Thread nD τ).loc main_arg2)) (m ((c : Thread nD τ).loc main_arg3)) (m ((c : Thread nD τ).loc main_arg11)) (m ((c : Thread nD τ).loc main_arg12))

theorem W4_v29 (c : Dev nD) : W4 m ρ c (Proc.devRef .tc main_v29) = x1 m c := by
  refine (W4_arr m ρ c 3).trans ((Region1.arr (V3 m ρ) c).trans ?_)
  show Spec.post (W3 m ρ c (Proc.devRef .tc main_v28)) (W3 m ρ c (Proc.devRef .tc main_v15)) (W3 m ρ c (Proc.devRef .tc main_v16)) = _
  rw [W3_v28, W3_v15, W3_v16]
  show _ = KVal.layer _ _ _ _ _
  unfold KVal.layer
  rfl
theorem W4_v15 (c : Dev nD) : W4 m ρ c (Proc.devRef .tc main_v15) = KVal.dis2 (m ((c : Thread nD τ).loc main_arg12)) :=
  ((W4_arr m ρ c 1).trans (((dat1 (V3 m ρ) c).arrAt_in 1 rfl _).trans (A_eq1 (V3 m ρ) c 1))).trans (W3_v15 m ρ c)
theorem W4_v17 (c : Dev nD) : W4 m ρ c (Proc.devRef .tc main_v17) = KVal.row32 (m ((c : Thread nD τ).loc main_arg5)) :=
  (W4_of_ne m ρ c main_v17 (by decide)).trans (W3_v17 m ρ c)
theorem W4_v8 (c : Dev nD) : W4 m ρ c (Proc.devRef .tc main_v8) = KVal.withLoops (m ((c : Thread nD τ).loc main_arg11)) :=
  (W4_of_ne m ρ c main_v8 (by decide)).trans (W3_v8 m ρ c)
theorem W4_v9 (c : Dev nD) : W4 m ρ c (Proc.devRef .tc main_v9) = KVal.withLoops (m ((c : Thread nD τ).loc main_arg12)) :=
  (W4_of_ne m ρ c main_v9 (by decide)).trans (W3_v9 m ρ c)
theorem W4_arg1 (c : Dev nD) : W4 m ρ c (Proc.devRef .tc main_arg1) = (m ((c : Thread nD τ).loc main_arg1)) :=
  (W4_of_ne m ρ c main_arg1 (by decide)).trans (W3_arg1 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)
theorem W4_arg8 (c : Dev nD) : W4 m ρ c (Proc.devRef .tc main_arg8) = (m ((c : Thread nD τ).loc main_arg8)) :=
  (W4_of_ne m ρ c main_arg8 (by decide)).trans (W3_arg8 m ρ c)
theorem W4_arg9 (c : Dev nD) : W4 m ρ c (Proc.devRef .tc main_arg9) = (m ((c : Thread nD τ).loc main_arg9)) :=
  (W4_of_ne m ρ c main_arg9 (by decide)).trans (W3_arg9 m ρ c)
theorem W4_arg13 (c : Dev nD) : W4 m ρ c (Proc.devRef .tc main_arg13) = (m ((c : Thread nD τ).loc main_arg13)) :=
  (W4_of_ne m ρ c main_arg13 (by decide)).trans (W3_arg13 m ρ c)
theorem W4_arg14 (c : Dev nD) : W4 m ρ c (Proc.devRef .tc main_arg14) = (m ((c : Thread nD τ).loc main_arg14)) :=
  (W4_of_ne m ρ c main_arg14 (by decide)).trans (W3_arg14 m ρ c)
theorem W4_arg15 (c : Dev nD) : W4 m ρ c (Proc.devRef .tc main_arg15) = (m ((c : Thread nD τ).loc main_arg15)) :=
  (W4_of_ne m ρ c main_arg15 (by decide)).trans (W3_arg15 m ρ c)

/-! ## Across pallas call 2 (main_v29, main_arg4, main_v15 read; main_v30 written) -/

/-- The layer-2 pre-scaled product. -/
abbrev h2 (c : Dev nD) : FVec Ideal S100000x32 .f32 := Spec.lin (x1 m c) (m ((c : Thread nD τ).loc main_arg4)) (KVal.dis2 (m ((c : Thread nD τ).loc main_arg12)))

theorem W5_v30 (c : Dev nD) : W5 m ρ c (Proc.devRef .tc main_v30) = h2 m c := by
  refine (W5_arr m ρ c 3).trans ((Region2.arr (V4 m ρ) c).trans ?_)
  show Spec.lin (W4 m ρ c (Proc.devRef .tc main_v29)) (W4 m ρ c (Proc.devRef .tc main_arg4)) (W4 m ρ c (Proc.devRef .tc main_v15)) = _
  rw [W4_v29, W4_arg4, W4_v15]
theorem W5_v15 (c : Dev nD) : W5 m ρ c (Proc.devRef .tc main_v15) = KVal.dis2 (m ((c : Thread nD τ).loc main_arg12)) :=
  ((W5_arr m ρ c 2).trans (((dat2 (V4 m ρ) c).arrAt_in 2 rfl _).trans (A_eq2 (V4 m ρ) c 2))).trans (W4_v15 m ρ c)
theorem W5_v17 (c : Dev nD) : W5 m ρ c (Proc.devRef .tc main_v17) = KVal.row32 (m ((c : Thread nD τ).loc main_arg5)) :=
  (W5_of_ne m ρ c main_v17 (by decide)).trans (W4_v17 m ρ c)
theorem W5_v8 (c : Dev nD) : W5 m ρ c (Proc.devRef .tc main_v8) = KVal.withLoops (m ((c : Thread nD τ).loc main_arg11)) :=
  (W5_of_ne m ρ c main_v8 (by decide)).trans (W4_v8 m ρ c)
theorem W5_v9 (c : Dev nD) : W5 m ρ c (Proc.devRef .tc main_v9) = KVal.withLoops (m ((c : Thread nD τ).loc main_arg12)) :=
  (W5_of_ne m ρ c main_v9 (by decide)).trans (W4_v9 m ρ c)
theorem W5_arg1 (c : Dev nD) : W5 m ρ c (Proc.devRef .tc main_arg1) = (m ((c : Thread nD τ).loc main_arg1)) :=
  (W5_of_ne m ρ c main_arg1 (by decide)).trans (W4_arg1 m ρ c)
theorem W5_arg6 (c : Dev nD) : W5 m ρ c (Proc.devRef .tc main_arg6) = (m ((c : Thread nD τ).loc main_arg6)) :=
  (W5_of_ne m ρ c main_arg6 (by decide)).trans (W4_arg6 m ρ c)
theorem W5_arg7 (c : Dev nD) : W5 m ρ c (Proc.devRef .tc main_arg7) = (m ((c : Thread nD τ).loc main_arg7)) :=
  (W5_of_ne m ρ c main_arg7 (by decide)).trans (W4_arg7 m ρ c)
theorem W5_arg8 (c : Dev nD) : W5 m ρ c (Proc.devRef .tc main_arg8) = (m ((c : Thread nD τ).loc main_arg8)) :=
  (W5_of_ne m ρ c main_arg8 (by decide)).trans (W4_arg8 m ρ c)
theorem W5_arg9 (c : Dev nD) : W5 m ρ c (Proc.devRef .tc main_arg9) = (m ((c : Thread nD τ).loc main_arg9)) :=
  (W5_of_ne m ρ c main_arg9 (by decide)).trans (W4_arg9 m ρ c)
theorem W5_arg13 (c : Dev nD) : W5 m ρ c (Proc.devRef .tc main_arg13) = (m ((c : Thread nD τ).loc main_arg13)) :=
  (W5_of_ne m ρ c main_arg13 (by decide)).trans (W4_arg13 m ρ c)
theorem W5_arg14 (c : Dev nD) : W5 m ρ c (Proc.devRef .tc main_arg14) = (m ((c : Thread nD τ).loc main_arg14)) :=
  (W5_of_ne m ρ c main_arg14 (by decide)).trans (W4_arg14 m ρ c)
theorem W5_arg15 (c : Dev nD) : W5 m ρ c (Proc.devRef .tc main_arg15) = (m ((c : Thread nD τ).loc main_arg15)) :=
  (W5_of_ne m ρ c main_arg15 (by decide)).trans (W4_arg15 m ρ c)

/-! ## After the second aggregation stretch -/

set_option maxHeartbeats 400000 in
theorem W6_v40 (c : Dev nD) : W6 m ρ c (Proc.devRef .tc main_v40) = KVal.agg (h2 m c) (m ((c : Thread nD τ).loc main_arg11)) (m ((c : Thread nD τ).loc main_arg12)) := by
  dsimp only [W6, hostOps3]; after_results
  rw [W5_v30, W5_v8, W5_v9]
  unfold KVal.agg KVal.dstCol KVal.wrapE
  rfl
theorem W6_v15 (c : Dev nD) : W6 m ρ c (Proc.devRef .tc main_v15) = KVal.dis2 (m ((c : Thread nD τ).loc main_arg12)) := by
  dsimp only [W6, hostOps3]; after_results; exact W5_v15 m ρ c
theorem W6_v17 (c : Dev nD) : W6 m ρ c (Proc.devRef .tc main_v17) = KVal.row32 (m ((c : Thread nD τ).loc main_arg5)) := by
  dsimp only [W6, hostOps3]; after_results; exact W5_v17 m ρ c
theorem W6_arg1 (c : Dev nD) : W6 m ρ c (Proc.devRef .tc main_arg1) = (m ((c : Thread nD τ).loc main_arg1)) := by
  dsimp only [W6, hostOps3]; after_results; exact W5_arg1 m ρ c
theorem W6_arg6 (c : Dev nD) : W6 m ρ c (Proc.devRef .tc main_arg6) = (m ((c : Thread nD τ).loc main_arg6)) := by
  dsimp only [W6, hostOps3]; after_results; exact W5_arg6 m ρ c
theorem W6_arg7 (c : Dev nD) : W6 m ρ c (Proc.devRef .tc main_arg7) = (m ((c : Thread nD τ).loc main_arg7)) := by
  dsimp only [W6, hostOps3]; after_results; exact W5_arg7 m ρ c
theorem W6_arg8 (c : Dev nD) : W6 m ρ c (Proc.devRef .tc main_arg8) = (m ((c : Thread nD τ).loc main_arg8)) := by
  dsimp only [W6, hostOps3]; after_results; exact W5_arg8 m ρ c
theorem W6_arg9 (c : Dev nD) : W6 m ρ c (Proc.devRef .tc main_arg9) = (m ((c : Thread nD τ).loc main_arg9)) := by
  dsimp only [W6, hostOps3]; after_results; exact W5_arg9 m ρ c
theorem W6_arg13 (c : Dev nD) : W6 m ρ c (Proc.devRef .tc main_arg13) = (m ((c : Thread nD τ).loc main_arg13)) := by
  dsimp only [W6, hostOps3]; after_results; exact W5_arg13 m ρ c
theorem W6_arg14 (c : Dev nD) : W6 m ρ c (Proc.devRef .tc main_arg14) = (m ((c : Thread nD τ).loc main_arg14)) := by
  dsimp only [W6, hostOps3]; after_results; exact W5_arg14 m ρ c
theorem W6_arg15 (c : Dev nD) : W6 m ρ c (Proc.devRef .tc main_arg15) = (m ((c : Thread nD τ).loc main_arg15)) := by
  dsimp only [W6, hostOps3]; after_results; exact W5_arg15 m ρ c

/-! ## Across pallas call 3 (main_v40, main_v15, main_v17 read; main_v41 written) -/

/-- The second layer's output. -/
abbrev x2 (c : Dev nD) : FVec Ideal S100000x32 .f32 := KVal.layer (x1 m c) (m ((c : Thread nD τ).loc main_arg4)) (m ((c : Thread nD τ).loc main_arg5)) (m ((c : Thread nD τ).loc main_arg11)) (m ((c : Thread nD τ).loc main_arg12))

theorem W7_v41 (c : Dev nD) : W7 m ρ c (Proc.devRef .tc main_v41) = x2 m c := by
  refine (W7_arr m ρ c 3).trans ((Region3.arr (V6 m ρ) c).trans ?_)
  show Spec.post (W6 m ρ c (Proc.devRef .tc main_v40)) (W6 m ρ c (Proc.devRef .tc main_v15)) (W6 m ρ c (Proc.devRef .tc main_v17)) = _
  rw [W6_v40, W6_v15, W6_v17]
  show _ = KVal.layer _ _ _ _ _
  unfold KVal.layer
  rfl
theorem W7_arg1 (c : Dev nD) : W7 m ρ c (Proc.devRef .tc main_arg1) = (m ((c : Thread nD τ).loc main_arg1)) :=
  (W7_of_ne m ρ c main_arg1 (by decide)).trans (W6_arg1 m ρ c)
theorem W7_arg6 (c : Dev nD) : W7 m ρ c (Proc.devRef .tc main_arg6) = (m ((c : Thread nD τ).loc main_arg6)) :=
  (W7_of_ne m ρ c main_arg6 (by decide)).trans (W6_arg6 m ρ c)
theorem W7_arg7 (c : Dev nD) : W7 m ρ c (Proc.devRef .tc main_arg7) = (m ((c : Thread nD τ).loc main_arg7)) :=
  (W7_of_ne m ρ c main_arg7 (by decide)).trans (W6_arg7 m ρ c)
theorem W7_arg8 (c : Dev nD) : W7 m ρ c (Proc.devRef .tc main_arg8) = (m ((c : Thread nD τ).loc main_arg8)) :=
  (W7_of_ne m ρ c main_arg8 (by decide)).trans (W6_arg8 m ρ c)
theorem W7_arg9 (c : Dev nD) : W7 m ρ c (Proc.devRef .tc main_arg9) = (m ((c : Thread nD τ).loc main_arg9)) :=
  (W7_of_ne m ρ c main_arg9 (by decide)).trans (W6_arg9 m ρ c)
theorem W7_arg13 (c : Dev nD) : W7 m ρ c (Proc.devRef .tc main_arg13) = (m ((c : Thread nD τ).loc main_arg13)) :=
  (W7_of_ne m ρ c main_arg13 (by decide)).trans (W6_arg13 m ρ c)
theorem W7_arg14 (c : Dev nD) : W7 m ρ c (Proc.devRef .tc main_arg14) = (m ((c : Thread nD τ).loc main_arg14)) :=
  (W7_of_ne m ρ c main_arg14 (by decide)).trans (W6_arg14 m ρ c)
theorem W7_arg15 (c : Dev nD) : W7 m ρ c (Proc.devRef .tc main_arg15) = (m ((c : Thread nD τ).loc main_arg15)) :=
  (W7_of_ne m ρ c main_arg15 (by decide)).trans (W6_arg15 m ρ c)

end Cert.KernelIdeal.KChain

end
-- ==== Proof.Region4.lean ====
/-
  Custom call 4 of the program (the two-layer head) as a function of whole arrays.
  The grid has 62 points; point t stages rows 8192·t … 8192·t + 8191 of the padded triple features (main_v65) and the
  whole weights and bias rows; the body stores (max (rows · W₁ + b₁) 0) · W₂ + b₂ into the same rows of main_v68. Every
  row of the result depends only on the same row of the features, so the 62 blocks are the restrictions of ONE function
  of the full arrays, `Spec.mlp`, and they cover all 507904 rows.
-/
import proofs.«419057_j12043088298451_4_alg».proof.Proof.Gen.KernelIdeal.Frame
import proofs.«419057_j12043088298451_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The two products' operand indices -/

/-- The first product's left operand keeps the result's row … -/
theorem lhs_hidden_0 (i : S8192x32.Idx) (q : dot_S8192x32_S32x32_S8192x32_1_0_0_1_n_n.contr.Idx) :
    (dot_S8192x32_S32x32_S8192x32_1_0_0_1_n_n.lhsIdx i q 0).val = (i 0).val := by
  unfold DotDims.lhsIdx
  rw [dif_neg (show ¬(0 : Fin S8192x32.rank) ∈ dot_S8192x32_S32x32_S8192x32_1_0_0_1_n_n.lhsBatch by decide), dif_pos (show (0 : Fin S8192x32.rank) ∈ dot_S8192x32_S32x32_S8192x32_1_0_0_1_n_n.lhsNonContracting by decide)]
  rfl
/-- … and runs over the contraction index on its columns; -/
theorem lhs_hidden_1 (i : S8192x32.Idx) (q : dot_S8192x32_S32x32_S8192x32_1_0_0_1_n_n.contr.Idx) :
    (dot_S8192x32_S32x32_S8192x32_1_0_0_1_n_n.lhsIdx i q 1).val = (q ⟨0, by decide⟩).val :=
  dot_S8192x32_S32x32_S8192x32_1_0_0_1_n_n.lhsIdx_val_of_single rfl i q
/-- its right operand runs over the contraction index on its rows … -/
theorem rhs_hidden_0 (i : S8192x32.Idx) (q : dot_S8192x32_S32x32_S8192x32_1_0_0_1_n_n.contr.Idx) :
    (dot_S8192x32_S32x32_S8192x32_1_0_0_1_n_n.rhsIdx i q 0).val = (q ⟨0, by decide⟩).val :=
  dot_S8192x32_S32x32_S8192x32_1_0_0_1_n_n.rhsIdx_val_of_single rfl i q
/-- … and keeps the result's column. -/
theorem rhs_hidden_1 (i : S8192x32.Idx) (q : dot_S8192x32_S32x32_S8192x32_1_0_0_1_n_n.contr.Idx) :
    (dot_S8192x32_S32x32_S8192x32_1_0_0_1_n_n.rhsIdx i q 1).val = (i 1).val := by
  unfold DotDims.rhsIdx
  rw [dif_neg (show ¬(1 : Fin S32x32.rank) ∈ dot_S8192x32_S32x32_S8192x32_1_0_0_1_n_n.rhsBatch by decide), dif_pos (show (1 : Fin S32x32.rank) ∈ dot_S8192x32_S32x32_S8192x32_1_0_0_1_n_n.rhsNonContracting by decide)]
  rfl

/-- The second product's left operand keeps the result's row … -/
theorem lhs_head_0 (i : S8192x3.Idx) (q : dot_S8192x32_S32x3_S8192x3_1_0_0_1_n_n.contr.Idx) :
    (dot_S8192x32_S32x3_S8192x3_1_0_0_1_n_n.lhsIdx i q 0).val = (i 0).val := by
  unfold DotDims.lhsIdx
  rw [dif_neg (show ¬(0 : Fin S8192x32.rank) ∈ dot_S8192x32_S32x3_S8192x3_1_0_0_1_n_n.lhsBatch by decide), dif_pos (show (0 : Fin S8192x32.rank) ∈ dot_S8192x32_S32x3_S8192x3_1_0_0_1_n_n.lhsNonContracting by decide)]
  rfl
/-- … and runs over the contraction index on its columns; -/
theorem lhs_head_1 (i : S8192x3.Idx) (q : dot_S8192x32_S32x3_S8192x3_1_0_0_1_n_n.contr.Idx) :
    (dot_S8192x32_S32x3_S8192x3_1_0_0_1_n_n.lhsIdx i q 1).val = (q ⟨0, by decide⟩).val :=
  dot_S8192x32_S32x3_S8192x3_1_0_0_1_n_n.lhsIdx_val_of_single rfl i q
/-- its right operand runs over the contraction index on its rows … -/
theorem rhs_head_0 (i : S8192x3.Idx) (q : dot_S8192x32_S32x3_S8192x3_1_0_0_1_n_n.contr.Idx) :
    (dot_S8192x32_S32x3_S8192x3_1_0_0_1_n_n.rhsIdx i q 0).val = (q ⟨0, by decide⟩).val :=
  dot_S8192x32_S32x3_S8192x3_1_0_0_1_n_n.rhsIdx_val_of_single rfl i q
/-- … and keeps the result's column. -/
theorem rhs_head_1 (i : S8192x3.Idx) (q : dot_S8192x32_S32x3_S8192x3_1_0_0_1_n_n.contr.Idx) :
    (dot_S8192x32_S32x3_S8192x3_1_0_0_1_n_n.rhsIdx i q 1).val = (i 1).val := by
  unfold DotDims.rhsIdx
  rw [dif_neg (show ¬(1 : Fin S32x3.rank) ∈ dot_S8192x32_S32x3_S8192x3_1_0_0_1_n_n.rhsBatch by decide), dif_pos (show (1 : Fin S32x3.rank) ∈ dot_S8192x32_S32x3_S8192x3_1_0_0_1_n_n.rhsNonContracting by decide)]
  rfl

/-! ## The two products at an index -/

/-- The first product into the zero splat, at row `p` and column `q`: the sum over the 32 shared coordinates. -/
theorem matmul_hidden_apply (x : FVec Ideal S8192x32 .f32) (w : FVec Ideal S32x32 .f32) (p : Fin 8192) (q : Fin 32) :
    matmul dot_S8192x32_S32x32_S8192x32_1_0_0_1_n_n none x w (constant S8192x32 .f32 0x00000000#32) (ix2 p q)
      = ∑ k : Fin 32, x (ix2 p k) * w (ix2 k q) := by
  simp only [matmul]
  rw [Ideal.matmul_constant_zero_apply, ← Equiv.sum_comp (ValueIdx.contrEquiv1 dot_S8192x32_S32x32_S8192x32_1_0_0_1_n_n 32 rfl rfl).symm]
  refine Finset.sum_congr rfl fun k _ => ?_
  have hk := ValueIdx.contrEquiv1_symm_val dot_S8192x32_S32x32_S8192x32_1_0_0_1_n_n 32 rfl rfl k
  have el : dot_S8192x32_S32x32_S8192x32_1_0_0_1_n_n.lhsIdx (ix2 p q) ((ValueIdx.contrEquiv1 dot_S8192x32_S32x32_S8192x32_1_0_0_1_n_n 32 rfl rfl).symm k) = ix2 p k := funext fun a => Fin.ext (by
    match a with
    | ⟨0, _⟩ => exact lhs_hidden_0 _ _
    | ⟨1, _⟩ => exact (lhs_hidden_1 _ _).trans hk)
  have er : dot_S8192x32_S32x32_S8192x32_1_0_0_1_n_n.rhsIdx (ix2 p q) ((ValueIdx.contrEquiv1 dot_S8192x32_S32x32_S8192x32_1_0_0_1_n_n 32 rfl rfl).symm k) = ix2 k q := funext fun a => Fin.ext (by
    match a with
    | ⟨0, _⟩ => exact (rhs_hidden_0 _ _).trans hk
    | ⟨1, _⟩ => exact rhs_hidden_1 _ _)
  rw [el, er]

/-- The second product into the zero splat, at row `p` and column `q`: the sum over the 32 hidden units. -/
theorem matmul_head_apply (x : FVec Ideal S8192x32 .f32) (w : FVec Ideal S32x3 .f32) (p : Fin 8192) (q : Fin 3) :
    matmul dot_S8192x32_S32x3_S8192x3_1_0_0_1_n_n none x w (constant S8192x3 .f32 0x00000000#32) (ix2 p q)
      = ∑ k : Fin 32, x (ix2 p k) * w (ix2 k q) := by
  simp only [matmul]
  rw [Ideal.matmul_constant_zero_apply, ← Equiv.sum_comp (ValueIdx.contrEquiv1 dot_S8192x32_S32x3_S8192x3_1_0_0_1_n_n 32 rfl rfl).symm]
  refine Finset.sum_congr rfl fun k _ => ?_
  have hk := ValueIdx.contrEquiv1_symm_val dot_S8192x32_S32x3_S8192x3_1_0_0_1_n_n 32 rfl rfl k
  have el : dot_S8192x32_S32x3_S8192x3_1_0_0_1_n_n.lhsIdx (ix2 p q) ((ValueIdx.contrEquiv1 dot_S8192x32_S32x3_S8192x3_1_0_0_1_n_n 32 rfl rfl).symm k) = ix2 p k := funext fun a => Fin.ext (by
    match a with
    | ⟨0, _⟩ => exact lhs_head_0 _ _
    | ⟨1, _⟩ => exact (lhs_head_1 _ _).trans hk)
  have er : dot_S8192x32_S32x3_S8192x3_1_0_0_1_n_n.rhsIdx (ix2 p q) ((ValueIdx.contrEquiv1 dot_S8192x32_S32x3_S8192x3_1_0_0_1_n_n 32 rfl rfl).symm k) = ix2 k q := funext fun a => Fin.ext (by
    match a with
    | ⟨0, _⟩ => exact (rhs_head_0 _ _).trans hk
    | ⟨1, _⟩ => exact rhs_head_1 _ _)
  rw [el, er]

/-! ## The payload -/

/-- The hidden layer as the body computes it, at row `p` and unit `k`. -/
theorem hidden_apply (v0 : FVec Ideal S8192x32 .f32) (v2 : FVec Ideal S32x32 .f32) (v4 : FVec Ideal S1x32 .f32)
    (p : Fin 8192) (k : Fin 32) :
    maximumf
        (addf (matmul dot_S8192x32_S32x32_S8192x32_1_0_0_1_n_n none (shapeCast S8192x32 v0 shapeCasts_S8192x32_S8192x32) v2
            (constant S8192x32 .f32 0x00000000#32))
          (broadcastTo S8192x32 (shapeCast S1x32 v4 shapeCasts_S1x32_S1x32) broadcasts_S1x32_S8192x32))
        (broadcast S8192x32 (Scalar.ofBits .f32 0x00000000#32 : Ideal .f32)) (ix2 p k)
      = Spec.hidden v0 v2 v4 p k := by
  rw [shapeCast_self, shapeCast_self, maximumf_apply, addf_apply, matmul_hidden_apply, broadcast_apply]
  unfold Spec.hidden
  refine congrArg₂ max (congrArg₂ (· + ·) rfl ?_) Ideal.ofBits_zero_f32
  exact broadcastTo_1b_ab_apply _ _ p k

/-- The body's payload on a block of 8192 rows is the two-layer head on those rows. -/
theorem pay_eq (v0 : Vec Ideal S8192x32 .f32) (v2 : Vec Ideal S32x32 .f32) (v4 : Vec Ideal S1x32 .f32)
    (v10 : Vec Ideal S32x3 .f32) (v12 : Vec Ideal S1x3 .f32) :
    k4_pay1 v0 v2 v4 v10 v12 = Spec.mlp v0 v2 v4 v10 v12 := by
  funext i
  obtain ⟨p, q, rfl⟩ : ∃ (p : Fin 8192) (q : Fin 3), i = ix2 p q := ⟨i 0, i 1, eq_ix2 i⟩
  unfold k4_pay1
  unfold Spec.mlp
  rw [addf_apply, matmul_head_apply]
  refine congrArg₂ (· + ·) (Finset.sum_congr rfl fun k _ => ?_) ?_
  · rw [hidden_apply]
  · rw [shapeCast_self]
    exact broadcastTo_1b_ab_apply _ _ p q

/-! ## The blocks of the arrays -/

theorem hz : (![0, 0] : Fin 2 → Nat) = fun _ => 0 := funext fun a => by fin_cases a <;> rfl

/-- The printed index maps, decided over the grid: the features' window and the result's stand at block row `t`. -/
theorem idx_rows : ∀ t : Fin cfg4.N, (win4_0.index t (0 : Fin 2) = t.val ∧ win4_0.index t (1 : Fin 2) = 0)
    ∧ (win4_5.index t (0 : Fin 2) = t.val ∧ win4_5.index t (1 : Fin 2) = 0) :=
  (by decide +kernel : ∀ t : Fin grid4.N, _)

/-- The weights' and the bias rows' windows stand at their one block at every point. -/
theorem idx_whole : ∀ t : Fin cfg4.N, (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0) :=
  (by decide +kernel : ∀ t : Fin grid4.N, _)

/-- The features' block at point `t` is rows `8192·t … 8192·t + 8191` of the padded features. -/
theorem iblk_features (c : Dev nD) (t : Fin cfg4.N) (p : Fin 8192) (l : Fin 32) (P : Fin 507904)
    (hP : P.val = 8192 * t.val + p.val) :
    (iblk4 V c 0 t : Vec Ideal S8192x32 .f32) (ix2 p l) = (V c main_v65 : S507904x32.Idx → Elt Ideal .f32) (ix2 P l) := by
  have hi := (idx_rows t).1
  unfold iblk4
  rw [View.read_apply]
  show V c main_v65 _ = V c main_v65 _
  congr 1
  funext a
  apply Fin.ext
  match a with
  | ⟨0, _⟩ => show win4_0.index t (0 : Fin 2) * 8192 + 1 * p.val = P.val; rw [hi.1, hP]; omega
  | ⟨1, _⟩ => show win4_0.index t (1 : Fin 2) * 32 + 1 * l.val = l.val; rw [hi.2]; omega

/-- The first layer's weights are staged whole. -/
theorem iblk_W1 (c : Dev nD) (t : Fin cfg4.N) : (iblk4 V c 1 t : Vec Ideal S32x32 .f32) = V c main_arg6 := by
  have hi := (idx_whole t).1
  funext y
  unfold iblk4
  rw [View.read_apply]
  show V c main_arg6 _ = V c main_arg6 y
  congr 1
  funext a
  apply Fin.ext
  match a with
  | ⟨0, _⟩ => show win4_1.index t (0 : Fin 2) * 32 + 1 * (y 0).val = (y 0).val; rw [hi.1]; omega
  | ⟨1, _⟩ => show win4_1.index t (1 : Fin 2) * 32 + 1 * (y 1).val = (y 1).val; rw [hi.2]; omega

/-- The first layer's bias row is staged whole. -/
theorem iblk_b1 (c : Dev nD) (t : Fin cfg4.N) : (iblk4 V c 2 t : Vec Ideal S1x32 .f32) = V c main_v66 := by
  have hi := (idx_whole t).2.1
  funext y
  unfold iblk4
  rw [View.read_apply]
  show V c main_v66 _ = V c main_v66 y
  congr 1
  funext a
  apply Fin.ext
  match a with
  | ⟨0, _⟩ => show win4_2.index t (0 : Fin 2) * 1 + 1 * (y 0).val = (y 0).val; rw [hi.1]; omega
  | ⟨1, _⟩ => show win4_2.index t (1 : Fin 2) * 32 + 1 * (y 1).val = (y 1).val; rw [hi.2]; omega

/-- The second layer's weights are staged whole. -/
theorem iblk_W2 (c : Dev nD) (t : Fin cfg4.N) : (iblk4 V c 3 t : Vec Ideal S32x3 .f32) = V c main_arg8 := by
  have hi := (idx_whole t).2.2.1
  funext y
  unfold iblk4
  rw [View.read_apply]
  show V c main_arg8 _ = V c main_arg8 y
  congr 1
  funext a
  apply Fin.ext
  match a with
  | ⟨0, _⟩ => show win4_3.index t (0 : Fin 2) * 32 + 1 * (y 0).val = (y 0).val; rw [hi.1]; omega
  | ⟨1, _⟩ => show win4_3.index t (1 : Fin 2) * 3 + 1 * (y 1).val = (y 1).val; rw [hi.2]; omega

/-- The second layer's bias row is staged whole. -/
theorem iblk_b2 (c : Dev nD) (t : Fin cfg4.N) : (iblk4 V c 4 t : Vec Ideal S1x3 .f32) = V c main_v67 := by
  have hi := (idx_whole t).2.2.2
  funext y
  unfold iblk4
  rw [View.read_apply]
  show V c main_v67 _ = V c main_v67 y
  congr 1
  funext a
  apply Fin.ext
  match a with
  | ⟨0, _⟩ => show win4_4.index t (0 : Fin 2) * 1 + 1 * (y 0).val = (y 0).val; rw [hi.1]; omega
  | ⟨1, _⟩ => show win4_4.index t (1 : Fin 2) * 3 + 1 * (y 1).val = (y 1).val; rw [hi.2]; omega

/-! ## The head row by row -/

/-- The head of a block of rows is the head of the full array at the block's rows: row `p` of the result reads only
    row `p` of the features, and the weights and bias rows whole. -/
theorem mlp_rows (T : FVec Ideal ⟨2, ![507904, 32]⟩ .f32) (X : FVec Ideal ⟨2, ![8192, 32]⟩ .f32)
    (W₁ : FVec Ideal ⟨2, ![32, 32]⟩ .f32) (b₁ : FVec Ideal ⟨2, ![1, 32]⟩ .f32)
    (W₂ : FVec Ideal ⟨2, ![32, 3]⟩ .f32) (b₂ : FVec Ideal ⟨2, ![1, 3]⟩ .f32)
    (p : Fin 8192) (q : Fin 3) (P : Fin 507904) (hX : ∀ l : Fin 32, X (ix2 p l) = T (ix2 P l)) :
    Spec.mlp X W₁ b₁ W₂ b₂ (ix2 p q) = Spec.mlp T W₁ b₁ W₂ b₂ (ix2 P q) := by
  unfold Spec.mlp Spec.hidden
  show (∑ k : Fin 32, max ((∑ l : Fin 32, X (ix2 p l) * W₁ (ix2 l k)) + b₁ (ix2 (0 : Fin 1) k)) 0 * W₂ (ix2 k q)) + b₂ (ix2 (0 : Fin 1) q)
    = (∑ k : Fin 32, max ((∑ l : Fin 32, T (ix2 P l) * W₁ (ix2 l k)) + b₁ (ix2 (0 : Fin 1) k)) 0 * W₂ (ix2 k q)) + b₂ (ix2 (0 : Fin 1) q)
  simp only [hX]

/-! ## What each point writes back, and the array after the grid -/

/-- WHAT POINT `t` WRITES BACK is block `t` of the head of the arrays as the region finds them. -/
theorem flushed_eq (c : Dev nD) (t : Fin cfg4.N) :
    (dat4 (F := Ideal) V c).flushed 5 t = ((cfg4.win 5).blk t).view.read (Elt Ideal)
      (Spec.mlp (n := 507904) (V c main_v65) (V c main_arg6) (V c main_v66) (V c main_arg8) (V c main_v67)) := by
  show (cfg4.win 5).cut (grid4.coords t) ((dat4 V c).after 5 t) = _
  rw [after4_5]
  unfold out4_5
  rw [View.canon_unit_zero hz]
  simp only [View.ld_unit_zero (S := S8192x32) hz, View.ld_unit_zero (S := S32x32) hz, View.ld_unit_zero (S := S1x32) hz,
    View.ld_unit_zero (S := S32x3) hz, View.ld_unit_zero (S := S1x3) hz]
  rw [pay_eq, iblk_W1, iblk_b1, iblk_W2, iblk_b2]
  have hi := (idx_rows t).2
  have ht : t.val < 62 := lt_of_lt_of_eq t.isLt N_4
  funext j
  obtain ⟨p, q, rfl⟩ : ∃ (p : Fin 8192) (q : Fin 3), j = ix2 p q := ⟨j 0, j 1, eq_ix2 j⟩
  rw [View.read_apply]
  have hp : p.val < 8192 := p.isLt
  refine (mlp_rows (V c main_v65) (iblk4 V c 0 t) (V c main_arg6) (V c main_v66) (V c main_arg8) (V c main_v67) p q
    ⟨8192 * t.val + p.val, by omega⟩ fun l => iblk_features V c t p l _ rfl).trans ?_
  refine congrArg (Spec.mlp (n := 507904) (V c main_v65) (V c main_arg6) (V c main_v66) (V c main_arg8) (V c main_v67)) ?_
  funext a
  apply Fin.ext
  match a with
  | ⟨0, _⟩ => show 8192 * t.val + p.val = win4_5.index t (0 : Fin 2) * 8192 + 1 * p.val; rw [hi.1]; omega
  | ⟨1, _⟩ => show q.val = win4_5.index t (1 : Fin 2) * 3 + 1 * q.val; rw [hi.2]; omega

/-- An index of the result array is in point `t`'s block iff each coordinate is in the block's range on its axis. -/
theorem mem_blk (t : Fin cfg4.N) (i : S507904x3.Idx) :
    i ∈ ((cfg4.win 5).blk t).view.set ↔ ∀ a : Fin 2, win4_5.index t a * S8192x3.size a ≤ (i a).val ∧ (i a).val < win4_5.index t a * S8192x3.size a + S8192x3.size a := by
  show i ∈ ((View.whole main_v68).slice (win4_5.rect t)).set ↔ _
  rw [View.set_slice_whole, Rect.mem_set_unit]
  exact Iff.rfl

/-- Every row of the result array is in the block of the point its row index divided by 8192 names. -/
theorem cover (i : S507904x3.Idx) :
    ∃ t : Fin cfg4.N, (cfg4.win 5).flush t = true ∧ i ∈ ((cfg4.win 5).blk t).view.set := by
  have hi0 : (i 0).val < 507904 := (i 0).isLt
  have hi1 : (i 1).val < 3 := (i 1).isLt
  have hN : cfg4.N = 62 := N_4
  refine ⟨⟨(i 0).val / 8192, by rw [hN]; omega⟩, flush4_5 _, ?_⟩
  rw [mem_blk]
  obtain ⟨e0, e1⟩ := (idx_rows ⟨(i 0).val / 8192, by rw [hN]; omega⟩).2
  intro a
  match a with
  | ⟨0, _⟩ =>
    show win4_5.index ⟨(i 0).val / 8192, _⟩ (0 : Fin 2) * 8192 ≤ (i 0).val ∧ (i 0).val < win4_5.index ⟨(i 0).val / 8192, _⟩ (0 : Fin 2) * 8192 + 8192
    rw [e0]
    show (i 0).val / 8192 * 8192 ≤ (i 0).val ∧ (i 0).val < (i 0).val / 8192 * 8192 + 8192
    omega
  | ⟨1, _⟩ =>
    show win4_5.index ⟨(i 0).val / 8192, _⟩ (1 : Fin 2) * 3 ≤ (i 1).val ∧ (i 1).val < win4_5.index ⟨(i 0).val / 8192, _⟩ (1 : Fin 2) * 3 + 3
    rw [e1]
    omega

/-- What custom call 4 leaves in its output array main_v68: the head of the arrays as the call finds them. -/
theorem arr (c : Dev nD) :
    (dat4 (F := Ideal) V c).arrAt 5 cfg4.N
      = Spec.mlp (n := 507904) (V c main_v65) (V c main_arg6) (V c main_v66) (V c main_arg8) (V c main_v67) :=
  (dat4 (F := Ideal) V c).arrAt_eq_of_cover 5
    (Spec.mlp (n := 507904) (V c main_v65) (V c main_arg6) (V c main_v66) (V c main_arg8) (V c main_v67))
    (fun t _ => flushed_eq V c t) cover

end Cert.KernelIdeal.Region4

end
-- ==== Proof.KChain.lean ====
/-
  The kernel program's result buffer: the last segments of @main over the second layer's output.
  The three triple stretches gather the rows of the second layer's output that the head and tail words name and the
  relation rows, sum them, and pad the 500000 rows with 7904 zero rows; pallas call 4 applies the head to every row
  (Region4.arr); the last stretch keeps the first 500000 rows. The buffers these segments read were last written before
  or by pallas call 3, whose exit contents KChain1 has walked back to the argument arrays.
-/
import proofs.«419057_j12043088298451_4_alg».proof.Proof.KChain1
import proofs.«419057_j12043088298451_4_alg».proof.Proof.Region4

set_option maxRecDepth 16384

noncomputable section

namespace Cert.KernelIdeal.KChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The triple stretches (three host stretches: the gathers and sums, the padding, the bias rows)

The padding and the bias-row stretches are read over an arbitrary valuation `V` first (their operands variables), then
at the boundary before them. -/

/-- The head's input. -/
abbrev tr (c : Dev nD) : FVec Ideal S500000x32 .f32 := KVal.triple (x2 m c) (m ((c : Thread nD τ).loc main_arg1)) (m ((c : Thread nD τ).loc main_arg13)) (m ((c : Thread nD τ).loc main_arg14)) (m ((c : Thread nD τ).loc main_arg15))

section Steps

variable (V : Valuation τ sig (Elt Ideal))

/-- The padding stretch writes the padded rows. -/
theorem pad_v65 (T : FVec Ideal S500000x32 .f32) (hT : V (Proc.devRef .tc main_v64) = T)
    (hc : V (Proc.devRef .tc main_c_14) = (constantI S_ 32 0#32 : IVec S_ 32)) :
    StableHlo.after hostOps4_1 V (Proc.devRef .tc main_v65) = KVal.padded T := by
  dsimp only [hostOps4_1]; after_results
  rw [hT, hc]; rfl
theorem pad_keep6 : StableHlo.after hostOps4_1 V (Proc.devRef .tc main_arg6) = V (Proc.devRef .tc main_arg6) := by
  dsimp only [hostOps4_1]; after_results
theorem pad_keep7 : StableHlo.after hostOps4_1 V (Proc.devRef .tc main_arg7) = V (Proc.devRef .tc main_arg7) := by
  dsimp only [hostOps4_1]; after_results
theorem pad_keep8 : StableHlo.after hostOps4_1 V (Proc.devRef .tc main_arg8) = V (Proc.devRef .tc main_arg8) := by
  dsimp only [hostOps4_1]; after_results
theorem pad_keep9 : StableHlo.after hostOps4_1 V (Proc.devRef .tc main_arg9) = V (Proc.devRef .tc main_arg9) := by
  dsimp only [hostOps4_1]; after_results

/-- The bias-row stretch keeps the padded rows and the weights, and writes the two bias rows. -/
theorem rows_v65 : StableHlo.after hostOps4_2 V (Proc.devRef .tc main_v65) = V (Proc.devRef .tc main_v65) := by
  dsimp only [hostOps4_2]; after_results
theorem rows_v66 : StableHlo.after hostOps4_2 V (Proc.devRef .tc main_v66) = KVal.row32 (V (Proc.devRef .tc main_arg7)) := by
  dsimp only [hostOps4_2]; after_results; rfl
theorem rows_v67 : StableHlo.after hostOps4_2 V (Proc.devRef .tc main_v67)
    = shapeCast S1x3 (V (Proc.devRef .tc main_arg9)) shapeCasts_S3_S1x3 := by
  dsimp only [hostOps4_2]; after_results; rfl
theorem rows_keep6 : StableHlo.after hostOps4_2 V (Proc.devRef .tc main_arg6) = V (Proc.devRef .tc main_arg6) := by
  dsimp only [hostOps4_2]; after_results
theorem rows_keep8 : StableHlo.after hostOps4_2 V (Proc.devRef .tc main_arg8) = V (Proc.devRef .tc main_arg8) := by
  dsimp only [hostOps4_2]; after_results

end Steps

set_option maxHeartbeats 400000 in
theorem W8_v64 (c : Dev nD) : W8 m ρ c (Proc.devRef .tc main_v64) = tr m c := by
  dsimp only [W8, hostOps4]; after_results_simp
  rw [W7_v41, W7_arg1, W7_arg13, W7_arg14, W7_arg15]
  unfold tr KVal.triple KVal.wrapT
  rfl
theorem W8_c14 (c : Dev nD) : W8 m ρ c (Proc.devRef .tc main_c_14) = (constantI S_ 32 0#32 : IVec S_ 32) := by
  dsimp only [W8, hostOps4]; after_results_simp
theorem W8_arg6 (c : Dev nD) : W8 m ρ c (Proc.devRef .tc main_arg6) = (m ((c : Thread nD τ).loc main_arg6)) := by
  dsimp only [W8, hostOps4]; after_results_simp; exact W7_arg6 m ρ c
theorem W8_arg7 (c : Dev nD) : W8 m ρ c (Proc.devRef .tc main_arg7) = (m ((c : Thread nD τ).loc main_arg7)) := by
  dsimp only [W8, hostOps4]; after_results_simp; exact W7_arg7 m ρ c
theorem W8_arg8 (c : Dev nD) : W8 m ρ c (Proc.devRef .tc main_arg8) = (m ((c : Thread nD τ).loc main_arg8)) := by
  dsimp only [W8, hostOps4]; after_results_simp; exact W7_arg8 m ρ c
theorem W8_arg9 (c : Dev nD) : W8 m ρ c (Proc.devRef .tc main_arg9) = (m ((c : Thread nD τ).loc main_arg9)) := by
  dsimp only [W8, hostOps4]; after_results_simp; exact W7_arg9 m ρ c

theorem W9_v65 (c : Dev nD) : W9 m ρ c (Proc.devRef .tc main_v65) = KVal.padded (tr m c) :=
  pad_v65 (W8 m ρ c) (tr m c) (W8_v64 m ρ c) (W8_c14 m ρ c)
theorem W9_arg6 (c : Dev nD) : W9 m ρ c (Proc.devRef .tc main_arg6) = (m ((c : Thread nD τ).loc main_arg6)) :=
  (pad_keep6 (W8 m ρ c)).trans (W8_arg6 m ρ c)
theorem W9_arg7 (c : Dev nD) : W9 m ρ c (Proc.devRef .tc main_arg7) = (m ((c : Thread nD τ).loc main_arg7)) :=
  (pad_keep7 (W8 m ρ c)).trans (W8_arg7 m ρ c)
theorem W9_arg8 (c : Dev nD) : W9 m ρ c (Proc.devRef .tc main_arg8) = (m ((c : Thread nD τ).loc main_arg8)) :=
  (pad_keep8 (W8 m ρ c)).trans (W8_arg8 m ρ c)
theorem W9_arg9 (c : Dev nD) : W9 m ρ c (Proc.devRef .tc main_arg9) = (m ((c : Thread nD τ).loc main_arg9)) :=
  (pad_keep9 (W8 m ρ c)).trans (W8_arg9 m ρ c)

theorem W10_v65 (c : Dev nD) : W10 m ρ c (Proc.devRef .tc main_v65) = KVal.padded (tr m c) :=
  (rows_v65 (W9 m ρ c)).trans (W9_v65 m ρ c)
theorem W10_v66 (c : Dev nD) : W10 m ρ c (Proc.devRef .tc main_v66) = KVal.row32 (m ((c : Thread nD τ).loc main_arg7)) :=
  (rows_v66 (W9 m ρ c)).trans (congrArg KVal.row32 (W9_arg7 m ρ c))
theorem W10_v67 (c : Dev nD) : W10 m ρ c (Proc.devRef .tc main_v67) = shapeCast S1x3 (m ((c : Thread nD τ).loc main_arg9)) shapeCasts_S3_S1x3 :=
  (rows_v67 (W9 m ρ c)).trans (congrArg (fun x => shapeCast S1x3 x shapeCasts_S3_S1x3) (W9_arg9 m ρ c))
theorem W10_arg6 (c : Dev nD) : W10 m ρ c (Proc.devRef .tc main_arg6) = (m ((c : Thread nD τ).loc main_arg6)) :=
  (rows_keep6 (W9 m ρ c)).trans (W9_arg6 m ρ c)
theorem W10_arg8 (c : Dev nD) : W10 m ρ c (Proc.devRef .tc main_arg8) = (m ((c : Thread nD τ).loc main_arg8)) :=
  (rows_keep8 (W9 m ρ c)).trans (W9_arg8 m ρ c)

/-! ## Across pallas call 4, and the last stretch -/

theorem W11_v68 (c : Dev nD) : W11 m ρ c (Proc.devRef .tc main_v68)
    = Spec.mlp (KVal.padded (tr m c)) (m ((c : Thread nD τ).loc main_arg6)) (KVal.row32 (m ((c : Thread nD τ).loc main_arg7))) (m ((c : Thread nD τ).loc main_arg8)) (shapeCast S1x3 (m ((c : Thread nD τ).loc main_arg9)) shapeCasts_S3_S1x3) := by
  refine (W11_arr m ρ c 5).trans ((Region4.arr (V10 m ρ) c).trans ?_)
  show Spec.mlp (W10 m ρ c (Proc.devRef .tc main_v65)) (W10 m ρ c (Proc.devRef .tc main_arg6)) (W10 m ρ c (Proc.devRef .tc main_v66))
    (W10 m ρ c (Proc.devRef .tc main_arg8)) (W10 m ρ c (Proc.devRef .tc main_v67)) = _
  rw [W10_v65, W10_arg6, W10_v66, W10_arg8, W10_v67]

/-- THE KERNEL'S VALUE: the result buffer at the last boundary is `KVal.out` of the argument arrays. -/
theorem value (c : Dev nD) : W12 m ρ c (Proc.devRef .tc main_v69)
    = KVal.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  dsimp only [W12, hostOps5]; after_results
  rw [W11_v68]
  unfold KVal.out
  rfl

end Cert.KernelIdeal.KChain

end
-- ==== Proof.Law.lean ====
/-
  Extended reals that are real numbers, and the one algebraic law the GCN bridge needs.
  The kernel scales a node's aggregated row by the node's factor AFTER summing over the edges into it, having scaled
  each source row before the sum; the reference scales every edge's row by the product of the two factors inside the
  sum. On the extended reals a factor moves across a sum only when nothing is infinite, so the law is stated for
  factors and summands that are real numbers:
      dⱼ · ∑ₑ (Dₑ · Pₑ) = ∑ₑ Pₑ · (Dₑ · Tₑ)        whenever every Tₑ = dⱼ.
  The factors are real because a degree counts at least the node's own self loop, so its inverse square root is real.
-/
import Idealize.ShloMosaic.PureOps.Ideal
import Idealize.ShloMosaic.PureOps.Ideal.Laws

noncomputable section

namespace Cert.Law

open Idealize.ShloMosaic

/-- An extended real that is a real number (neither infinity). -/
def IsReal (x : EReal) : Prop := ∃ r : ℝ, x = (r : EReal)

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sup {x y : EReal} (hx : IsReal x) (hy : IsReal y) : IsReal (Max.max x y) := by
  -- the order is total, so the larger of the two is one of the two
  rcases le_total x y with h | h
  · rw [max_eq_right h]; exact hy
  · rw [max_eq_left h]; exact hx

theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The embedding of the reals commutes with finite sums. -/
private theorem coe_sum {ι : Type*} (s : Finset ι) (g : ι → ℝ) :
    (∑ i ∈ s, (g i : EReal)) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A float word whose magnitude is below +∞ denotes a real: the form the finiteness precondition gives. -/
theorem IsReal.of_abs_lt_top {x : EReal} (h : Max.max x (-x) < ⊤) : IsReal x := by
  induction x using EReal.rec with
  | bot =>
    -- -⊥ = ⊤, so the magnitude is ⊤
    rw [EReal.neg_bot, max_eq_right bot_le] at h
    exact absurd h (lt_irrefl _)
  | coe r => exact ⟨r, rfl⟩
  | top =>
    rw [max_eq_left le_top] at h
    exact absurd h (lt_irrefl _)

/-- The f32 word of 1.0 is the real 1. -/
theorem ofBits_one_f32 : Ideal.ofBits .f32 0x3F800000#32 = 1 := by
  -- sign 0, exponent field 127 (the bias), significand field 0: the normal number (2^23 + 0) · 2^(127 - 127 - 23) = 1
  have h : Ideal.ofBits .f32 0x3F800000#32 = ((1 : ℝ) : EReal) := by
    simp [Ideal.ofBits, Ideal.ieee, -EReal.coe_mul]
    -- what is left is the arithmetic 2^23 · (2^23)⁻¹ = 1 in ℝ
    norm_num
  rw [h, EReal.coe_one]

/-- The inverse square root of a positive count is a real number. -/
theorem isReal_rsqrt_card {ι : Type*} (s : Finset ι) (hs : s.Nonempty) : IsReal (Ideal.rsqrt (∑ _e ∈ s, (1 : EReal))) := by
  -- the sum of ones is the number of elements, a positive real
  have hsum : (∑ _e ∈ s, (1 : EReal)) = ((s.card : ℝ) : EReal) := by
    rw [← EReal.coe_one, coe_sum, Finset.sum_const, nsmul_eq_mul, mul_one]
  have hpos : (0 : ℝ) < (s.card : ℝ) := Nat.cast_pos.mpr (Finset.card_pos.mpr hs)
  rw [hsum]
  show IsReal (if (s.card : ℝ) < 0 then ⊥ else if (s.card : ℝ) = 0 then ⊤ else (((Real.sqrt (s.card : ℝ))⁻¹ : ℝ) : EReal))
  rw [if_neg (not_lt.mpr hpos.le), if_neg hpos.ne']
  exact ⟨_, rfl⟩

/-- THE LAW: a real factor moves into a sum of real terms, edge by edge. -/
theorem scale_sum {ι : Type*} (E : Finset ι) (dj : EReal) (D P T : ι → EReal) (hdj : IsReal dj)
    (hD : ∀ e ∈ E, IsReal (D e)) (hP : ∀ e ∈ E, IsReal (P e)) (hT : ∀ e ∈ E, T e = dj) :
    dj * ∑ e ∈ E, D e * P e = ∑ e ∈ E, P e * (D e * T e) := by
  -- name the real numbers behind the factor and behind every term
  obtain ⟨d, rfl⟩ := hdj
  choose! fD hfD using hD
  choose! fP hfP using hP
  -- both sides are the embedding of a real sum
  have hl : ∑ e ∈ E, D e * P e = ((∑ e ∈ E, fD e * fP e : ℝ) : EReal) := by
    rw [← coe_sum]
    refine Finset.sum_congr rfl fun e he => ?_
    rw [hfD e he, hfP e he, EReal.coe_mul]
  have hr : ∑ e ∈ E, P e * (D e * T e) = ((∑ e ∈ E, fP e * (fD e * d) : ℝ) : EReal) := by
    rw [← coe_sum]
    refine Finset.sum_congr rfl fun e he => ?_
    rw [hfD e he, hfP e he, hT e he, EReal.coe_mul, EReal.coe_mul]
  rw [hl, hr, ← EReal.coe_mul, Finset.mul_sum]
  congr 1
  refine Finset.sum_congr rfl fun e _ => ?_
  ring

end Cert.Law

end
-- ==== Proof.LibScatter.lean ====
/-
  Row gathers and row scatters read at an index.
  A gather of whole rows of an [N, C] array (or of entries of an [N] vector) at E start words reads, at (e, c), the
  operand's row named by start word e, read signed and clamped into [0, N - 1]. A scatter-add of E update rows into
  an [N, C] array adds update row e to the operand's row named by start word e, read signed and NOT clamped, and
  drops it when that row is outside the array; so entry (i, j) of the result is the operand's entry plus the sum,
  over the update rows e whose start word names row i, of update entry (e, j).
-/
import Idealize.ShloMosaic.Lib.ValueIdx
import Idealize.ShloMosaic.PureOps.Ideal

noncomputable section

namespace Cert.LibScatter

open Idealize.ShloMosaic Idealize.ShloMosaic.ValueIdx

variable {α : Type}

/-- The row of an `N`-row array a start word names when read signed, if it is one. -/
def rowOf? (N : ℕ) {w : ℕ} (z : BitVec w) : Option (Fin N) :=
  if h : 0 ≤ z.toInt ∧ z.toInt < (N : Int) then some ⟨z.toInt.toNat, by omega⟩ else none

/-- The row a gather reads for a start word: read signed, clamped into `[0, N - 1]`. -/
def clampRow (N : ℕ) (hN : 0 < N) {w : ℕ} (z : BitVec w) : Fin N := ⟨min z.toInt.toNat (N - 1), by omega⟩

/-- The two axes of a rank-2 array are different. -/
theorem fin2_one_ne_zero : (1 : Fin 2) ≠ 0 := by decide

/-- A start word that names a row of the array is not moved by the clamp. -/
theorem clampRow_of_rowOf? {N : ℕ} (hN : 0 < N) {w : ℕ} {z : BitVec w} {i : Fin N} (h : rowOf? N z = some i) :
    clampRow N hN z = i := by
  unfold rowOf? at h
  split at h
  · rename_i hz
    have hi : (⟨z.toInt.toNat, by omega⟩ : Fin N) = i := Option.some.inj h
    rw [← hi]
    refine Fin.ext ?_
    show min z.toInt.toNat (N - 1) = z.toInt.toNat
    omega
  · exact absurd h (by simp)

/-- Scatter of `E` update rows `[E, C]` into `[N, C]` at start words `[E, 1]`. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of `E` update entries `[E]` into `[N]` at start words `[E, 1]`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of `E` whole rows of `[N, C]` at start words `[E, 1]`. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of `E` entries of `[N]` at start words `[E, 1]`. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather read at `(e, c)`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show ¬ (1 : Fin 2) ∈ (rowGather N E C wf).startIndexMap from
        fun h => fin2_one_ne_zero (List.mem_singleton.mp h))]
    have hoff : (rowGather N E C wf).offCoord (ix2 e c) 1 = c.val := by
      unfold GatherDims.offCoord
      rw [dif_pos (show (1 : Fin 2) ∈ (rowGather N E C wf).sKept from
        (GatherDims.mem_sKept _ _).mpr ⟨fun h => fin2_one_ne_zero (List.mem_singleton.mp h), List.not_mem_nil⟩)]
      rfl
    rw [hst, hoff]; omega

/-- The entry gather read at `e`. -/
theorem vecGather_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Where update entry `(e, c)` of the row scatter lands: in row `rowOf?` of start word `e`, column `c`, if that is a
    row of the array. -/
theorem rowScatter_resultIdx? {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = (rowOf? N (idx (ix2 e (0 : Fin 1)))).map (fun i => ix2 i c) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => fin2_one_ne_zero (List.mem_singleton.mp h))]
  have hw0 : (rowScatter N E C wf).window (ix2 e c) 0 = 0 := by
    unfold ScatterDims.window
    rw [dif_neg (show ¬ (0 : Fin 2) ∈ (rowScatter N E C wf).sKept from by
      simp [ScatterDims.sKept, Shape.kept])]
  have hw1 : (rowScatter N E C wf).window (ix2 e c) 1 = c.val := by
    unfold ScatterDims.window
    rw [dif_pos (show (1 : Fin 2) ∈ (rowScatter N E C wf).sKept from by
      simp [ScatterDims.sKept, Shape.kept])]
    rfl
  unfold ScatterDims.resultIdx? rowOf?
  by_cases hz : 0 ≤ (idx (ix2 e (0 : Fin 1))).toInt ∧ (idx (ix2 e (0 : Fin 1))).toInt < (N : Int)
  · have hall : ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro a
      match a with
      | ⟨0, _⟩ =>
        show 0 ≤ (rowScatter N E C wf).start (ix2 e c) idx 0 + ((rowScatter N E C wf).window (ix2 e c) 0 : ℕ) ∧
          (rowScatter N E C wf).start (ix2 e c) idx 0 + ((rowScatter N E C wf).window (ix2 e c) 0 : ℕ) < (N : ℤ)
        rw [hs0, hw0]; omega
      | ⟨1, _⟩ =>
        show 0 ≤ (rowScatter N E C wf).start (ix2 e c) idx 1 + ((rowScatter N E C wf).window (ix2 e c) 1 : ℕ) ∧
          (rowScatter N E C wf).start (ix2 e c) idx 1 + ((rowScatter N E C wf).window (ix2 e c) 1 : ℕ) < (C : ℤ)
        rw [hs1, hw1]; have := c.isLt; omega
    rw [dif_pos hall, dif_pos hz]
    simp only [Option.map_some]
    congr 1
    funext a
    refine Fin.ext ?_
    match a with
    | ⟨0, _⟩ =>
      show ((rowScatter N E C wf).start (ix2 e c) idx 0 + ((rowScatter N E C wf).window (ix2 e c) 0 : ℕ)).toNat
        = (idx (ix2 e (0 : Fin 1))).toInt.toNat
      rw [hs0, hw0]; simp
    | ⟨1, _⟩ =>
      show ((rowScatter N E C wf).start (ix2 e c) idx 1 + ((rowScatter N E C wf).window (ix2 e c) 1 : ℕ)).toNat = c.val
      rw [hs1, hw1]; simp
  · have hnot : ¬ ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Where update entry `e` of the entry scatter lands: at entry `rowOf?` of start word `e`, if that is an entry of the
    array. -/
theorem vecScatter_resultIdx? {N E w : ℕ}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (rowOf? N (idx (ix2 e (0 : Fin 1)))).map ix1 := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from by
      simp [ScatterDims.sKept, Shape.kept])]
  unfold ScatterDims.resultIdx? rowOf?
  by_cases hz : 0 ≤ (idx (ix2 e (0 : Fin 1))).toInt ∧ (idx (ix2 e (0 : Fin 1))).toInt < (N : Int)
  · have hall : ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro a
      obtain rfl : a = 0 := Subsingleton.elim _ _
      show 0 ≤ (vecScatter N E wf).start (ix1 e) idx 0 + ((vecScatter N E wf).window (ix1 e) 0 : ℕ) ∧
        (vecScatter N E wf).start (ix1 e) idx 0 + ((vecScatter N E wf).window (ix1 e) 0 : ℕ) < (N : ℤ)
      rw [hs0, hw0]; omega
    rw [dif_pos hall, dif_pos hz]
    simp only [Option.map_some]
    congr 1
    funext a
    obtain rfl : a = 0 := Subsingleton.elim _ _
    refine Fin.ext ?_
    show ((vecScatter N E wf).start (ix1 e) idx 0 + ((vecScatter N E wf).window (ix1 e) 0 : ℕ)).toNat
      = (idx (ix2 e (0 : Fin 1))).toInt.toNat
    rw [hs0, hw0]; simp
  · have hnot : ¬ ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Two rank-2 indices given by coordinates are equal exactly when their coordinates are. -/
theorem ix2_eq_ix2 {n0 n1 : ℕ} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices given by their coordinate are equal exactly when the coordinates are. -/
theorem ix1_eq_ix1 {n : ℕ} (a a' : Fin n) : ix1 a = ix1 a' ↔ a = a' := by
  constructor
  · intro h
    exact congrFun h 0
  · rintro rfl; rfl

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The accumulating row scatter at the ideal instance, read at `(i, j)`: the operand's entry plus the update
    entries `(e, j)` of the rows `e` whose start word names row `i`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (i : Fin N) (j : Fin C) :
    Host.scatterAdd (F := Ideal) (rowScatter N E C wf) x idx upd (ix2 i j)
      = x (ix2 i j) + ∑ e ∈ Finset.univ.filter (fun e : Fin E => rowOf? N (idx (ix2 e (0 : Fin 1))) = some i), upd (ix2 e j) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [rowScatter_resultIdx?]
  cases hr : rowOf? N (idx (ix2 e (0 : Fin 1))) with
  | none => simp
  | some i' =>
    simp only [Option.map_some, Option.some.injEq, ix2_eq_ix2]
    by_cases hi : i' = i
    · subst hi; simp
    · simp [hi]

/-- The accumulating entry scatter at the ideal instance, read at `i`. -/
theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatter N E wf) x idx upd (ix1 i)
      = x (ix1 i) + ∑ e ∈ Finset.univ.filter (fun e : Fin E => rowOf? N (idx (ix2 e (0 : Fin 1))) = some i), upd (ix1 e) := by
  unfold Host.scatterAdd
  rw [Ideal.hostScatterAdd_def]
  unfold Ideal.hostScatterAdd
  congr 1
  rw [Finset.sum_filter, Finset.sum_filter, sum_idx1]
  refine Finset.sum_congr rfl fun e _ => ?_
  simp only [vecScatter_resultIdx?]
  cases hr : rowOf? N (idx (ix2 e (0 : Fin 1))) with
  | none => simp
  | some i' =>
    simp only [Option.map_some, Option.some.injEq, ix1_eq_ix1]

end Cert.LibScatter

end
-- ==== Proof.BridgeDefs.lean ====
/-
  The reference's two non-trivial stretches as functions of an arbitrary input, spelt with the reference's own stages:
  one GCN layer over a given node-feature array, and the head over a given triple array.
-/
import proofs.«419057_j12043088298451_4_alg».proof.Proof.KVal
import proofs.«419057_j12043088298451_4_alg».proof.Proof.Law
import proofs.«419057_j12043088298451_4_alg».proof.Proof.LibScatter
import proofs.«419057_j12043088298451_4_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.StableHlo.Predicate
import Idealize.ShloMosaic.PureOps.Ideal.Laws

set_option maxRecDepth 16384

noncomputable section

namespace Cert.Bridge

open Idealize.ShloMosaic Idealize.ShloMosaic.ValueIdx Cert.Law
open Cert.KernelIdeal (S100000x32 S64x32 S32x32 S32 S32x3 S3 S100000 S2500000 S500000 S500000x32 S500000x3)

/-- The reference's layer over a given input `X` (its stages 31–47 with `X` in place of the gathered entity rows):
    the rows of `X · W` the source words name, each times `dis[src] · dis[dst]`, summed into the rows the destination
    words name, plus the bias, rectified. -/
def refLayer (X : FVec Ideal S100000x32 .f32) (W : FVec Ideal S32x32 .f32) (b : FVec Ideal S32 .f32)
    (a11 a12 : IVec S2500000 32) : FVec Ideal S100000x32 .f32 :=
  maximumf
    (addf
      (Host.scatterAdd Cert.ReferenceIdeal.scatter_S100000x32_S2600000x1_S2600000x32_1_0_0_1
        (Cert.ReferenceIdeal.Read.val_main_v41 (F := Ideal)) (Cert.ReferenceIdeal.Read.val_main_v42 (F := Ideal) a12)
        (mulf
          (Host.gather Cert.ReferenceIdeal.gather_S100000x32_S2600000x1_S2600000x32_1_0_n_n_0_1_132
            (Host.dotGeneral Cert.ReferenceIdeal.dot_S100000x32_S32x32_S100000x32_1_0_0_1_n_n none X W)
            (Cert.ReferenceIdeal.Read.val_main_v37 (F := Ideal) a11))
          (Cert.ReferenceIdeal.Read.val_main_v39 (F := Ideal) a11 a12)))
      (Cert.ReferenceIdeal.Read.val_main_v45 (F := Ideal) b))
    (Cert.ReferenceIdeal.Read.val_main_call0_v0 (F := Ideal))

/-- The reference's head over a given triple array `t` (its stages 88–96 with `t` in place of stage 87). -/
def refHead (t : FVec Ideal S500000x32 .f32) (a6 : FVec Ideal S32x32 .f32) (a7 : FVec Ideal S32 .f32)
    (a8 : FVec Ideal S32x3 .f32) (a9 : FVec Ideal S3 .f32) : FVec Ideal S500000x3 .f32 :=
  addf
    (Host.dotGeneral Cert.ReferenceIdeal.dot_S500000x32_S32x3_S500000x3_1_0_0_1_n_n none
      (maximumf
        (addf (Host.dotGeneral Cert.ReferenceIdeal.dot_S500000x32_S32x32_S500000x32_1_0_0_1_n_n none t a6)
          (Cert.ReferenceIdeal.Read.val_main_v90 (F := Ideal) a7))
        (Cert.ReferenceIdeal.Read.val_main_call2_v0 (F := Ideal)))
      a8)
    (Cert.ReferenceIdeal.Read.val_main_v95 (F := Ideal) a9)

end Cert.Bridge

end
-- ==== Proof.BridgeDis.lean ====
/-
  Facts about the degree scale `dis` and the destination words, shared by both GCN layers.
    dis2_apply   the scale column read at row r is the scale vector at r
    self_loop    the self loop appended at position 2500000 + r of the destination words names row r
    dis_real     every scale is a real number: the degree of node r is 0 + the number of edge words that name r, and the
                 self loop appended at position 2500000 + r names r, so the count is positive and its inverse square
                 root is real
    dst_row      an edge whose (raw) destination word names row j: its normalised word is the same word (it is not
                 negative), and the gather's clamp leaves it at j
    ref_dis_eq   the reference's scale vector is the same term
-/
import proofs.«419057_j12043088298451_4_alg».proof.Proof.BridgeDefs

set_option maxRecDepth 16384

noncomputable section

namespace Cert.Bridge

open Idealize.ShloMosaic Idealize.ShloMosaic.ValueIdx Cert.Law
open Cert.KernelIdeal (S100000x32 S64x32 S32x32 S32 S32x3 S3 S100000 S2500000 S500000 S500000x32 S500000x3)

/-- The scale column read at row `r`. -/
theorem dis2_apply (a12 : IVec S2500000 32) (r : Fin 100000) :
    Cert.KernelIdeal.KVal.dis2 a12 (ix2 r (0 : Fin 1)) = Cert.KernelIdeal.KVal.dis a12 (ix1 r) := by
  unfold Cert.KernelIdeal.KVal.dis2
  -- both indices sit at row-major position r: r * 1 + 0 in the column, r in the vector
  exact shapeCast_apply _ _ _ _ (by
    rw [Shape.rowMajor_val_two, Shape.rowMajor_val_one]
    show r.val = r.val * 1 + 0
    omega)

/-- The destination column read at edge `e` is the word at `e` of the edge list with the self loops appended. -/
theorem dstCol_apply (a12 : IVec S2500000 32) (e : Fin 2600000) :
    Cert.KernelIdeal.KVal.dstCol a12 (ix2 e (0 : Fin 1)) = Cert.KernelIdeal.KVal.withLoops a12 (ix1 e) := by
  unfold Cert.KernelIdeal.KVal.dstCol
  exact broadcastInDim_apply _ _ _ _ _ (fun a => match a with
    | ⟨0, _⟩ => by show e.val = if (2600000 : Nat) = 1 then 0 else e.val; rw [if_neg (by decide)])

/-- Position `2500000 + r` of the extended edge list falls in the appended part, which counts `0, 1, …`: the word there
    is `r`. -/
theorem withLoops_loop (a12 : IVec S2500000 32) (r : Fin 100000) :
    Cert.KernelIdeal.KVal.withLoops a12 (ix1 (⟨2500000 + r.val, by omega⟩ : Fin 2600000)) = BitVec.ofNat 32 r.val := by
  unfold Cert.KernelIdeal.KVal.withLoops
  refine (concatenate_pair_apply_right (t := Cert.KernelIdeal.S2600000) (s₁ := S2500000) (s₂ := S100000) 0 a12
    (iotaInDim S100000 32 0) _ (ix1 (⟨2500000 + r.val, by omega⟩ : Fin 2600000)) rfl rfl (ix1 r) ?_ ?_).trans ?_
  · -- a rank-1 array has no axis other than the joined one
    intro b hb
    exact absurd (Subsingleton.elim _ _) hb
  · show r.val + 2500000 = 2500000 + r.val
    omega
  · rfl

/-- The word `r` of a node `r < 100000`, read signed, names row `r`. -/
theorem rowOf?_ofNat (r : Fin 100000) : LibScatter.rowOf? 100000 (BitVec.ofNat 32 r.val) = some r := by
  have hr := r.isLt
  -- r < 2^31, so the signed reading of the word is r
  have ht : (BitVec.ofNat 32 r.val).toInt = (r.val : Int) := StableHlo.Predicate.toInt_ofNat_small r.val (by omega)
  unfold LibScatter.rowOf?
  rw [dif_pos (show 0 ≤ (BitVec.ofNat 32 r.val).toInt ∧ (BitVec.ofNat 32 r.val).toInt < ((100000 : ℕ) : Int) by rw [ht]; omega)]
  refine congrArg some (Fin.ext ?_)
  show (BitVec.ofNat 32 r.val).toInt.toNat = r.val
  rw [ht]
  omega

/-- The self loop of node `r` sits at position `2500000 + r` of the destination words and names row `r`. -/
theorem self_loop (a12 : IVec S2500000 32) (r : Fin 100000) :
    LibScatter.rowOf? 100000 (Cert.KernelIdeal.KVal.dstCol a12 (ix2 (⟨2500000 + r.val, by omega⟩ : Fin 2600000) (0 : Fin 1))) = some r := by
  rw [dstCol_apply, withLoops_loop]
  exact rowOf?_ofNat r

/-- The degree of node `r` is the number of destination words that name `r`, as a sum of ones. -/
theorem deg_apply (a12 : IVec S2500000 32) (r : Fin 100000) :
    Cert.KernelIdeal.KVal.deg a12 (ix1 r)
      = ∑ _e ∈ Finset.univ.filter (fun e : Fin 2600000 =>
          LibScatter.rowOf? 100000 (Cert.KernelIdeal.KVal.dstCol a12 (ix2 e (0 : Fin 1))) = some r), (1 : EReal) := by
  unfold Cert.KernelIdeal.KVal.deg
  -- the program's scatter record is the entry scatter of 2600000 updates into 100000 entries
  have hrec : Cert.KernelIdeal.scatter_S100000_S2600000x1_S2600000_n_0_0_1
      = LibScatter.vecScatter 100000 2600000 Cert.KernelIdeal.Gen.scatter_S100000_S2600000x1_S2600000_n_0_0_1_wf := rfl
  rw [hrec, LibScatter.vecScatterAdd_apply]
  -- the operand is 0 everywhere, every update is 1
  rw [broadcastInDim_scalar_apply, constant_apply, Ideal.ofBits_zero_f32, zero_add]
  refine Finset.sum_congr rfl fun e _ => ?_
  rw [broadcastInDim_scalar_apply, constant_apply, ofBits_one_f32]

/-- The host's inverse square root of an array, read at an index, is the inverse square root of the entry there. -/
theorem hostRsqrt_apply {s : Shape} (x : FVec Ideal s .f32) (i : s.Idx) : Host.rsqrt x i = Ideal.rsqrt (x i) := rfl

/-- Every scale is a real number. -/
theorem dis_real (a12 : IVec S2500000 32) (r : Fin 100000) : IsReal (Cert.KernelIdeal.KVal.dis a12 (ix1 r)) := by
  unfold Cert.KernelIdeal.KVal.dis
  rw [hostRsqrt_apply, deg_apply]
  -- the self loop of r is one of the counted edges
  exact isReal_rsqrt_card _ ⟨(⟨2500000 + r.val, by omega⟩ : Fin 2600000),
    Finset.mem_filter.mpr ⟨Finset.mem_univ _, self_loop a12 r⟩⟩

/-- The normalised start word of edge `e`: the word, with 100000 added when it reads negative. -/
theorem wrapE_apply (v : IVec Cert.KernelIdeal.S2600000 32) (e : Fin 2600000) :
    Cert.KernelIdeal.KVal.wrapE v (ix2 e (0 : Fin 1))
      = Scalar.select (IntOp.cmpi .slt (v (ix1 e)) 0#32) (IntOp.addi (v (ix1 e)) 100000#32) (v (ix1 e)) := by
  unfold Cert.KernelIdeal.KVal.wrapE
  rw [broadcastInDim_apply _ _ _ _ (ix1 e) (fun a => match a with
    | ⟨0, _⟩ => by show e.val = if (2600000 : Nat) = 1 then 0 else e.val; rw [if_neg (by decide)])]
  rw [select_apply]
  show Scalar.select
      (IntOp.cmpi .slt (v (ix1 e)) (broadcastInDim Cert.KernelIdeal.S2600000 ![] _ (constantI Cert.KernelIdeal.S_ 32 0#32) (ix1 e)))
      (IntOp.addi (v (ix1 e)) (broadcastInDim Cert.KernelIdeal.S2600000 ![] _ (constantI Cert.KernelIdeal.S_ 32 100000#32) (ix1 e)))
      (v (ix1 e)) = _
  rw [broadcastInDim_scalar_apply, broadcastInDim_scalar_apply, constantI_apply, constantI_apply]

/-- An edge whose destination word names row `j`: its normalised and clamped destination word names `j` too. -/
theorem dst_row (a12 : IVec S2500000 32) (e : Fin 2600000) (j : Fin 100000)
    (h : LibScatter.rowOf? 100000 (Cert.KernelIdeal.KVal.dstCol a12 (ix2 e (0 : Fin 1))) = some j) :
    LibScatter.clampRow 100000 (by decide)
      (Cert.KernelIdeal.KVal.wrapE (Cert.KernelIdeal.KVal.withLoops a12) (ix2 e (0 : Fin 1))) = j := by
  rw [dstCol_apply] at h
  rw [wrapE_apply]
  generalize Cert.KernelIdeal.KVal.withLoops a12 (ix1 e) = z at h ⊢
  -- naming a row means reading, signed, into [0, 100000)
  have hz : 0 ≤ z.toInt ∧ z.toInt < ((100000 : ℕ) : Int) := by
    by_contra hn
    unfold LibScatter.rowOf? at h
    rw [dif_neg hn] at h
    cases h
  -- so the word is not negative and the normalisation keeps it
  have h0 : (0#32 : BitVec 32).toInt = 0 := by decide
  have hs : z.slt 0#32 = false := by
    unfold BitVec.slt
    rw [h0]
    exact decide_eq_false (by omega)
  have hc : IntOp.cmpi .slt z 0#32 = 0#1 := by
    show BitVec.ofBool (z.slt 0#32) = 0#1
    rw [hs]
    rfl
  rw [hc, select_zero]
  exact LibScatter.clampRow_of_rowOf? _ h

/-- The reference's scale vector (its stage 14) is the kernel's. -/
theorem ref_dis_eq (a12 : IVec S2500000 32) :
    Cert.ReferenceIdeal.Read.val_main_v14 (F := Ideal) a12 = Cert.KernelIdeal.KVal.dis a12 := by
  unfold Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v7 Cert.ReferenceIdeal.Read.val_main_cst Cert.ReferenceIdeal.Read.val_main_cst_1
  unfold Cert.KernelIdeal.KVal.dis Cert.KernelIdeal.KVal.deg Cert.KernelIdeal.KVal.dstCol Cert.KernelIdeal.KVal.withLoops
  rfl

end Cert.Bridge

end
-- ==== Proof.BridgeLayer.lean ====
/-
  One GCN layer: the kernel's is the reference's.
  Kernel, at node j and column c:   max (dis j · ∑ₑ dis (src e) · (X·W)(src e, c) + b c) 0
  Reference:                        max (∑ₑ (X·W)(src e, c) · (dis (src e) · dis (dst' e)) + b c) 0
  both sums over the edges e (self loops included) whose destination word names row j; src e is the clamped normalised
  source word, dst' e the clamped normalised destination word, which for such an edge is j itself. The factor dis j moves
  into the sum because every term is real: dis is the inverse square root of a degree that counts at least the node's
  own self loop, and X, W hold reals.
  The steps: the printed gather and scatter records are the general row and entry ones, so each side is read at (j, c)
  (`layer_apply`, `refLayer_apply`) with the same edge set `edgesInto` and the same clamped rows `edgeRow`; the
  reference's normalised word columns, its destination column and its scale vector are the kernel's own terms; then
  the law `scale_sum`.
-/
import proofs.«419057_j12043088298451_4_alg».proof.Proof.BridgeDis

set_option maxRecDepth 16384

noncomputable section

namespace Cert.Bridge

open Idealize.ShloMosaic Idealize.ShloMosaic.ValueIdx Cert.Law
open Cert.KernelIdeal (S100000x32 S64x32 S32x32 S32 S32x3 S3 S100000 S2500000 S500000 S500000x32 S500000x3)

/-- The kernel's gather of source rows is the general row gather. -/
theorem kernel_edgeGather_eq_rowGather : Cert.KernelIdeal.gather_S100000x32_S2600000x1_S2600000x32_1_0_n_n_0_1_132
    = LibScatter.rowGather 100000 2600000 32 Cert.KernelIdeal.Facts₀.gather_S100000x32_S2600000x1_S2600000x32_1_0_n_n_0_1_132_wf := rfl

/-- The kernel's gather of entity rows is the general row gather. -/
theorem kernel_nodeGather_eq_rowGather : Cert.KernelIdeal.gather_S100000x32_S100000x1_S100000x32_1_0_n_n_0_1_132
    = LibScatter.rowGather 100000 100000 32 Cert.KernelIdeal.Facts₀.gather_S100000x32_S100000x1_S100000x32_1_0_n_n_0_1_132_wf := rfl

/-- The kernel's scatter into destination rows is the general row scatter. -/
theorem kernel_edgeScatter_eq_rowScatter : Cert.KernelIdeal.scatter_S100000x32_S2600000x1_S2600000x32_1_0_0_1
    = LibScatter.rowScatter 100000 2600000 32 Cert.KernelIdeal.Facts₀.scatter_S100000x32_S2600000x1_S2600000x32_1_0_0_1_wf := rfl

/-- The reference's gather of source rows is the general row gather. -/
theorem ref_edgeGather_eq_rowGather : Cert.ReferenceIdeal.gather_S100000x32_S2600000x1_S2600000x32_1_0_n_n_0_1_132
    = LibScatter.rowGather 100000 2600000 32 Cert.ReferenceIdeal.Facts₀.gather_S100000x32_S2600000x1_S2600000x32_1_0_n_n_0_1_132_wf := rfl

/-- The reference's scatter into destination rows is the general row scatter. -/
theorem ref_edgeScatter_eq_rowScatter : Cert.ReferenceIdeal.scatter_S100000x32_S2600000x1_S2600000x32_1_0_0_1
    = LibScatter.rowScatter 100000 2600000 32 Cert.ReferenceIdeal.Facts₀.scatter_S100000x32_S2600000x1_S2600000x32_1_0_0_1_wf := rfl

/-- The reference's gather of scale entries is the general entry gather. -/
theorem ref_scaleGather_eq_vecGather : Cert.ReferenceIdeal.gather_S100000_S2600000x1_S2600000_n_0_n_n_0_1_1
    = LibScatter.vecGather 100000 2600000 Cert.ReferenceIdeal.Facts₀.gather_S100000_S2600000x1_S2600000_n_0_n_n_0_1_1_wf := rfl

/-- The host's product of a 100000 × 32 array with a 32 × 32 array, read at row r and column c. -/
theorem refDot_apply (X : FVec Ideal S100000x32 .f32) (W : FVec Ideal S32x32 .f32) (r : Fin 100000) (c : Fin 32) :
    Host.dotGeneral Cert.ReferenceIdeal.dot_S100000x32_S32x32_S100000x32_1_0_0_1_n_n none X W (ix2 r c)
      = ∑ k : Fin 32, X (ix2 r k) * W (ix2 k c) := by
  simp only [Host.dotGeneral]
  rw [Ideal.dotGeneral_apply, ← Equiv.sum_comp (ValueIdx.contrEquiv1 Cert.ReferenceIdeal.dot_S100000x32_S32x32_S100000x32_1_0_0_1_n_n 32 rfl rfl).symm]
  refine Finset.sum_congr rfl fun k _ => ?_
  have hk := ValueIdx.contrEquiv1_symm_val Cert.ReferenceIdeal.dot_S100000x32_S32x32_S100000x32_1_0_0_1_n_n 32 rfl rfl k
  have el : Cert.ReferenceIdeal.dot_S100000x32_S32x32_S100000x32_1_0_0_1_n_n.lhsIdx (ix2 r c)
      ((ValueIdx.contrEquiv1 Cert.ReferenceIdeal.dot_S100000x32_S32x32_S100000x32_1_0_0_1_n_n 32 rfl rfl).symm k) = ix2 r k :=
    funext fun a => Fin.ext (by
      match a with
      | ⟨0, _⟩ => exact Cert.ReferenceIdeal.Read.lhs_main_v31_0 _ _
      | ⟨1, _⟩ => exact (Cert.ReferenceIdeal.Read.lhs_main_v31_1 _ _).trans hk)
  have er : Cert.ReferenceIdeal.dot_S100000x32_S32x32_S100000x32_1_0_0_1_n_n.rhsIdx (ix2 r c)
      ((ValueIdx.contrEquiv1 Cert.ReferenceIdeal.dot_S100000x32_S32x32_S100000x32_1_0_0_1_n_n 32 rfl rfl).symm k) = ix2 k c :=
    funext fun a => Fin.ext (by
      match a with
      | ⟨0, _⟩ => exact (Cert.ReferenceIdeal.Read.rhs_main_v31_0 _ _).trans hk
      | ⟨1, _⟩ => exact Cert.ReferenceIdeal.Read.rhs_main_v31_1 _ _)
  rw [el, er]

/-- The edges (self loops included) whose destination word names row j. -/
def edgesInto (a12 : IVec S2500000 32) (j : Fin 100000) : Finset (Fin 2600000) :=
  Finset.univ.filter (fun e : Fin 2600000 =>
    LibScatter.rowOf? 100000 (Cert.KernelIdeal.KVal.dstCol a12 (ix2 e (0 : Fin 1))) = some j)

/-- The row an edge's normalised word names once clamped: the row a gather reads for it. -/
def edgeRow (a : IVec S2500000 32) (e : Fin 2600000) : Fin 100000 :=
  LibScatter.clampRow 100000 (by decide)
    (Cert.KernelIdeal.KVal.wrapE (Cert.KernelIdeal.KVal.withLoops a) (ix2 e (0 : Fin 1)))

/-- The aggregation read at (j, c): the sum, over the edges into j, of the source rows' entries in column c. -/
theorem agg_apply (h : FVec Ideal S100000x32 .f32) (a11 a12 : IVec S2500000 32) (j : Fin 100000) (c : Fin 32) :
    Cert.KernelIdeal.KVal.agg h a11 a12 (ix2 j c) = ∑ e ∈ edgesInto a12 j, h (ix2 (edgeRow a11 e) c) := by
  unfold Cert.KernelIdeal.KVal.agg
  rw [kernel_edgeScatter_eq_rowScatter, LibScatter.rowScatterAdd_apply, kernel_edgeGather_eq_rowGather, broadcastInDim_scalar_apply, constant_apply,
    Ideal.ofBits_zero_f32, zero_add]
  refine Finset.sum_congr rfl fun e _ => ?_
  rw [LibScatter.rowGather_apply (by decide)]
  rfl

/-- The bias row read at column c. -/
theorem row32_apply (b : FVec Ideal S32 .f32) (c : Fin 32) :
    Cert.KernelIdeal.KVal.row32 b (ix2 (0 : Fin 1) c) = b (ix1 c) := by
  unfold Cert.KernelIdeal.KVal.row32
  exact shapeCast_a_1a_apply b _ 0 c

/-- The kernel's layer at (j, c): max (dis j · ∑ₑ dis (src e) · (X·W)(src e, c) + b c) 0. -/
theorem layer_apply (X : FVec Ideal S100000x32 .f32) (W : FVec Ideal S32x32 .f32) (b : FVec Ideal S32 .f32)
    (a11 a12 : IVec S2500000 32) (j : Fin 100000) (c : Fin 32) :
    Cert.KernelIdeal.KVal.layer X W b a11 a12 (ix2 j c)
      = max (Cert.KernelIdeal.KVal.dis a12 (ix1 j)
            * (∑ e ∈ edgesInto a12 j, Cert.KernelIdeal.KVal.dis a12 (ix1 (edgeRow a11 e))
                * ∑ k : Fin 32, X (ix2 (edgeRow a11 e) k) * W (ix2 k c))
          + b (ix1 c)) 0 := by
  show max (Cert.KernelIdeal.KVal.dis2 a12 (ix2 j (0 : Fin 1))
      * Cert.KernelIdeal.KVal.agg (Cert.Spec.lin X W (Cert.KernelIdeal.KVal.dis2 a12)) a11 a12 (ix2 j c)
      + Cert.KernelIdeal.KVal.row32 b (ix2 (0 : Fin 1) c)) 0 = _
  have hs : ∑ e ∈ edgesInto a12 j, Cert.Spec.lin X W (Cert.KernelIdeal.KVal.dis2 a12) (ix2 (edgeRow a11 e) c)
      = ∑ e ∈ edgesInto a12 j, Cert.KernelIdeal.KVal.dis a12 (ix1 (edgeRow a11 e))
          * ∑ k : Fin 32, X (ix2 (edgeRow a11 e) k) * W (ix2 k c) :=
    Finset.sum_congr rfl fun e _ => by
      show Cert.KernelIdeal.KVal.dis2 a12 (ix2 (edgeRow a11 e) (0 : Fin 1)) * _ = _
      rw [dis2_apply]
  rw [dis2_apply, agg_apply, row32_apply, hs]

/-- The reference's destination column is the kernel's. -/
theorem ref_dstCol_eq (a12 : IVec S2500000 32) :
    Cert.ReferenceIdeal.Read.val_main_v42 (F := Ideal) a12 = Cert.KernelIdeal.KVal.dstCol a12 := rfl

/-- The normalised source column the reference's row gather reads (stage 37) is the kernel's. -/
theorem ref_srcCol_eq (a11 : IVec S2500000 32) :
    Cert.ReferenceIdeal.Read.val_main_v37 (F := Ideal) a11
      = Cert.KernelIdeal.KVal.wrapE (Cert.KernelIdeal.KVal.withLoops a11) := rfl

/-- The normalised source column the reference's scale gather reads (stage 20) is the kernel's. -/
theorem ref_srcScaleCol_eq (a11 : IVec S2500000 32) :
    Cert.ReferenceIdeal.Read.val_main_v20 (F := Ideal) a11
      = Cert.KernelIdeal.KVal.wrapE (Cert.KernelIdeal.KVal.withLoops a11) := rfl

/-- The normalised destination column the reference's scale gather reads (stage 27) is the kernel's, over the destination words. -/
theorem ref_dstScaleCol_eq (a12 : IVec S2500000 32) :
    Cert.ReferenceIdeal.Read.val_main_v27 (F := Ideal) a12
      = Cert.KernelIdeal.KVal.wrapE (Cert.KernelIdeal.KVal.withLoops a12) := rfl

/-- The reference's zero array holds zeros. -/
theorem ref_zeros_apply (i : Cert.ReferenceIdeal.S100000x32.Idx) :
    Cert.ReferenceIdeal.Read.val_main_v41 (F := Ideal) i = 0 := by
  rw [Cert.ReferenceIdeal.Read.val_main_v41_apply]
  exact Ideal.ofBits_zero_f32

/-- The rectifier's zero array holds zeros. -/
theorem ref_relu_zeros_apply (i : Cert.ReferenceIdeal.S100000x32.Idx) :
    Cert.ReferenceIdeal.Read.val_main_call0_v0 (F := Ideal) i = 0 := by
  rw [Cert.ReferenceIdeal.Read.val_main_call0_v0_apply]
  exact Ideal.ofBits_zero_f32

/-- The reference's broadcast bias read at (j, c). -/
theorem ref_bias_apply (b : FVec Ideal S32 .f32) (j : Fin 100000) (c : Fin 32) :
    Cert.ReferenceIdeal.Read.val_main_v45 (F := Ideal) b (ix2 j c) = b (ix1 c) := by
  rw [Cert.ReferenceIdeal.Read.val_main_v45_apply, Cert.ReferenceIdeal.Read.val_main_v44_apply]
  congr 1
  funext a
  match a with
  | ⟨0, _⟩ => rfl

/-- The reference's edge weight read at (e, c): dis (src e) · dis (dst' e). -/
theorem ref_norm_apply (a11 a12 : IVec S2500000 32) (e : Fin 2600000) (c : Fin 32) :
    Cert.ReferenceIdeal.Read.val_main_v39 (F := Ideal) a11 a12 (ix2 e c)
      = Cert.KernelIdeal.KVal.dis a12 (ix1 (edgeRow a11 e)) * Cert.KernelIdeal.KVal.dis a12 (ix1 (edgeRow a12 e)) := by
  rw [Cert.ReferenceIdeal.Read.val_main_v39_apply, Cert.ReferenceIdeal.Read.val_main_v30_apply,
    Cert.ReferenceIdeal.Read.val_main_v29_apply]
  have hi : Cert.ReferenceIdeal.Read.idx_main_v30 (Cert.ReferenceIdeal.Read.idx_main_v39 (ix2 e c)) = ix1 e := by
    funext a
    match a with
    | ⟨0, _⟩ => rfl
  rw [hi]
  unfold Cert.ReferenceIdeal.Read.val_main_v21 Cert.ReferenceIdeal.Read.val_main_v28
  rw [ref_scaleGather_eq_vecGather, LibScatter.vecGather_apply (by decide), LibScatter.vecGather_apply (by decide), ref_dis_eq,
    ref_srcScaleCol_eq, ref_dstScaleCol_eq]
  rfl

/-- The reference's layer at (j, c): max (∑ₑ (X·W)(src e, c) · (dis (src e) · dis (dst' e)) + b c) 0. -/
theorem refLayer_apply (X : FVec Ideal S100000x32 .f32) (W : FVec Ideal S32x32 .f32) (b : FVec Ideal S32 .f32)
    (a11 a12 : IVec S2500000 32) (j : Fin 100000) (c : Fin 32) :
    refLayer X W b a11 a12 (ix2 j c)
      = max ((∑ e ∈ edgesInto a12 j, (∑ k : Fin 32, X (ix2 (edgeRow a11 e) k) * W (ix2 k c))
                * (Cert.KernelIdeal.KVal.dis a12 (ix1 (edgeRow a11 e)) * Cert.KernelIdeal.KVal.dis a12 (ix1 (edgeRow a12 e))))
          + b (ix1 c)) 0 := by
  unfold refLayer
  rw [maximumf_apply, addf_apply, ref_edgeScatter_eq_rowScatter, LibScatter.rowScatterAdd_apply, ref_zeros_apply, zero_add,
    ref_relu_zeros_apply, ref_bias_apply, ref_dstCol_eq]
  have hs : ∀ e : Fin 2600000,
      mulf (Host.gather Cert.ReferenceIdeal.gather_S100000x32_S2600000x1_S2600000x32_1_0_n_n_0_1_132
          (Host.dotGeneral Cert.ReferenceIdeal.dot_S100000x32_S32x32_S100000x32_1_0_0_1_n_n none X W)
          (Cert.ReferenceIdeal.Read.val_main_v37 (F := Ideal) a11))
        (Cert.ReferenceIdeal.Read.val_main_v39 (F := Ideal) a11 a12) (ix2 e c)
      = (∑ k : Fin 32, X (ix2 (edgeRow a11 e) k) * W (ix2 k c))
          * (Cert.KernelIdeal.KVal.dis a12 (ix1 (edgeRow a11 e)) * Cert.KernelIdeal.KVal.dis a12 (ix1 (edgeRow a12 e))) := by
    intro e
    rw [mulf_apply, ref_norm_apply, ref_edgeGather_eq_rowGather, LibScatter.rowGather_apply (by decide), refDot_apply, ref_srcCol_eq]
    rfl
  rw [Finset.sum_congr rfl fun e _ => hs e]
  rfl

/-- The gathered entity rows hold reals when the entity table does. -/
theorem x0_real (a0 : FVec Ideal S100000x32 .f32) (a10 : IVec S100000 32) (h0 : ∀ i, IsReal (a0 i)) :
    ∀ i, IsReal (Cert.KernelIdeal.KVal.x0 a0 a10 i) := by
  intro i
  obtain ⟨e, c, rfl⟩ : ∃ (e : Fin 100000) (c : Fin 32), i = ix2 e c := ⟨i 0, i 1, eq_ix2 i⟩
  unfold Cert.KernelIdeal.KVal.x0
  rw [kernel_nodeGather_eq_rowGather, LibScatter.rowGather_apply (by decide)]
  exact h0 _

/-- ONE LAYER: the kernel's layer is the reference's, on an input and a weight that hold reals. -/
theorem layer_eq (X : FVec Ideal S100000x32 .f32) (W : FVec Ideal S32x32 .f32) (b : FVec Ideal S32 .f32)
    (a11 a12 : IVec S2500000 32) (hX : ∀ i, IsReal (X i)) (hW : ∀ i, IsReal (W i)) :
    Cert.KernelIdeal.KVal.layer X W b a11 a12 = refLayer X W b a11 a12 := by
  funext i
  obtain ⟨j, c, rfl⟩ : ∃ (j : Fin 100000) (c : Fin 32), i = ix2 j c := ⟨i 0, i 1, eq_ix2 i⟩
  rw [layer_apply, refLayer_apply]
  -- the factor dis j moves into the sum: every term is real, and an edge into j has dst' e = j
  have key := Cert.Law.scale_sum (edgesInto a12 j) (Cert.KernelIdeal.KVal.dis a12 (ix1 j))
    (fun e => Cert.KernelIdeal.KVal.dis a12 (ix1 (edgeRow a11 e)))
    (fun e => ∑ k : Fin 32, X (ix2 (edgeRow a11 e) k) * W (ix2 k c))
    (fun e => Cert.KernelIdeal.KVal.dis a12 (ix1 (edgeRow a12 e)))
    (dis_real a12 j) (fun e _ => dis_real a12 _)
    (fun e _ => IsReal.sum _ _ fun k _ => IsReal.mul (hX _) (hW _))
    (fun e he => by
      have hj : edgeRow a12 e = j := dst_row a12 e j (Finset.mem_filter.mp he).2
      rw [hj])
  rw [key]

/-- A layer's output holds reals when its input, weight and bias do. -/
theorem layer_real (X : FVec Ideal S100000x32 .f32) (W : FVec Ideal S32x32 .f32) (b : FVec Ideal S32 .f32)
    (a11 a12 : IVec S2500000 32) (hX : ∀ i, IsReal (X i)) (hW : ∀ i, IsReal (W i)) (hb : ∀ i, IsReal (b i)) :
    ∀ i, IsReal (Cert.KernelIdeal.KVal.layer X W b a11 a12 i) := by
  intro i
  obtain ⟨j, c, rfl⟩ : ∃ (j : Fin 100000) (c : Fin 32), i = ix2 j c := ⟨i 0, i 1, eq_ix2 i⟩
  rw [layer_apply]
  exact IsReal.sup
    (IsReal.add
      (IsReal.mul (dis_real a12 j)
        (IsReal.sum _ _ fun e _ =>
          IsReal.mul (dis_real a12 _) (IsReal.sum _ _ fun k _ => IsReal.mul (hX _) (hW _))))
      (hb _))
    IsReal.zero

end Cert.Bridge

end
-- ==== Proof.BridgeHead.lean ====
/-
  The head: the kernel pads the 500000 triple rows with 7904 zero rows, applies (max (T·W₁ + b₁) 0)·W₂ + b₂ to all
  507904 rows in 62 blocks and keeps the first 500000 rows; the reference applies the same two products, biases and
  rectifier to the 500000 rows. Row r of the head sees only row r of T, and for r < 500000 the padded array's row r is
  T's row r.

  Both sides are read at a row r < 500000 and a column q < 3 as the one expression
    (∑ k < 32, max ((∑ l < 32, T(r, l) · W₁(l, k)) + b₁(k)) 0 · W₂(k, q)) + b₂(q):
  on the kernel's side the cut with zero offsets keeps the coordinates, the padded array at a row below 500000 is T
  there (the padding value never appears), and a vector seen as one row reads the vector; on the reference's side each
  product is the sum over the one contracted axis, each bias is broadcast along the rows, and the rectifier's second
  operand is the constant zero.
-/
import proofs.«419057_j12043088298451_4_alg».proof.Proof.BridgeDefs

set_option maxRecDepth 16384

noncomputable section

namespace Cert.Bridge

open Idealize.ShloMosaic Idealize.ShloMosaic.ValueIdx Cert.Law
open Cert.KernelIdeal (S100000x32 S64x32 S32x32 S32 S32x3 S3 S100000 S2500000 S500000 S500000x32 S500000x3)

/-! ## The reference's two products at an index -/

/-- The [500000, 32] × [32, 32] product at (r, k) is the sum over the contracted coordinate l of L(r, l) · R(l, k). -/
theorem dot_rows32_apply (L : FVec Ideal S500000x32 .f32) (R : FVec Ideal S32x32 .f32) (r : Fin 500000) (k : Fin 32) :
    Host.dotGeneral Cert.ReferenceIdeal.dot_S500000x32_S32x32_S500000x32_1_0_0_1_n_n none L R (ix2 r k)
      = ∑ l : Fin 32, L (ix2 r l) * R (ix2 l k) := by
  simp only [Host.dotGeneral]
  rw [Ideal.dotGeneral_apply,
    ← Equiv.sum_comp (ValueIdx.contrEquiv1 Cert.ReferenceIdeal.dot_S500000x32_S32x32_S500000x32_1_0_0_1_n_n 32 rfl rfl).symm]
  refine Finset.sum_congr rfl fun l _ => ?_
  have hl := ValueIdx.contrEquiv1_symm_val Cert.ReferenceIdeal.dot_S500000x32_S32x32_S500000x32_1_0_0_1_n_n 32 rfl rfl l
  have el : Cert.ReferenceIdeal.dot_S500000x32_S32x32_S500000x32_1_0_0_1_n_n.lhsIdx (ix2 r k)
      ((ValueIdx.contrEquiv1 Cert.ReferenceIdeal.dot_S500000x32_S32x32_S500000x32_1_0_0_1_n_n 32 rfl rfl).symm l)
        = ix2 r l := funext fun a => Fin.ext (by
    match a with
    | ⟨0, _⟩ => exact Cert.ReferenceIdeal.Read.lhs_main_v88_0 _ _
    | ⟨1, _⟩ => exact (Cert.ReferenceIdeal.Read.lhs_main_v88_1 _ _).trans hl)
  have er : Cert.ReferenceIdeal.dot_S500000x32_S32x32_S500000x32_1_0_0_1_n_n.rhsIdx (ix2 r k)
      ((ValueIdx.contrEquiv1 Cert.ReferenceIdeal.dot_S500000x32_S32x32_S500000x32_1_0_0_1_n_n 32 rfl rfl).symm l)
        = ix2 l k := funext fun a => Fin.ext (by
    match a with
    | ⟨0, _⟩ => exact (Cert.ReferenceIdeal.Read.rhs_main_v88_0 _ _).trans hl
    | ⟨1, _⟩ => exact Cert.ReferenceIdeal.Read.rhs_main_v88_1 _ _)
  rw [el, er]

/-- The [500000, 32] × [32, 3] product at (r, q) is the sum over the contracted coordinate k of L(r, k) · R(k, q). -/
theorem dot_rows3_apply (L : FVec Ideal S500000x32 .f32) (R : FVec Ideal S32x3 .f32) (r : Fin 500000) (q : Fin 3) :
    Host.dotGeneral Cert.ReferenceIdeal.dot_S500000x32_S32x3_S500000x3_1_0_0_1_n_n none L R (ix2 r q)
      = ∑ k : Fin 32, L (ix2 r k) * R (ix2 k q) := by
  simp only [Host.dotGeneral]
  rw [Ideal.dotGeneral_apply,
    ← Equiv.sum_comp (ValueIdx.contrEquiv1 Cert.ReferenceIdeal.dot_S500000x32_S32x3_S500000x3_1_0_0_1_n_n 32 rfl rfl).symm]
  refine Finset.sum_congr rfl fun k _ => ?_
  have hk := ValueIdx.contrEquiv1_symm_val Cert.ReferenceIdeal.dot_S500000x32_S32x3_S500000x3_1_0_0_1_n_n 32 rfl rfl k
  have el : Cert.ReferenceIdeal.dot_S500000x32_S32x3_S500000x3_1_0_0_1_n_n.lhsIdx (ix2 r q)
      ((ValueIdx.contrEquiv1 Cert.ReferenceIdeal.dot_S500000x32_S32x3_S500000x3_1_0_0_1_n_n 32 rfl rfl).symm k)
        = ix2 r k := funext fun a => Fin.ext (by
    match a with
    | ⟨0, _⟩ => exact Cert.ReferenceIdeal.Read.lhs_main_v93_0 _ _
    | ⟨1, _⟩ => exact (Cert.ReferenceIdeal.Read.lhs_main_v93_1 _ _).trans hk)
  have er : Cert.ReferenceIdeal.dot_S500000x32_S32x3_S500000x3_1_0_0_1_n_n.rhsIdx (ix2 r q)
      ((ValueIdx.contrEquiv1 Cert.ReferenceIdeal.dot_S500000x32_S32x3_S500000x3_1_0_0_1_n_n 32 rfl rfl).symm k)
        = ix2 k q := funext fun a => Fin.ext (by
    match a with
    | ⟨0, _⟩ => exact (Cert.ReferenceIdeal.Read.rhs_main_v93_0 _ _).trans hk
    | ⟨1, _⟩ => exact Cert.ReferenceIdeal.Read.rhs_main_v93_1 _ _)
  rw [el, er]

/-! ## The reference's biases and the rectifier's zero at an index -/

/-- The first bias broadcast along the rows reads, at (r, k), the bias at k. -/
theorem bias32_apply (a7 : FVec Ideal S32 .f32) (r : Fin 500000) (k : Fin 32) :
    Cert.ReferenceIdeal.Read.val_main_v90 (F := Ideal) a7 (ix2 r k) = a7 (ix1 k) := by
  rw [Cert.ReferenceIdeal.Read.val_main_v90_apply, Cert.ReferenceIdeal.Read.val_main_v89_apply]
  exact congrArg a7 (funext fun a => match a with | ⟨0, _⟩ => rfl)

/-- The second bias broadcast along the rows reads, at (r, q), the bias at q. -/
theorem bias3_apply (a9 : FVec Ideal S3 .f32) (r : Fin 500000) (q : Fin 3) :
    Cert.ReferenceIdeal.Read.val_main_v95 (F := Ideal) a9 (ix2 r q) = a9 (ix1 q) := by
  rw [Cert.ReferenceIdeal.Read.val_main_v95_apply, Cert.ReferenceIdeal.Read.val_main_v94_apply]
  exact congrArg a9 (funext fun a => match a with | ⟨0, _⟩ => rfl)

/-- The rectifier's second operand is zero everywhere. -/
theorem rectifier_zero_apply (i : Cert.ReferenceIdeal.S500000x32.Idx) :
    Cert.ReferenceIdeal.Read.val_main_call2_v0 (F := Ideal) i = (0 : EReal) := by
  rw [Cert.ReferenceIdeal.Read.val_main_call2_v0_apply, Cert.ReferenceIdeal.Read.val_main_call2_cst_apply]
  exact Ideal.ofBits_zero_f32

/-- The reference's head at row r, column q. -/
theorem refHead_apply (t : FVec Ideal S500000x32 .f32) (a6 : FVec Ideal S32x32 .f32) (a7 : FVec Ideal S32 .f32)
    (a8 : FVec Ideal S32x3 .f32) (a9 : FVec Ideal S3 .f32) (r : Fin 500000) (q : Fin 3) :
    refHead t a6 a7 a8 a9 (ix2 r q)
      = (∑ k : Fin 32, max ((∑ l : Fin 32, t (ix2 r l) * a6 (ix2 l k)) + a7 (ix1 k)) 0 * a8 (ix2 k q))
        + a9 (ix1 q) := by
  unfold refHead
  rw [addf_apply, dot_rows3_apply, bias3_apply]
  refine congrArg (· + a9 (ix1 q)) (Finset.sum_congr rfl fun k _ => ?_)
  rw [maximumf_apply, addf_apply, dot_rows32_apply, bias32_apply, rectifier_zero_apply]

/-! ## The kernel's side at an index -/

/-- The padded triple array at a row below 500000 is the triple array there. -/
theorem padded_apply (t : FVec Ideal S500000x32 .f32) (r : Fin 500000) (l : Fin 32) (h : r.val < 507904) :
    Cert.KernelIdeal.KVal.padded t (ix2 (⟨r.val, h⟩ : Fin 507904) l) = t (ix2 r l) := by
  unfold Cert.KernelIdeal.KVal.padded
  exact pad_apply_of_inside _ _ _ t _ _ _ _ (ix2 r l) (fun a => by
    match a with
    | ⟨0, _⟩ => show r.val = 0 + r.val * (0 + 1); omega
    | ⟨1, _⟩ => show l.val = 0 + l.val * (0 + 1); omega)

/-- The kernel's head, cut back to 500000 rows, at row r, column q. -/
theorem kernelHead_apply (t : FVec Ideal S500000x32 .f32) (a6 : FVec Ideal S32x32 .f32) (a7 : FVec Ideal S32 .f32)
    (a8 : FVec Ideal S32x3 .f32) (a9 : FVec Ideal S3 .f32) (r : Fin 500000) (q : Fin 3) :
    extractStridedSlice Cert.KernelIdeal.S500000x3 ![0, 0]
        (Spec.mlp (Cert.KernelIdeal.KVal.padded t) a6 (Cert.KernelIdeal.KVal.row32 a7) a8
          (shapeCast Cert.KernelIdeal.S1x3 a9 Cert.KernelIdeal.Gen.shapeCasts_S3_S1x3))
        Cert.KernelIdeal.Gen.slices_S507904x3_S500000x3_0_0 (ix2 r q)
      = (∑ k : Fin 32, max ((∑ l : Fin 32, t (ix2 r l) * a6 (ix2 l k)) + a7 (ix1 k)) 0 * a8 (ix2 k q))
        + a9 (ix1 q) := by
  have hr : r.val < 507904 := by omega
  refine (slice2_axis0_apply 0 _ Cert.KernelIdeal.Gen.slices_S507904x3_S500000x3_0_0 r q
    (⟨r.val, hr⟩ : Fin 507904) (Nat.zero_add _).symm).trans ?_
  show (∑ k : Fin 32,
      max ((∑ l : Fin 32, Cert.KernelIdeal.KVal.padded t (ix2 (⟨r.val, hr⟩ : Fin 507904) l) * a6 (ix2 l k))
        + Cert.KernelIdeal.KVal.row32 a7 (ix2 (0 : Fin 1) k)) 0 * a8 (ix2 k q))
      + shapeCast Cert.KernelIdeal.S1x3 a9 Cert.KernelIdeal.Gen.shapeCasts_S3_S1x3 (ix2 (0 : Fin 1) q)
    = _
  rw [shapeCast_a_1a_apply]
  refine congrArg (· + a9 (ix1 q)) (Finset.sum_congr rfl fun k _ => ?_)
  have hb : Cert.KernelIdeal.KVal.row32 a7 (ix2 (0 : Fin 1) k) = a7 (ix1 k) := by
    unfold Cert.KernelIdeal.KVal.row32
    exact shapeCast_a_1a_apply _ _ _ _
  rw [hb]
  refine congrArg (fun x => max (x + a7 (ix1 k)) 0 * a8 (ix2 k q)) (Finset.sum_congr rfl fun l _ => ?_)
  rw [padded_apply]

/-- THE HEAD: padding with zero rows, the head row by row over 62 blocks, and the cut back to 500000 rows, is the
    head on the 500000 rows. -/
theorem head_eq (t : FVec Ideal S500000x32 .f32) (a6 : FVec Ideal S32x32 .f32) (a7 : FVec Ideal S32 .f32)
    (a8 : FVec Ideal S32x3 .f32) (a9 : FVec Ideal S3 .f32) :
    extractStridedSlice Cert.KernelIdeal.S500000x3 ![0, 0]
        (Spec.mlp (Cert.KernelIdeal.KVal.padded t) a6 (Cert.KernelIdeal.KVal.row32 a7) a8
          (shapeCast Cert.KernelIdeal.S1x3 a9 Cert.KernelIdeal.Gen.shapeCasts_S3_S1x3))
        Cert.KernelIdeal.Gen.slices_S507904x3_S500000x3_0_0
      = refHead t a6 a7 a8 a9 := by
  funext i
  obtain ⟨r, q, rfl⟩ : ∃ (r : Fin 500000) (q : Fin 3), i = ix2 r q := ⟨i 0, i 1, eq_ix2 i⟩
  rw [kernelHead_apply, refHead_apply]

end Cert.Bridge

end
-- ==== Proof.Bridge.lean ====
/-
  The bridge assembled: the kernel program's value is the reference's last stage over the same argument arrays.
  The gathered entity rows are the same term; each GCN layer is the reference's by the layer law, its output real so
  that the next layer's law applies; the triple is the same gathers of the equal layer outputs; the head is the
  reference's by rows.
-/
import proofs.«419057_j12043088298451_4_alg».proof.Proof.BridgeLayer
import proofs.«419057_j12043088298451_4_alg».proof.Proof.BridgeHead

set_option maxRecDepth 16384

noncomputable section

namespace Cert.Bridge

open Idealize.ShloMosaic Idealize.ShloMosaic.ValueIdx Cert.Law
open Cert.KernelIdeal (S100000x32 S64x32 S32x32 S32 S32x3 S3 S100000 S2500000 S500000 S500000x32 S500000x3)

/-- The reference's stages 31–47 are its layer over the gathered entity rows (the same gather as the kernel's). -/
theorem ref_layer1 (a0 : FVec Ideal S100000x32 .f32) (a2 : FVec Ideal S32x32 .f32) (a3 : FVec Ideal S32 .f32)
    (a10 : IVec S100000 32) (a11 a12 : IVec S2500000 32) :
    refLayer (Cert.KernelIdeal.KVal.x0 a0 a10) a2 a3 a11 a12
      = Cert.ReferenceIdeal.Read.val_main_v47 (F := Ideal) a0 a2 a3 a10 a11 a12 := by
  unfold refLayer Cert.ReferenceIdeal.Read.val_main_v47 Cert.ReferenceIdeal.Read.val_main_v46 Cert.ReferenceIdeal.Read.val_main_v43
    Cert.ReferenceIdeal.Read.val_main_v40 Cert.ReferenceIdeal.Read.val_main_v38 Cert.ReferenceIdeal.Read.val_main_v31
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.KernelIdeal.KVal.x0 Cert.KernelIdeal.KVal.wrapN
  rfl

/-- The reference's stages 48–64 are its layer over stage 47: the second layer repeats the first's index, scale and
    zero stages under new names. -/
theorem ref_layer2 (a0 : FVec Ideal S100000x32 .f32) (a2 : FVec Ideal S32x32 .f32) (a3 : FVec Ideal S32 .f32)
    (a4 : FVec Ideal S32x32 .f32) (a5 : FVec Ideal S32 .f32) (a10 : IVec S100000 32) (a11 a12 : IVec S2500000 32) :
    refLayer (Cert.ReferenceIdeal.Read.val_main_v47 (F := Ideal) a0 a2 a3 a10 a11 a12) a4 a5 a11 a12
      = Cert.ReferenceIdeal.Read.val_main_v64 (F := Ideal) a0 a2 a3 a4 a5 a10 a11 a12 := by
  unfold refLayer Cert.ReferenceIdeal.Read.val_main_v64 Cert.ReferenceIdeal.Read.val_main_v63 Cert.ReferenceIdeal.Read.val_main_v60
    Cert.ReferenceIdeal.Read.val_main_v57 Cert.ReferenceIdeal.Read.val_main_v55 Cert.ReferenceIdeal.Read.val_main_v48
  rfl

/-- The reference's stages 65–96 are its head over the three gathers of stage 64, which are the kernel's triple. -/
theorem ref_head (a0 : FVec Ideal S100000x32 .f32) (a1 : FVec Ideal S64x32 .f32) (a2 : FVec Ideal S32x32 .f32)
    (a3 : FVec Ideal S32 .f32) (a4 : FVec Ideal S32x32 .f32) (a5 : FVec Ideal S32 .f32) (a6 : FVec Ideal S32x32 .f32)
    (a7 : FVec Ideal S32 .f32) (a8 : FVec Ideal S32x3 .f32) (a9 : FVec Ideal S3 .f32) (a10 : IVec S100000 32)
    (a11 a12 : IVec S2500000 32) (a13 a14 a15 : IVec S500000 32) :
    refHead (Cert.KernelIdeal.KVal.triple (Cert.ReferenceIdeal.Read.val_main_v64 (F := Ideal) a0 a2 a3 a4 a5 a10 a11 a12) a1 a13 a14 a15)
        a6 a7 a8 a9
      = Cert.ReferenceIdeal.Read.val_main_v96 (F := Ideal) a0 a1 a2 a3 a4 a5 a6 a7 a8 a9 a10 a11 a12 a13 a14 a15 := by
  unfold refHead Cert.ReferenceIdeal.Read.val_main_v96 Cert.ReferenceIdeal.Read.val_main_v93 Cert.ReferenceIdeal.Read.val_main_v92
    Cert.ReferenceIdeal.Read.val_main_v91 Cert.ReferenceIdeal.Read.val_main_v88 Cert.ReferenceIdeal.Read.val_main_v87
    Cert.ReferenceIdeal.Read.val_main_v86 Cert.ReferenceIdeal.Read.val_main_v79 Cert.ReferenceIdeal.Read.val_main_v78
    Cert.ReferenceIdeal.Read.val_main_v71 Cert.KernelIdeal.KVal.triple Cert.KernelIdeal.KVal.wrapT
  rfl

/-- THE RESULT: the kernel program's value is the reference's last stage, when the entity table, the two GCN weights
    and the first bias hold reals. -/
theorem out_eq (a0 : FVec Ideal S100000x32 .f32) (a1 : FVec Ideal S64x32 .f32) (a2 : FVec Ideal S32x32 .f32)
    (a3 : FVec Ideal S32 .f32) (a4 : FVec Ideal S32x32 .f32) (a5 : FVec Ideal S32 .f32) (a6 : FVec Ideal S32x32 .f32)
    (a7 : FVec Ideal S32 .f32) (a8 : FVec Ideal S32x3 .f32) (a9 : FVec Ideal S3 .f32) (a10 : IVec S100000 32)
    (a11 a12 : IVec S2500000 32) (a13 a14 a15 : IVec S500000 32)
    (h0 : ∀ i, IsReal (a0 i)) (h2 : ∀ i, IsReal (a2 i)) (h3 : ∀ i, IsReal (a3 i)) (h4 : ∀ i, IsReal (a4 i)) :
    Cert.KernelIdeal.KVal.out a0 a1 a2 a3 a4 a5 a6 a7 a8 a9 a10 a11 a12 a13 a14 a15
      = Cert.ReferenceIdeal.Read.val_main_v96 (F := Ideal) a0 a1 a2 a3 a4 a5 a6 a7 a8 a9 a10 a11 a12 a13 a14 a15 := by
  -- the gathered entity rows hold reals, so the first layer's law applies; its output holds reals, so the second's does
  have hx0 := x0_real a0 a10 h0
  have hx1 := layer_real (Cert.KernelIdeal.KVal.x0 a0 a10) a2 a3 a11 a12 hx0 h2 h3
  -- the first layer is the reference's stage 47
  have e1 : Cert.KernelIdeal.KVal.layer (Cert.KernelIdeal.KVal.x0 a0 a10) a2 a3 a11 a12
      = Cert.ReferenceIdeal.Read.val_main_v47 (F := Ideal) a0 a2 a3 a10 a11 a12 :=
    (layer_eq _ a2 a3 a11 a12 hx0 h2).trans (ref_layer1 a0 a2 a3 a10 a11 a12)
  -- the second layer is the reference's stage 64
  have e2 : Cert.KernelIdeal.KVal.layer (Cert.KernelIdeal.KVal.layer (Cert.KernelIdeal.KVal.x0 a0 a10) a2 a3 a11 a12) a4 a5 a11 a12
      = Cert.ReferenceIdeal.Read.val_main_v64 (F := Ideal) a0 a2 a3 a4 a5 a10 a11 a12 :=
    (layer_eq _ a4 a5 a11 a12 hx1 h4).trans ((congrArg (fun X => refLayer X a4 a5 a11 a12) e1).trans
      (ref_layer2 a0 a2 a3 a4 a5 a10 a11 a12))
  unfold Cert.KernelIdeal.KVal.out
  rw [head_eq, e2]
  exact ref_head a0 a1 a2 a3 a4 a5 a6 a7 a8 a9 a10 a11 a12 a13 a14 a15

end Cert.Bridge

end
-- ==== Proof.Finite.lean ====
/-
  The finiteness precondition read: every entry of the float arguments the bridge's law needs is a real number.
  The precondition is, per float argument, the conjunction over all entries of |x| < +∞ (an and-reduction of the
  comparison against the word of +∞), all conjoined; an extended real whose magnitude is below +∞ is a real.
-/
import proofs.«419057_j12043088298451_4_alg».proof.Proof.Gen.Pre_finite_inputs
import proofs.«419057_j12043088298451_4_alg».proof.Proof.Law
import Idealize.ShloMosaic.Lib.ReduceAll
import Idealize.ShloMosaic.Lib.ValueIdx

noncomputable section

namespace Cert.Finite

open Idealize.ShloMosaic Cert.Pre_finite_inputs Cert.Law

variable [Cert.Pre_finite_inputs.Facts]

/-- A rank-0 array has one index. -/
instance subsingleton_scalar_idx : Subsingleton S_.Idx := ⟨fun a b => funext fun d => d.elim0⟩

/-- The f32 word 0x7F800000 (sign 0, exponent field all ones, significand field 0) is +∞. -/
theorem ofBits_inf_f32 : Ideal.ofBits .f32 0x7F800000#32 = ⊤ := by simp [Ideal.ofBits, Ideal.ieee]

/-- A conjunction of two one-bit arrays is 1 at an index exactly when both are. -/
theorem andi_apply_eq_one {s : Shape} (x y : IVec s 1) (i : s.Idx) : andi x y i = 1#1 ↔ x i = 1#1 ∧ y i = 1#1 :=
  IntOp.andi_eq_one

/-- One argument's conjunct: if the and-reduction over all axes of |x| < +∞ is 1, every entry of x is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) :
    ∀ i, IsReal (x i) := by
  intro i
  -- every compared entry is 1
  have hi := Host.reduce_andi_all _ _ hr hu ValueIdx.ix0 e i
  -- at the extended reals the entry's comparison is max (x i) (-(x i)) < +∞
  have hc : Ideal.cmp .olt (max (x i) (-(x i))) (Ideal.ofBits .f32 0x7F800000#32) = 1#1 := hi
  rw [ofBits_inf_f32] at hc
  have hlt : max (x i) (-(x i)) < ⊤ := by
    -- the ordered comparison is the one-bit word of the decided inequality: were it false, the word would be 0
    by_contra hn
    have hd : BitVec.ofBool (decide (max (x i) (-(x i)) < ⊤)) = 1#1 := hc
    rw [decide_eq_false hn] at hd
    exact absurd hd (by decide)
  exact IsReal.of_abs_lt_top hlt

/-- Under the precondition the entity table, both GCN weights and the first bias hold real numbers. -/
theorem real_args (a0 : FVec Ideal S100000x32 .f32) (a1 : FVec Ideal S64x32 .f32) (a2 : FVec Ideal S32x32 .f32)
    (a3 : FVec Ideal S32 .f32) (a4 : FVec Ideal S32x32 .f32) (a5 : FVec Ideal S32 .f32) (a6 : FVec Ideal S32x32 .f32)
    (a7 : FVec Ideal S32 .f32) (a8 : FVec Ideal S32x3 .f32) (a9 : FVec Ideal S3 .f32) (a10 : IVec S100000 32)
    (a11 a12 : IVec S2500000 32) (a13 a14 a15 : IVec S500000 32)
    (h : Cert.Pre_finite_inputs.fn (F := Ideal) a0 a1 a2 a3 a4 a5 a6 a7 a8 a9 a10 a11 a12 a13 a14 a15 = fun _ => 1#1) :
    (∀ i, IsReal (a0 i)) ∧ (∀ i, IsReal (a2 i)) ∧ (∀ i, IsReal (a3 i)) ∧ (∀ i, IsReal (a4 i)) := by
  -- the precondition at its one index, as the printed chain of operations
  have h0 := congrFun h ValueIdx.ix0
  unfold Cert.Pre_finite_inputs.fn Cert.Pre_finite_inputs.fn_part1 Cert.Pre_finite_inputs.fn_part2 at h0
  dsimp only at h0
  -- the conjunction nests to the left, argument 0 innermost: peel the later arguments off from the outside
  obtain ⟨h43, -⟩ := (andi_apply_eq_one _ _ _).1 h0
  obtain ⟨h38, -⟩ := (andi_apply_eq_one _ _ _).1 h43
  obtain ⟨h33, -⟩ := (andi_apply_eq_one _ _ _).1 h38
  obtain ⟨h28, -⟩ := (andi_apply_eq_one _ _ _).1 h33
  obtain ⟨h23, -⟩ := (andi_apply_eq_one _ _ _).1 h28
  -- the conjuncts of arguments 4, 3, 2 and 0
  obtain ⟨h18, h22⟩ := (andi_apply_eq_one _ _ _).1 h23
  obtain ⟨h13, h17⟩ := (andi_apply_eq_one _ _ _).1 h18
  obtain ⟨h8, h12⟩ := (andi_apply_eq_one _ _ _).1 h13
  obtain ⟨h3, -⟩ := (andi_apply_eq_one _ _ _).1 h8
  exact ⟨real_of_all a0 _ _ _ h3, real_of_all a2 _ _ _ h12, real_of_all a3 _ _ _ h17, real_of_all a4 _ _ _ h22⟩

end Cert.Finite

end
-- ==== Proof.lean ====
/-
  A two-layer graph convolution followed by a two-layer head on triples: the Pallas program against its jnp reference.

  Both programs gather the entity rows the node ids name, append one self loop per node to the edge lists, count the
  degree of every node over the destination words and take its inverse square root `dis`. A layer of the kernel
  program scales the rows of X · W by `dis` (pallas call), gathers the rows the source words name, sums them into the
  rows the destination words name (host), then scales the sum by `dis` again, adds the bias and rectifies (pallas
  call); the reference scales each gathered row of X · W by `dis[src] · dis[dst]` inside the sum. Over the extended
  reals the factor `dis[j]` moves into the sum over the edges into `j` because every term is a real number: the inputs
  are finite (the precondition), and a degree is at least one — the node's own self loop — so `dis` is real. The head
  is the same function of the same rows on both sides; the kernel pads the rows to whole blocks and cuts them back.

  The three frames are the generated ones (the reference's is its generated run with the result dropped); nothing was
  rewritten by the idealization, so `preserves` is trivial; `algebraic` is the kernel's run with its result buffer
  named (the generated launch over the generated segments), the value walked back to the argument arrays, and the
  bridge to the reference's last stage.
-/
import proofs.«419057_j12043088298451_4_alg».proof.Defs
import proofs.«419057_j12043088298451_4_alg».proof.Proof.Gen.Kernel
import proofs.«419057_j12043088298451_4_alg».proof.Proof.Gen.Kernel.Skeleton
import proofs.«419057_j12043088298451_4_alg».proof.Proof.Gen.Kernel.Launch
import proofs.«419057_j12043088298451_4_alg».proof.Proof.Gen.Kernel.Points
import proofs.«419057_j12043088298451_4_alg».proof.Proof.Gen.Kernel.Frame
import proofs.«419057_j12043088298451_4_alg».proof.Proof.Gen.KernelIdeal
import proofs.«419057_j12043088298451_4_alg».proof.Proof.Gen.KernelIdeal.Skeleton
import proofs.«419057_j12043088298451_4_alg».proof.Proof.Gen.KernelIdeal.Launch
import proofs.«419057_j12043088298451_4_alg».proof.Proof.Gen.KernelIdeal.Points
import proofs.«419057_j12043088298451_4_alg».proof.Proof.Gen.KernelIdeal.Frame
import proofs.«419057_j12043088298451_4_alg».proof.Proof.Gen.ReferenceIdeal
import proofs.«419057_j12043088298451_4_alg».proof.Proof.Gen.ReferenceIdeal.Run
import proofs.«419057_j12043088298451_4_alg».proof.Proof.Gen.ReferenceIdeal.Read
import proofs.«419057_j12043088298451_4_alg».proof.Proof.Gen.Pre_finite_inputs
import proofs.«419057_j12043088298451_4_alg».proof.Proof.RunValue
import proofs.«419057_j12043088298451_4_alg».proof.Proof.KChain
import proofs.«419057_j12043088298451_4_alg».proof.Proof.Bridge
import proofs.«419057_j12043088298451_4_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result: the kernel's result buffer holds
    `KVal.out` of the arguments (the run with the result named, then the walk back through @main), the reference's holds
    its last stage of the same arguments, and under the finiteness precondition the two are equal (`Bridge.out_eq`). -/
theorem algebraic : Cert.algebraic_KernelIdeal_ReferenceIdeal := by
  intro m ρ m' ρ' hpre hagree
  refine ⟨fun c => Cert.KernelIdeal.Gen.W12 m ρ c (Proc.devRef .tc Cert.KernelIdeal.main_v69),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v96 m' c
    = Cert.KernelIdeal.Gen.W12 m ρ c (Proc.devRef .tc Cert.KernelIdeal.main_v69)
  obtain ⟨g0, g1, g2, g3, g4, g5, g6, g7, g8, g9, g10, g11, g12, g13, g14, g15⟩ := hagree c
  obtain ⟨r0, r2, r3, r4⟩ := Cert.Finite.real_args _ _ _ _ _ _ _ _ _ _ _ _ _ _ _ _ (hpre c)
  rw [Cert.ReferenceIdeal.Read.val_main_v96_eq, g0, g1, g2, g3, g4, g5, g6, g7, g8, g9, g10, g11, g12, g13, g14, g15,
    Cert.KernelIdeal.KChain.value]
  exact (Cert.Bridge.out_eq _ _ _ _ _ _ _ _ _ _ _ _ _ _ _ _ r0 r2 r3 r4).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
